-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S4096x256 .f32 .bf16
  ∧ IdealRules.truncf_extf.Statement Cert.KernelIdeal.S4096x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144 : Shape := ⟨1, ![262144]⟩
abbrev S8x256 : Shape := ⟨2, ![8, 256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S8x256 : S_.BroadcastsInDim S8x256 (![] : Fin 0 → Fin S8x256.rank)
  reducesTo_S8x256_S_d0_1 : S8x256.ReducesTo [0, 1] S_
  bcast_S_S262144 : S_.BroadcastsInDim S262144 (![] : Fin 0 → Fin S262144.rank)
  reducesTo_S262144_S_d0 : S262144.ReducesTo [0] S_

variable [Facts]

def fn_part1 {F : FTy → Type} [FloatOps F] (main_arg1 : IVec S262144 32) (main_v13 : IVec S_ 1) (main_v15 : IVec S262144 1) (main_c_5 : IVec S_ 32) : IVec S_ 1 :=
  let main_v16 : IVec S262144 32 := broadcastInDim S262144 ![] bcast_S_S262144 main_c_5
  let main_v17 : IVec S262144 1 := cmpi .slt main_arg1 main_v16
  let main_v18 : IVec S262144 1 := andi main_v15 main_v17
  let main_c_6 : IVec S_ 1 := constantI S_ 1 1#1
  let main_v19 : IVec S_ 1 := (fun x v => Host.reduce IntOp.andi x v reducesTo_S262144_S_d0 h_S_) main_v18 main_c_6
  let main_v20 : IVec S_ 1 := andi main_v13 main_v19
  main_v20

def fn {F : FTy → Type} [FloatOps F] (main_arg0 : FVec F S262144x256 .f32) (main_arg1 : IVec S262144 32) (main_arg2 : FVec F S8x256 .f32) (main_arg3 : FVec F S8x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S8x256 .f32 := Host.absf main_arg2
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S8x256 .f32 := Host.absf main_arg3
  let main_cst_2 : FVec F S_ .f32 := constant S_ .f32 0x7F800000#32
  let main_v10 : FVec F S8x256 .f32 := broadcastInDim S8x256 ![] bcast_S_S8x256 main_cst_2
  let main_v11 : IVec S8x256 1 := cmpf .olt main_v9 main_v10
  let main_c_3 : IVec S_ 1 := constantI S_ 1 1#1
  let main_v12 : IVec S_ 1 := (fun x v => Host.reduce IntOp.andi x v reducesTo_S8x256_S_d0_1 h_S_) main_v11 main_c_3
  let main_v13 : IVec S_ 1 := andi main_v8 main_v12
  let main_c_4 : IVec S_ 32 := constantI S_ 32 0#32
  let main_v14 : IVec S262144 32 := broadcastInDim S262144 ![] bcast_S_S262144 main_c_4
  let main_v15 : IVec S262144 1 := cmpi .sge main_arg1 main_v14
  let main_c_5 : IVec S_ 32 := constantI S_ 32 8#32
  fn_part1 (F := F) main_arg1 main_v13 main_v15 main_c_5
-- ==== Kernel.lean ====
abbrev S262144x256 : Shape := ⟨2, ![262144, 256]⟩
abbrev S262144 : Shape := ⟨1, ![262144]⟩
abbrev S8x256 : Shape := ⟨2, ![8, 256]⟩
abbrev S262144x1 : Shape := ⟨2, ![262144, 1]⟩
abbrev S2x8x256 : Shape := ⟨3, ![2, 8, 256]⟩
abbrev S4096x256 : Shape := ⟨2, ![4096, 256]⟩
abbrev S4096x1 : Shape := ⟨2, ![4096, 1]⟩
abbrev S1x8x256 : Shape := ⟨3, ![1, 8, 256]⟩
abbrev S4096x128 : Shape := ⟨2, ![4096, 128]⟩
abbrev S128x256 : Shape := ⟨2, ![128, 256]⟩
abbrev S_ : Shape := ⟨0, ![]⟩
abbrev S8x1 : Shape := ⟨2, ![8, 1]⟩

abbrev nBuf : Space → Nat
  | .hbm => 58
  | .vmem => 20
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S8x256, .f32⟩
  | .hbm, ⟨3, _⟩ => ⟨S8x256, .f32⟩
  | .hbm, ⟨4, _⟩ => ⟨S262144x1, .i32⟩
  | .hbm, ⟨5, _⟩ => ⟨S2x8x256, .f32⟩
  | .hbm, ⟨6, _⟩ => ⟨S2x8x256, .f32⟩
  | .hbm, ⟨7, _⟩ => ⟨S2x8x256, .f32⟩
  | .hbm, ⟨8, _⟩ => ⟨S_, .f32⟩
  | .hbm, ⟨9, _⟩ => ⟨S8x256, .f32⟩
  | .hbm, ⟨10, _⟩ => ⟨S_, .f32⟩
  | .hbm, ⟨11, _⟩ => ⟨S8x256, .f32⟩
  | .hbm, ⟨12, _⟩ => ⟨S_, .f32⟩
  | .hbm, ⟨13, _⟩ => ⟨S8x256, .f32⟩
  | .hbm, ⟨14, _⟩ => ⟨S8x1, .f32⟩
  | .hbm, ⟨15, _⟩ => ⟨S_, .f32⟩
  | .hbm, ⟨16, _⟩ => ⟨S8x1, .f32⟩
  | .hbm, ⟨17, _⟩ => ⟨S8x1, .f32⟩
  | .hbm, ⟨18, _⟩ => ⟨S8x256, .f32⟩
  | .hbm, ⟨19, _⟩ => ⟨S8x256, .f32⟩
  | .hbm, ⟨20, _⟩ => ⟨S8x256, .f32⟩
  | .hbm, ⟨21, _⟩ => ⟨S8x256, .f32⟩
  | .hbm, ⟨22, _⟩ => ⟨S8x256, .f32⟩
  | .hbm, ⟨23, _⟩ => ⟨S8x256, .f32⟩
  | .hbm, ⟨24, _⟩ => ⟨S_, .f32⟩
  | .hbm, ⟨25, _⟩ => ⟨S8x256, .f32⟩
  | .hbm, ⟨26, _⟩ => ⟨S8x256, .f32⟩
  | .hbm, ⟨27, _⟩ => ⟨S8x256, .f32⟩
  | .hbm, ⟨28, _⟩ => ⟨S8x1, .f32⟩
  | .hbm, ⟨29, _⟩ => ⟨S_, .f32⟩
  | .hbm, ⟨30, _⟩ => ⟨S8x1, .f32⟩
  | .hbm, ⟨31, _⟩ => ⟨S8x1, .i1⟩
  | .hbm, ⟨32, _⟩ => ⟨S8x256, .f32⟩
  | .hbm, ⟨33, _⟩ => ⟨S_, .f32⟩
  | .hbm, ⟨34, _⟩ => ⟨S8x256, .f32⟩
  | .hbm, ⟨35, _⟩ => ⟨S8x256, .i1⟩
  | .hbm, ⟨36, _⟩ => ⟨S8x256, .f32⟩
  | .hbm, ⟨37, _⟩ => ⟨S8x256, .f32⟩
  | .hbm, ⟨38, _⟩ => ⟨S8x256, .f32⟩
  | .hbm, ⟨39, _⟩ => ⟨S_, .f32⟩
  | .hbm, ⟨40, _⟩ => ⟨S8x256, .f32⟩
  | .hbm, ⟨41, _⟩ => ⟨S8x256, .i1⟩
  | .hbm, ⟨42, _⟩ => ⟨S8x256, .f32⟩
  | .hbm, ⟨43, _⟩ => ⟨S_, .i32⟩
  | .hbm, ⟨44, _⟩ => ⟨S_, .f32⟩
  | .hbm, ⟨45, _⟩ => ⟨S128x256, .f32⟩
  | .hbm, ⟨46, _⟩ => ⟨S_, .i32⟩
  | .hbm, ⟨47, _⟩ => ⟨S_, .f32⟩
  | .hbm, ⟨48, _⟩ => ⟨S128x256, .f32⟩
  | .hbm, ⟨49, _⟩ => ⟨S128x256, .bf16⟩
  | .hbm, ⟨50, _⟩ => ⟨S128x256, .f32⟩
  | .hbm, ⟨51, _⟩ => ⟨S128x256, .f32⟩
  | .hbm, ⟨52, _⟩ => ⟨S128x256, .bf16⟩
  | .hbm, ⟨53, _⟩ => ⟨S128x256, .bf16⟩
  | .hbm, ⟨54, _⟩ => ⟨S128x256, .f32⟩
  | .hbm, ⟨55, _⟩ => ⟨S128x256, .f32⟩
  | .hbm, ⟨56, _⟩ => ⟨S128x256, .bf16⟩
  | .hbm, ⟨57, _⟩ => ⟨S262144x256, .f32⟩
  | .local _ .vmem, ⟨0, _⟩ => ⟨S4096x256, .f32⟩
  | .local _ .vmem, ⟨1, _⟩ => ⟨S4096x256, .f32⟩
  | .local _ .vmem, ⟨2, _⟩ => ⟨S4096x1, .i32⟩
  | .local _ .vmem, ⟨3, _⟩ => ⟨S4096x1, .i32⟩
  | .local _ .vmem, ⟨4, _⟩ => ⟨S1x8x256, .f32⟩
  | .local _ .vmem, ⟨5, _⟩ => ⟨S1x8x256, .f32⟩
  | .local _ .vmem, ⟨6, _⟩ => ⟨S1x8x256, .f32⟩
  | .local _ .vmem, ⟨7, _⟩ => ⟨S1x8x256, .f32⟩
  | .local _ .vmem, ⟨8, _⟩ => ⟨S1x8x256, .f32⟩
  | .local _ .vmem, ⟨9, _⟩ => ⟨S1x8x256, .f32⟩
  | .local _ .vmem, ⟨10, _⟩ => ⟨S4096x256, .f32⟩
  | .local _ .vmem, ⟨11, _⟩ => ⟨S4096x256, .f32⟩
  | .local _ .vmem, ⟨12, _⟩ => ⟨S4096x1, .i32⟩
  | .local _ .vmem, ⟨13, _⟩ => ⟨S4096x1, .i32⟩
  | .local _ .vmem, ⟨14, _⟩ => ⟨S128x256, .bf16⟩
  | .local _ .vmem, ⟨15, _⟩ => ⟨S128x256, .bf16⟩
  | .local _ .vmem, ⟨16, _⟩ => ⟨S128x256, .bf16⟩
  | .local _ .vmem, ⟨17, _⟩ => ⟨S128x256, .bf16⟩
  | .local _ .vmem, ⟨18, _⟩ => ⟨S4096x256, .f32⟩
  | .local _ .vmem, ⟨19, _⟩ => ⟨S4096x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_call0_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_call1_v0 : Ref sig .tc := ⟨.hbm, 41, rfl⟩
abbrev main_v26 : Ref sig .tc := ⟨.hbm, 42, rfl⟩
abbrev main_c : Ref sig .tc := ⟨.hbm, 43, rfl⟩
abbrev main_call2_v0 : Ref sig .tc := ⟨.hbm, 44, rfl⟩
abbrev main_v27 : Ref sig .tc := ⟨.hbm, 45, rfl⟩
abbrev main_c_7 : Ref sig .tc := ⟨.hbm, 46, rfl⟩
abbrev main_call3_v0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4096x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S262144_S262144x1 : S262144.ShapeCasts S262144x1
  inb_S1x8x256_S1x8x256_0_0_0 : ∀ a, (![0, 0, 0] : Fin 3 → Nat) a + S1x8x256.size a ≤ S1x8x256.size a
  h_S1x8x256 : 0 < S1x8x256.numel
  shapeCasts_S1x8x256_S8x256 : S1x8x256.ShapeCasts S8x256
  shapeCasts_S8x256_S1x8x256 : S8x256.ShapeCasts S1x8x256
  inb_S4096x256_S4096x256_0_0 : ∀ a, (![0, 0] : Fin 2 → Nat) a + S4096x256.size a ≤ S4096x256.size a
  h_S4096x256 : 0 < S4096x256.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x128_d1_w32 : S4096x128.Iotas .tc 32 [1]
  broadcasts_S4096x1_S4096x128 : S4096x1.Broadcasts S4096x128
  natLt_1_32 : 1 < 32
  bitsLt_bf16_f32 : FTy.bits .bf16 < FTy.bits .f32
  slices_S128x256_o0_0_S8x256 : S128x256.Slices ![0, 0] S8x256
  reducesTo_S2x8x256_S8x256_d0 : S2x8x256.ReducesTo [0] S8x256
  h_S_ : 0 < S_.numel
  slices_S8x256_S8x1_0_0 : S8x256.Slices ![0, 0] S8x1
  bcast_S_S8x1 : S_.BroadcastsInDim S8x1 (![] : Fin 0 → Fin S8x1.rank)
  bcast_S8x1_S8x256_0_1 : S8x1.BroadcastsInDim S8x256 (![0, 1] : Fin 2 → Fin S8x256.rank)
  bcast_S_S8x256 : S_.BroadcastsInDim S8x256 (![] : Fin 0 → Fin S8x256.rank)
  pads_S8x256_S128x256_01200_000 : S8x256.Pads (![0, 0] : Fin 2 → Nat) ![120, 0] ![0, 0] S128x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  dot_S4096x128_S4096x256_S128x256_0_0_1_1_n_n_wf : DotDims.WF S4096x128 S4096x256 S128x256 [0] [0] [1] [1] [] []
  dot_S4096x128_S128x256_S4096x256_1_0_0_1_n_n_wf : DotDims.WF S4096x128 S128x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S262144x1.size a
  hwx0_1 : ∀ i : grid0.Coords, EltTy.bits .i32 = 32 ∨ (Rect.block (s := S262144x1) S4096x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x256.size a ≤ S2x8x256.size a
  hwx0_2 : ∀ i : grid0.Coords, EltTy.bits .f32 = 32 ∨ (Rect.block (s := S2x8x256) S1x8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x256.size a ≤ S2x8x256.size a
  hwx0_3 : ∀ i : grid0.Coords, EltTy.bits .f32 = 32 ∨ (Rect.block (s := S2x8x256) S1x8x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x256.size a ≤ S2x8x256.size a
  hwx0_4 : ∀ i : grid0.Coords, EltTy.bits .f32 = 32 ∨ (Rect.block (s := S2x8x256) S1x8x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S262144x256.size a
  hwx1_0 : ∀ i : grid1.Coords, EltTy.bits .f32 = 32 ∨ (Rect.block (s := S262144x256) S4096x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S262144x1.size a
  hwx1_1 : ∀ i : grid1.Coords, EltTy.bits .i32 = 32 ∨ (Rect.block (s := S262144x1) S4096x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .bf16 = 32 ∨ (Rect.block (s := S128x256) S128x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .bf16 = 32 ∨ (Rect.block (s := S128x256) S128x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .bf16 = 32 ∨ (Rect.block (s := S128x256) S128x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S128x256.size a
  hwx1_5 : ∀ i : grid1.Coords, EltTy.bits .bf16 = 32 ∨ (Rect.block (s := S128x256) S128x256.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4096x256.size a ≤ S262144x256.size a
  hwx1_6 : ∀ i : grid1.Coords, EltTy.bits .f32 = 32 ∨ (Rect.block (s := S262144x256) S4096x256.size (cc1_transform_6 i) (hinb1_6 i)).WholeWords (EltTy.packing .f32)

variable [Facts₀]

def dot_S4096x128_S4096x256_S128x256_0_0_1_1_n_n : DotDims S4096x128 S4096x256 S128x256 where
  lhsContracting := [0]
  rhsContracting := [0]
  lhsNonContracting := [1]
  rhsNonContracting := [1]
  lhsBatch := []
  rhsBatch := []
  wf := dot_S4096x128_S4096x256_S128x256_0_0_1_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x8x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x8x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x8x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S4096x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S262144x256 : Shape := ⟨2, ![262144, 256]⟩
abbrev S262144 : Shape := ⟨1, ![262144]⟩
abbrev S8x256 : Shape := ⟨2, ![8, 256]⟩
abbrev S_ : Shape := ⟨0, ![]⟩
abbrev S8 : Shape := ⟨1, ![8]⟩
abbrev S262144x1 : Shape := ⟨2, ![262144, 1]⟩
abbrev S8x1 : Shape := ⟨2, ![8, 1]⟩

abbrev nBuf : Space → Nat
  | .hbm => 88
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S8x256, .f32⟩
  | .hbm, ⟨3, _⟩ => ⟨S8x256, .f32⟩
  | .hbm, ⟨4, _⟩ => ⟨S_, .f32⟩
  | .hbm, ⟨5, _⟩ => ⟨S262144, .f32⟩
  | .hbm, ⟨6, _⟩ => ⟨S_, .f32⟩
  | .hbm, ⟨7, _⟩ => ⟨S8, .f32⟩
  | .hbm, ⟨8, _⟩ => ⟨S262144x1, .i32⟩
  | .hbm, ⟨9, _⟩ => ⟨S8, .f32⟩
  | .hbm, ⟨10, _⟩ => ⟨S_, .f32⟩
  | .hbm, ⟨11, _⟩ => ⟨S8x256, .f32⟩
  | .hbm, ⟨12, _⟩ => ⟨S262144x1, .i32⟩
  | .hbm, ⟨13, _⟩ => ⟨S8x256, .f32⟩
  | .hbm, ⟨14, _⟩ => ⟨S262144x256, .f32⟩
  | .hbm, ⟨15, _⟩ => ⟨S_, .f32⟩
  | .hbm, ⟨16, _⟩ => ⟨S8x256, .f32⟩
  | .hbm, ⟨17, _⟩ => ⟨S262144x1, .i32⟩
  | .hbm, ⟨18, _⟩ => ⟨S8x256, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S8x1, .f32⟩
  | .hbm, ⟨23, _⟩ => ⟨S8x256, .f32⟩
  | .hbm, ⟨24, _⟩ => ⟨S8x256, .f32⟩
  | .hbm, ⟨25, _⟩ => ⟨S8x256, .f32⟩
  | .hbm, ⟨26, _⟩ => ⟨S8x256, .f32⟩
  | .hbm, ⟨27, _⟩ => ⟨S8x256, .f32⟩
  | .hbm, ⟨28, _⟩ => ⟨S8x256, .f32⟩
  | .hbm, ⟨29, _⟩ => ⟨S_, .f32⟩
  | .hbm, ⟨30, _⟩ => ⟨S8x256, .f32⟩
  | .hbm, ⟨31, _⟩ => ⟨S8x256, .f32⟩
  | .hbm, ⟨32, _⟩ => ⟨S8x256, .f32⟩
  | .hbm, ⟨33, _⟩ => ⟨S_, .i32⟩
  | .hbm, ⟨34, _⟩ => ⟨S262144, .i32⟩
  | .hbm, ⟨35, _⟩ => ⟨S262144, .i1⟩
  | .hbm, ⟨36, _⟩ => ⟨S_, .i32⟩
  | .hbm, ⟨37, _⟩ => ⟨S262144, .i32⟩
  | .hbm, ⟨38, _⟩ => ⟨S262144, .i32⟩
  | .hbm, ⟨39, _⟩ => ⟨S262144, .i32⟩
  | .hbm, ⟨40, _⟩ => ⟨S262144x1, .i32⟩
  | .hbm, ⟨41, _⟩ => ⟨S262144x256, .f32⟩
  | .hbm, ⟨42, _⟩ => ⟨S262144x256, .f32⟩
  | .hbm, ⟨43, _⟩ => ⟨S_, .i32⟩
  | .hbm, ⟨44, _⟩ => ⟨S262144, .i32⟩
  | .hbm, ⟨45, _⟩ => ⟨S262144, .i1⟩
  | .hbm, ⟨46, _⟩ => ⟨S_, .i32⟩
  | .hbm, ⟨47, _⟩ => ⟨S262144, .i32⟩
  | .hbm, ⟨48, _⟩ => ⟨S262144, .i32⟩
  | .hbm, ⟨49, _⟩ => ⟨S262144, .i32⟩
  | .hbm, ⟨50, _⟩ => ⟨S262144x1, .i32⟩
  | .hbm, ⟨51, _⟩ => ⟨S262144x256, .f32⟩
  | .hbm, ⟨52, _⟩ => ⟨S262144x256, .f32⟩
  | .hbm, ⟨53, _⟩ => ⟨S_, .i32⟩
  | .hbm, ⟨54, _⟩ => ⟨S262144, .i32⟩
  | .hbm, ⟨55, _⟩ => ⟨S262144, .i1⟩
  | .hbm, ⟨56, _⟩ => ⟨S_, .i32⟩
  | .hbm, ⟨57, _⟩ => ⟨S262144, .i32⟩
  | .hbm, ⟨58, _⟩ => ⟨S262144, .i32⟩
  | .hbm, ⟨59, _⟩ => ⟨S262144, .i32⟩
  | .hbm, ⟨60, _⟩ => ⟨S262144x1, .i32⟩
  | .hbm, ⟨61, _⟩ => ⟨S262144x256, .f32⟩
  | .hbm, ⟨62, _⟩ => ⟨S262144x256, .f32⟩
  | .hbm, ⟨63, _⟩ => ⟨S_, .i32⟩
  | .hbm, ⟨64, _⟩ => ⟨S262144, .i32⟩
  | .hbm, ⟨65, _⟩ => ⟨S262144, .i1⟩
  | .hbm, ⟨66, _⟩ => ⟨S_, .i32⟩
  | .hbm, ⟨67, _⟩ => ⟨S262144, .i32⟩
  | .hbm, ⟨68, _⟩ => ⟨S262144, .i32⟩
  | .hbm, ⟨69, _⟩ => ⟨S262144, .i32⟩
  | .hbm, ⟨70, _⟩ => ⟨S262144x1, .i32⟩
  | .hbm, ⟨71, _⟩ => ⟨S262144x256, .f32⟩
  | .hbm, ⟨72, _⟩ => ⟨S262144x256, .f32⟩
  | .hbm, ⟨73, _⟩ => ⟨S_, .f32⟩
  | .hbm, ⟨74, _⟩ => ⟨S8, .f32⟩
  | .hbm, ⟨75, _⟩ => ⟨S8, .i1⟩
  | .hbm, ⟨76, _⟩ => ⟨S_, .i32⟩
  | .hbm, ⟨77, _⟩ => ⟨S262144, .i32⟩
  | .hbm, ⟨78, _⟩ => ⟨S262144, .i1⟩
  | .hbm, ⟨79, _⟩ => ⟨S_, .i32⟩
  | .hbm, ⟨80, _⟩ => ⟨S262144, .i32⟩
  | .hbm, ⟨81, _⟩ => ⟨S262144, .i32⟩
  | .hbm, ⟨82, _⟩ => ⟨S262144, .i32⟩
  | .hbm, ⟨83, _⟩ => ⟨S262144x1, .i32⟩
  | .hbm, ⟨84, _⟩ => ⟨S262144, .i1⟩
  | .hbm, ⟨85, _⟩ => ⟨S262144x1, .i1⟩
  | .hbm, ⟨86, _⟩ => ⟨S262144x256, .i1⟩
  | .hbm, ⟨87, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_8 : Ref sig .tc := ⟨.hbm, 53, rfl⟩
abbrev main_v39 : Ref sig .tc := ⟨.hbm, 54, rfl⟩
abbrev main_v40 : Ref sig .tc := ⟨.hbm, 55, rfl⟩
abbrev main_c_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_10 : Ref sig .tc := ⟨.hbm, 63, rfl⟩
abbrev main_v47 : Ref sig .tc := ⟨.hbm, 64, rfl⟩
abbrev main_v48 : Ref sig .tc := ⟨.hbm, 65, rfl⟩
abbrev main_c_11 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_12 : Ref sig .tc := ⟨.hbm, 73, rfl⟩
abbrev main_v55 : Ref sig .tc := ⟨.hbm, 74, rfl⟩
abbrev main_v56 : Ref sig .tc := ⟨.hbm, 75, rfl⟩
abbrev main_c_13 : Ref sig .tc := ⟨.hbm, 76, rfl⟩
abbrev main_v57 : Ref sig .tc := ⟨.hbm, 77, rfl⟩
abbrev main_v58 : Ref sig .tc := ⟨.hbm, 78, rfl⟩
abbrev main_c_14 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_call0_v0 : Ref sig .tc := ⟨.hbm, 86, rfl⟩
abbrev main_v65 : Ref sig .tc := ⟨.hbm, 87, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S_S8 : S_.BroadcastsInDim S8 (![] : Fin 0 → Fin S8.rank)
  bcast_S262144_S262144x1_0 : S262144.BroadcastsInDim S262144x1 (![0] : Fin 1 → Fin S262144x1.rank)
  bcast_S_S8x256 : S_.BroadcastsInDim S8x256 (![] : Fin 0 → Fin S8x256.rank)
  bcast_S8_S8x1_0 : S8.BroadcastsInDim S8x1 (![0] : Fin 1 → Fin S8x1.rank)
  bcast_S8x1_S8x256_0_1 : S8x1.BroadcastsInDim S8x256 (![0, 1] : Fin 2 → Fin S8x256.rank)
  bcast_S262144x1_S262144x256_0_1 : S262144x1.BroadcastsInDim S262144x256 (![0, 1] : Fin 2 → Fin S262144x256.rank)
  scatter_S8_S262144x1_S262144_n_0_0_1_wf : ScatterDims.WF S8 S262144x1 S262144 [] [0] [0] 1
  scatter_S8x256_S262144x1_S262144x256_1_0_0_1_wf : ScatterDims.WF S8x256 S262144x1 S262144x256 [1] [0] [0] 1
  gather_S8x256_S262144x1_S262144x256_1_0_n_n_0_1_1256_wf : GatherDims.WF S8x256 S262144x1 S262144x256 [1] [0] [] [0] [] 1 ![1, 256]
  gather_S8_S262144x1_S262144_n_0_n_n_0_1_1_wf : GatherDims.WF S8 S262144x1 S262144 [] [0] [] [0] [] 1 ![1]

variable [Facts₀]

def scatter_S8_S262144x1_S262144_n_0_0_1 : ScatterDims S8 S262144x1 S262144 where
  updateWindowDims := []
  insertedWindowDims := [0]
  scatterDimsToOperandDims := [0]
  indexVectorDim := 1
  wf := scatter_S8_S262144x1_S262144_n_0_0_1_wf
def scatter_S8x256_S262144x1_S262144x256_1_0_0_1 : ScatterDims S8x256 S262144x1 S262144x256 where
  updateWindowDims := [1]
  insertedWindowDims := [0]
  scatterDimsToOperandDims := [0]
  indexVectorDim := 1
  wf := scatter_S8x256_S262144x1_S262144x256_1_0_0_1_wf
def gather_S8x256_S262144x1_S262144x256_1_0_n_n_0_1_1256 : GatherDims S8x256 S262144x1 S262144x256 where
  offsetDims := [1]
  collapsedSliceDims := [0]
  operandBatchingDims := []
  startIndicesBatchingDims := []
  startIndexMap := [0]
  indexVectorDim := 1
  sliceSizes := ![1, 256]
  wf := gather_S8x256_S262144x1_S262144x256_1_0_n_n_0_1_1256_wf
def gather_S8_S262144x1_S262144_n_0_n_n_0_1_1 : GatherDims S8 S262144x1 S262144 where
  offsetDims := []
  collapsedSliceDims := [0]
  operandBatchingDims := []
  startIndicesBatchingDims := []
  startIndexMap := [0]
  indexVectorDim := 1
  sliceSizes := ![1]
  wf := gather_S8_S262144x1_S262144_n_0_n_n_0_1_1_wf

class Facts : Prop extends Facts₀ where

variable [Facts]
-- ==== Proof.Spec.lean ====
/-
  The mathematics both programs compute, as definitions over the extended reals.

  Rows `n < 262144` carry a label `Y n` (a 32-bit word) naming one of eight domains and 256 features `X n f`.
  For a domain `d`: `cnt` is the number of rows labelled `d`, `sum1` and `sum2` the sums over those rows of the
  feature and of its square. From one domain's three numbers `c, s1, s2`: the divisor `max c 1`, the mean
  `s1 / max c 1`, the (biased) variance `s2 / max c 1 − mean²`, and `istd = 1 / √(variance + ε)`. A row of a domain with
  more than one row is normalised, `(x − mean) · istd · γ + β` (`refOut`); any other row is returned as it is.
  The same value as one multiply-add `x · A + B` with the per-domain pair `A = istd · γ`, `B = β − mean · (istd · γ)`
  (and `A = 1`, `B = 0` for a domain with at most one row): `tabA`, `tabB`.
  The sums are also split in two halves of 131072 consecutive rows (`cntH`, `sum1H`, `sum2H`), which `red2` adds.
-/
import Idealize.ShloMosaic.PureOps.Ideal
import Idealize.ShloMosaic.Lib.ValueIdx

noncomputable section

namespace Cert.Spec

open Idealize.ShloMosaic

/-- The indicator of "the label `w` names domain `d`". -/
def ind (w : BitVec 32) (d : ℕ) : EReal := if w.toNat = d then 1 else 0

/-- The float literal one, as both programs print it. -/
abbrev one : EReal := Ideal.ofBits .f32 0x3F800000#32
/-- The variance offset ε, as both programs print it. -/
abbrev eps : EReal := Ideal.ofBits .f32 0x3727C5AC#32

/-- The divisor: the count, or one for an empty domain. -/
def cntc (c : EReal) : EReal := max c one
def meanS (c s1 : EReal) : EReal := Ideal.div s1 (cntc c)
def varS (c s1 s2 : EReal) : EReal := Ideal.div s2 (cntc c) - meanS c s1 * meanS c s1
def istdS (c s1 s2 : EReal) : EReal := Ideal.rsqrt (varS c s1 s2 + eps)
/-- The multiplier of a domain's rows. -/
def tabA (c s1 s2 g : EReal) : EReal := if one < c then istdS c s1 s2 * g else one
/-- The offset of a domain's rows. -/
def tabB (c s1 s2 g b : EReal) : EReal := if one < c then b - meanS c s1 * (istdS c s1 s2 * g) else 0
/-- A row's result, from its domain's numbers. -/
def refOut (c s1 s2 g b x : EReal) : EReal := if one < c then (x - meanS c s1) * istdS c s1 s2 * g + b else x

/-- The sum of two partial results. -/
def red2 (P : Fin 2 → EReal) : EReal := P 0 + P 1

variable (X : Fin 262144 → Fin 256 → EReal) (Y : Fin 262144 → BitVec 32)

def cnt (d : Fin 8) : EReal := ∑ n : Fin 262144, ind (Y n) d.val
def sum1 (d : Fin 8) (f : Fin 256) : EReal := ∑ n : Fin 262144, ind (Y n) d.val * X n f
def sum2 (d : Fin 8) (f : Fin 256) : EReal := ∑ n : Fin 262144, ind (Y n) d.val * (X n f * X n f)

/-- Row `j` of half `k`. -/
def row (k : Fin 2) (j : Fin 131072) : Fin 262144 := ⟨131072 * k.val + j.val, by omega⟩

def cntH (k : Fin 2) (d : Fin 8) : EReal := ∑ j : Fin 131072, ind (Y (row k j)) d.val
def sum1H (k : Fin 2) (d : Fin 8) (f : Fin 256) : EReal := ∑ j : Fin 131072, ind (Y (row k j)) d.val * X (row k j) f
def sum2H (k : Fin 2) (d : Fin 8) (f : Fin 256) : EReal :=
  ∑ j : Fin 131072, ind (Y (row k j)) d.val * (X (row k j) f * X (row k j) f)

end Cert.Spec

end
-- ==== Proof.LibGatherRow.lean ====
import Idealize.ShloMosaic.Lib.ValueIdx

/-!
  A gather of whole rows of a table, read at an index.

  `table[ids]` over a table `[N, C]` prints as a gather whose one collapsed and start-indexed operand axis is the row
  axis (collapsed_slice_dims `[0]`, start_index_map `[0]`, slice_sizes `[1, C]`), whose one offset axis is the result's
  last and whose index vector lies on the start indices' last axis, of extent one. Result element `(…, c)` is the
  table's at `(row, c)`, `row` the start index read as a signed integer and clamped into `[0, N − 1]`: a negative
  index reads row 0, one past the end reads the last row. Stated for an arbitrary record of dimension numbers whose
  lists are the ones above (each hypothesis holds by `rfl` on a written record), at start indices `[R, K, 1]`
  (`gather_row3`) and `[R, 1]` (`gather_row2`), every extent a variable.
-/

namespace Cert.LibGatherRow

open Idealize.ShloMosaic Idealize.ShloMosaic.ValueIdx

variable {α : Type}

/-- The row of a table of `N` rows a start index selects: the index as a signed integer, clamped into `[0, N − 1]`. -/
def clampRow (N : Nat) (hN : 0 < N) {w : Nat} (v : BitVec w) : Fin N := ⟨min v.toInt.toNat (N - 1), by omega⟩

theorem clampRow_val (N : Nat) (hN : 0 < N) {w : Nat} (v : BitVec w) :
    (clampRow N hN v).val = min v.toInt.toNat (N - 1) := rfl

/-- Start indices `[R, K, 1]`, result `[R, K, C]`: element `(b, k, e)` is the table's at the row `idx[b, k, 0]` selects, column `e`. -/
theorem gather_row3 {N C R K w : Nat} (hN : 0 < N)
    (d : GatherDims ⟨2, ![N, C]⟩ ⟨3, ![R, K, 1]⟩ ⟨3, ![R, K, C]⟩)
    (hoff : d.offsetDims = [2]) (hcoll : d.collapsedSliceDims = [0]) (hob : d.operandBatchingDims = [])
    (hsim : d.startIndexMap = [0]) (hivd : d.indexVectorDim = 2)
    (x : (⟨2, ![N, C]⟩ : Shape).Idx → α) (idx : IVec ⟨3, ![R, K, 1]⟩ w) (b : Fin R) (k : Fin K) (e : Fin C) :
    Host.gather d x idx (ix3 b k e) = x (ix2 (clampRow N hN (idx (ix3 b k 0))) e) := by
  have hsl : d.sliceSizes 0 = 1 := d.slice_collapsed 0 (by rw [hcoll]; exact List.mem_singleton.mpr rfl)
  obtain ⟨od, cd, ob, sb, sm, iv, ss, wf⟩ := d
  dsimp only at hoff hcoll hob hsim hivd hsl
  subst hoff hcoll hob hsim hivd
  unfold Host.gather
  congr 1
  funext a
  refine Fin.ext ?_
  match a with
  | ⟨0, _⟩ =>
    -- the row axis: collapsed and start-indexed, so the coordinate is the clamped start alone
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    show min (idx _).toInt.toNat (N - ss 0) = min (idx (ix3 b k 0)).toInt.toNat (N - 1)
    rw [hsl]
    -- the start index is read at the result's two batch coordinates, component 0
    refine congrArg (fun v => min (idx v).toInt.toNat (N - 1)) ?_
    funext q
    refine Fin.ext ?_
    match q with
    | ⟨0, _⟩ => rfl
    | ⟨1, _⟩ => rfl
    | ⟨2, _⟩ => rfl
  | ⟨1, _⟩ =>
    -- the column axis: neither collapsed nor start-indexed, so the coordinate is the result's offset coordinate
    show GatherDims.start _ _ idx 1 + GatherDims.batchCoord _ _ 1 + GatherDims.offCoord _ _ 1 = e.val
    rw [GatherDims.batchCoord_eq_zero _ _ _ List.not_mem_nil]
    unfold GatherDims.start GatherDims.offCoord
    rw [dif_neg (by simp), dif_pos (by simp [GatherDims.sKept, Shape.kept])]
    rw [Nat.add_zero, Nat.zero_add]
    rfl

/-- Start indices `[R, 1]`, result `[R, C]`: element `(b, e)` is the table's at the row `idx[b, 0]` selects, column `e`. -/
theorem gather_row2 {N C R w : Nat} (hN : 0 < N)
    (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![R, 1]⟩ w) (b : Fin R) (e : Fin C) :
    Host.gather d x idx (ix2 b e) = x (ix2 (clampRow N hN (idx (ix2 b 0))) e) := by
  have hsl : d.sliceSizes 0 = 1 := d.slice_collapsed 0 (by rw [hcoll]; exact List.mem_singleton.mpr rfl)
  obtain ⟨od, cd, ob, sb, sm, iv, ss, wf⟩ := d
  dsimp only at hoff hcoll hob hsim hivd hsl
  subst hoff hcoll hob hsim hivd
  unfold Host.gather
  congr 1
  funext a
  refine Fin.ext ?_
  match a with
  | ⟨0, _⟩ =>
    -- the row axis: the clamped start alone
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    show min (idx _).toInt.toNat (N - ss 0) = min (idx (ix2 b 0)).toInt.toNat (N - 1)
    rw [hsl]
    -- the start index is read at the result's one batch coordinate, component 0
    refine congrArg (fun v => min (idx v).toInt.toNat (N - 1)) ?_
    funext q
    refine Fin.ext ?_
    match q with
    | ⟨0, _⟩ => rfl
    | ⟨1, _⟩ => rfl
  | ⟨1, _⟩ =>
    -- the column axis: the result's offset coordinate
    show GatherDims.start _ _ idx 1 + GatherDims.batchCoord _ _ 1 + GatherDims.offCoord _ _ 1 = e.val
    rw [GatherDims.batchCoord_eq_zero _ _ _ List.not_mem_nil]
    unfold GatherDims.start GatherDims.offCoord
    rw [dif_neg (by simp), dif_pos (by simp [GatherDims.sKept, Shape.kept])]
    rw [Nat.add_zero, Nat.zero_add]
    rfl

end Cert.LibGatherRow
-- ==== Proof.RefVal.lean ====
/-
  The reference's result, read at a row and a feature.

  The reference accumulates, per domain, the count of its rows and the sums of its rows' features and squared features
  (three accumulating scatters into zero tables, indexed by the labels), turns them into a mean and an inverse standard
  deviation per domain and feature, reads each row's domain's numbers back (gathers indexed by the labels), normalises
  the row and keeps the normalised value where the row's domain has more than one row. First the scatter and the gather
  at an index, for any extents; then each stage of the program at an index; last the result.
-/
import proofs.«404433_j4690104287826_3_alg».proof.Proof.RefRead
import proofs.«404433_j4690104287826_3_alg».proof.Proof.Spec
import proofs.«404433_j4690104287826_3_alg».proof.Proof.LibGatherRow
import Idealize.ShloMosaic.PureOps.Ideal.Laws
import Idealize.ShloMosaic.Lib.ValueIdx
import Idealize.ShloMosaic.Lib.Pipeline.Value
import Mathlib.Data.EReal.Basic
import Mathlib.Tactic.NormNum

noncomputable section

namespace Cert.RefVal

open Idealize.ShloMosaic Idealize.ShloMosaic.ValueIdx Cert.ReferenceIdeal

/-! ## An accumulating scatter at an index -/

/-- An update lands on `i` exactly when, on every axis, its start plus its window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      have h2 := Option.some.inj h
      intro a
      rw [← h2]
      show _ = ((Int.toNat _ : Nat) : Int)
      rw [Int.toNat_of_nonneg (hh a).1]
    · exact absurd h (by simp)
  · intro h
    have hh : ∀ a, 0 ≤ d.start j idx a + (d.window j a : Int) ∧ d.start j idx a + (d.window j a : Int) < (s.size a : Int) := by
      intro a; rw [h a]; exact ⟨Int.natCast_nonneg _, by exact_mod_cast (i a).isLt⟩
    rw [dif_pos hh]
    congr 1
    funext a
    apply Fin.ext
    show (d.start j idx a + (d.window j a : Int)).toNat = (i a).val
    rw [h a]; exact Int.toNat_natCast _

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- One scatter index per update element, no window: update `n` lands on `i` exactly when its index, read signed, is `i`. -/
theorem scatter1_lands {N R w : Nat} (d : ScatterDims ⟨1, ![N]⟩ ⟨2, ![R, 1]⟩ ⟨1, ![R]⟩)
    (huw : d.updateWindowDims = []) (hiw : d.insertedWindowDims = [0]) (hsd : d.scatterDimsToOperandDims = [0])
    (hivd : d.indexVectorDim = 1) (idx : IVec ⟨2, ![R, 1]⟩ w) (n : Fin R) (i : Fin N) :
    d.resultIdx? (ix1 n) idx = some (ix1 i) ↔ (idx (ix2 n 0)).toInt = (i.val : Int) := by
  rw [resultIdx?_eq_some_iff]
  obtain ⟨uw, iw, sd, iv, wf⟩ := d
  dsimp only at huw hiw hsd hivd
  subst huw hiw hsd hivd
  have hst : ScatterDims.start ⟨[], [0], [0], 1, wf⟩ (ix1 n) idx 0 = (idx (ix2 n 0)).toInt := by
    unfold ScatterDims.start
    rw [dif_pos (List.mem_singleton.mpr rfl)]
    refine congrArg (fun v => (idx v).toInt) ?_
    funext q
    refine Fin.ext ?_
    match q with
    | ⟨0, _⟩ => rfl
    | ⟨1, _⟩ => rfl
  have hwin : ScatterDims.window ⟨[], [0], [0], 1, wf⟩ (ix1 n) 0 = 0 := by
    unfold ScatterDims.window
    rw [dif_neg (by simp [ScatterDims.sKept, Shape.kept])]
  constructor
  · intro h
    have h0 := h 0
    rw [hst, hwin] at h0
    simp only [Nat.cast_zero, add_zero] at h0
    exact h0
  · intro h a
    obtain rfl : a = 0 := Subsingleton.elim _ _
    rw [hst, hwin, h]
    simp only [Nat.cast_zero, add_zero]
    rfl

/-- One scatter index per update row, the window a whole row: update `(n, c)` lands on `(i, f)` exactly when row `n`'s
    index, read signed, is `i` and `c = f`. -/
theorem scatter2_lands {N C R w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1) (idx : IVec ⟨2, ![R, 1]⟩ w) (n : Fin R) (c : Fin C) (i : Fin N) (f : Fin C) :
    d.resultIdx? (ix2 n c) idx = some (ix2 i f) ↔ ((idx (ix2 n 0)).toInt = (i.val : Int) ∧ c = f) := by
  rw [resultIdx?_eq_some_iff]
  obtain ⟨uw, iw, sd, iv, wf⟩ := d
  dsimp only at huw hiw hsd hivd
  subst huw hiw hsd hivd
  have hst0 : ScatterDims.start ⟨[1], [0], [0], 1, wf⟩ (ix2 n c) idx 0 = (idx (ix2 n 0)).toInt := by
    unfold ScatterDims.start
    rw [dif_pos (List.mem_singleton.mpr rfl)]
    refine congrArg (fun v => (idx v).toInt) ?_
    funext q
    refine Fin.ext ?_
    match q with
    | ⟨0, _⟩ => rfl
    | ⟨1, _⟩ => rfl
  have hst1 : ScatterDims.start ⟨[1], [0], [0], 1, wf⟩ (ix2 n c) idx 1 = 0 := by
    unfold ScatterDims.start
    rw [dif_neg (by simp)]
  have hwin0 : ScatterDims.window ⟨[1], [0], [0], 1, wf⟩ (ix2 n c) 0 = 0 := by
    unfold ScatterDims.window
    rw [dif_neg (by simp [ScatterDims.sKept, Shape.kept])]
  have hwin1 : ScatterDims.window ⟨[1], [0], [0], 1, wf⟩ (ix2 n c) 1 = c.val := by
    unfold ScatterDims.window
    rw [dif_pos (by simp [ScatterDims.sKept, Shape.kept])]
    rfl
  constructor
  · intro h
    have h0 := h 0
    have h1 := h 1
    rw [hst0, hwin0] at h0
    rw [hst1, hwin1] at h1
    simp only [Nat.cast_zero, add_zero] at h0
    simp only [zero_add] at h1
    refine ⟨h0, Fin.ext ?_⟩
    have h2 : ((c.val : Int)) = (f.val : Int) := h1
    exact_mod_cast h2
  · rintro ⟨h, rfl⟩ a
    match a with
    | ⟨0, _⟩ =>
      show ScatterDims.start _ _ idx 0 + ((ScatterDims.window _ _ 0 : Nat) : Int) = _
      rw [hst0, hwin0, h]
      simp only [Nat.cast_zero, add_zero]
    | ⟨1, _⟩ =>
      show ScatterDims.start _ _ idx 1 + ((ScatterDims.window _ _ 1 : Nat) : Int) = _
      rw [hst1, hwin1]
      simp only [zero_add]

/-- The accumulating scatter of a vector of updates into a vector, at element `i`: the operand's element plus the
    updates whose index, read signed, is `i`. -/
theorem scatterAdd1_apply {N R w : Nat} (d : ScatterDims ⟨1, ![N]⟩ ⟨2, ![R, 1]⟩ ⟨1, ![R]⟩)
    (huw : d.updateWindowDims = []) (hiw : d.insertedWindowDims = [0]) (hsd : d.scatterDimsToOperandDims = [0])
    (hivd : d.indexVectorDim = 1) (x : (⟨1, ![N]⟩ : Shape).Idx → EReal) (idx : IVec ⟨2, ![R, 1]⟩ w)
    (upd : (⟨1, ![R]⟩ : Shape).Idx → EReal) (i : Fin N) :
    Ideal.hostScatterAdd d x idx upd (ix1 i)
      = x (ix1 i) + ∑ n : Fin R, if (idx (ix2 n 0)).toInt = (i.val : Int) then upd (ix1 n) else 0 := by
  unfold Ideal.hostScatterAdd
  congr 1
  rw [Finset.sum_filter, ← Equiv.sum_comp (idxEquiv1 (n := R)).symm]
  refine Finset.sum_congr rfl (fun n _ => ?_)
  exact if_congr (scatter1_lands d huw hiw hsd hivd idx n i) rfl rfl

/-- The accumulating scatter of rows of updates into a table, at element `(i, f)`: the operand's element plus column `f`
    of the update rows whose index, read signed, is `i`. -/
theorem scatterAdd2_apply {N C R w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1) (x : (⟨2, ![N, C]⟩ : Shape).Idx → EReal) (idx : IVec ⟨2, ![R, 1]⟩ w)
    (upd : (⟨2, ![R, C]⟩ : Shape).Idx → EReal) (i : Fin N) (f : Fin C) :
    Ideal.hostScatterAdd d x idx upd (ix2 i f)
      = x (ix2 i f) + ∑ n : Fin R, if (idx (ix2 n 0)).toInt = (i.val : Int) then upd (ix2 n f) else 0 := by
  unfold Ideal.hostScatterAdd
  congr 1
  rw [Finset.sum_filter, sum_idx2]
  refine Finset.sum_congr rfl (fun n _ => ?_)
  rw [Finset.sum_eq_single f]
  · exact if_congr ((scatter2_lands d huw hiw hsd hivd idx n f i f).trans (and_iff_left rfl)) rfl rfl
  · intro c _ hc
    rw [if_neg]
    intro h
    exact hc ((scatter2_lands d huw hiw hsd hivd idx n c i f).mp h).2
  · intro h; exact absurd (Finset.mem_univ f) h

/-! ## A gather of single elements at an index -/

/-- A gather of single elements of a vector: element `b` of the result is the operand's at the start index `idx[b, 0]`,
    read as a signed integer and clamped into `[0, N − 1]`. -/
theorem gather_elem {N R w : Nat} {α : Type} (hN : 0 < N)
    (d : GatherDims ⟨1, ![N]⟩ ⟨2, ![R, 1]⟩ ⟨1, ![R]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![R, 1]⟩ w) (b : Fin R) :
    Host.gather d x idx (ix1 b) = x (ix1 ⟨min (idx (ix2 b 0)).toInt.toNat (N - 1), by omega⟩) := by
  have hsl : d.sliceSizes 0 = 1 := d.slice_collapsed 0 (by rw [hcoll]; exact List.mem_singleton.mpr rfl)
  obtain ⟨od, cd, ob, sb, sm, iv, ss, wf⟩ := d
  dsimp only at hoff hcoll hob hsim hivd hsl
  subst hoff hcoll hob hsim hivd
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    show min (idx _).toInt.toNat (N - ss 0) = min (idx (ix2 b 0)).toInt.toNat (N - 1)
    rw [hsl]
    refine congrArg (fun v => min (idx v).toInt.toNat (N - 1)) ?_
    funext q
    refine Fin.ext ?_
    match q with
    | ⟨0, _⟩ => rfl
    | ⟨1, _⟩ => rfl

/-! ## Words -/

/-- A 32-bit word below 8 as unsigned is its unsigned value as a signed integer. -/
theorem toInt_of_lt (v : BitVec 32) (h : v.toNat < 8) : v.toInt = (v.toNat : Int) := by
  rw [BitVec.toInt_eq_toNat_cond, if_pos (by omega)]

/-- A 32-bit word, read signed, is a number below `2 ^ 31` exactly when it is that number read unsigned. -/
theorem toInt_eq_iff (v : BitVec 32) (k : Nat) (hk : k < 2 ^ 31) : v.toInt = (k : Int) ↔ v.toNat = k := by
  rw [BitVec.toInt_eq_toNat_cond]
  have := v.isLt
  split <;> omega

/-- Clamping into `[0, 7]` leaves a word below 8 as it is. -/
theorem clamp_of_lt (v : BitVec 32) (h : v.toNat < 8) : min v.toInt.toNat (8 - 1) = v.toNat := by
  rw [toInt_of_lt v h, Int.toNat_natCast]; omega

/-- The wrap of a negative index (`v < 0 ? v + 8 : v`) leaves a word below 8 as it is. -/
theorem wrap_of_lt (v : BitVec 32) (h : v.toNat < 8) :
    Scalar.select (IntOp.cmpi .slt v 0#32) (IntOp.addi v 8#32) v = v := by
  have hs : v.slt 0#32 = false := by
    rw [BitVec.slt, toInt_of_lt v h]
    simp
  unfold Scalar.select IntOp.cmpi
  simp only [hs]
  rfl

/-! ## Literals, indicators, conditions -/

/-- The float literal zero denotes `0`. -/
theorem zero_lit : Ideal.ofBits .f32 0x00000000#32 = (0 : EReal) := by simp [Ideal.ofBits, Ideal.ieee]

/-- The float literal one denotes `1`. -/
theorem one_lit : Ideal.ofBits .f32 0x3F800000#32 = (1 : EReal) := by
  simp [Ideal.ofBits, Ideal.ieee, -EReal.coe_mul]; norm_num

/-- A number kept where a label, read signed, is `k`, is the indicator of "the label names `k`" times the number. -/
theorem ite_toInt_eq_ind_mul (v : BitVec 32) (k : Nat) (hk : k < 2 ^ 31) (t : EReal) :
    (if v.toInt = (k : Int) then t else 0) = Spec.ind v k * t := by
  unfold Spec.ind
  by_cases h : v.toNat = k
  · rw [if_pos ((toInt_eq_iff v k hk).mpr h), if_pos h, one_mul]
  · rw [if_neg (fun h' => h ((toInt_eq_iff v k hk).mp h')), if_neg h, zero_mul]

/-- A select on the one-bit word of a decided condition is the `if`. -/
theorem select_decide {α : Type} (p : Prop) [Decidable p] (a b : α) :
    Scalar.select (BitVec.ofBool (decide p)) a b = if p then a else b := by
  unfold Scalar.select
  by_cases h : p
  · simp [h]
  · simp [h]

/-- Two rank-1 indices with the same coordinate are equal. -/
theorem idx1_ext {n : Nat} (j k : (⟨1, ![n]⟩ : Shape).Idx) (h : j 0 = k 0) : j = k := by
  rw [eq_ix1 j, eq_ix1 k, h]

/-- Two rank-2 indices with the same coordinates are equal. -/
theorem idx2_ext {n0 n1 : Nat} (j k : (⟨2, ![n0, n1]⟩ : Shape).Idx) (h0 : j 0 = k 0) (h1 : j 1 = k 1) : j = k := by
  rw [eq_ix2 j, eq_ix2 k, h0, h1]

/-! ## The program's stages at an index -/

section Stages

open Cert.ReferenceIdeal.ReadP

variable (x : (⟨S262144x256, .f32⟩ : BufTy).Contents (Elt Ideal)) (y : (⟨S262144, .i32⟩ : BufTy).Contents (Elt Ideal))
  (g b : (⟨S8x256, .f32⟩ : BufTy).Contents (Elt Ideal))

/-- The labels as a column (the three scatters' indices), at row `n`. -/
theorem v2_at (n : Fin 262144) : val_main_v2 (F := Ideal) y (ix2 n 0) = y (ix1 n) := by
  rw [val_main_v2_apply]; exact congrArg y (idx1_ext _ _ rfl)
theorem v5_at (n : Fin 262144) : val_main_v5 (F := Ideal) y (ix2 n 0) = y (ix1 n) := by
  rw [val_main_v5_apply]; exact congrArg y (idx1_ext _ _ rfl)
theorem v9_at (n : Fin 262144) : val_main_v9 (F := Ideal) y (ix2 n 0) = y (ix1 n) := by
  rw [val_main_v9_apply]; exact congrArg y (idx1_ext _ _ rfl)

/-- The count of a domain's rows. -/
theorem v3_at (i : Fin 8) : val_main_v3 (F := Ideal) y (ix1 i) = Spec.cnt (fun n => y (ix1 n)) i := by
  unfold val_main_v3
  have h1 : ∀ j, val_main_v1 (F := Ideal) j = (0 : EReal) := fun j => by
    rw [val_main_v1_apply, val_main_cst_0_apply]; exact zero_lit
  have h0 : ∀ j, val_main_v0 (F := Ideal) j = (1 : EReal) := fun j => by
    rw [val_main_v0_apply, val_main_cst_apply]; exact one_lit
  have h2 := v2_at y
  generalize val_main_v1 (F := Ideal) = A at h1 ⊢
  generalize val_main_v0 (F := Ideal) = B at h0 ⊢
  generalize val_main_v2 (F := Ideal) y = I at h2 ⊢
  show Ideal.hostScatterAdd _ A I B (ix1 i) = _
  rw [scatterAdd1_apply _ rfl rfl rfl rfl, h1, zero_add]
  unfold Spec.cnt
  refine Finset.sum_congr rfl (fun n _ => ?_)
  rw [h2, h0, ite_toInt_eq_ind_mul _ _ (by omega), mul_one]

/-- The sum of a domain's rows' feature `f`. -/
theorem v6_at (i : Fin 8) (f : Fin 256) :
    val_main_v6 (F := Ideal) x y (ix2 i f) = Spec.sum1 (fun n f => x (ix2 n f)) (fun n => y (ix1 n)) i f := by
  unfold val_main_v6
  have h1 : ∀ j, val_main_v4 (F := Ideal) j = (0 : EReal) := fun j => by
    rw [val_main_v4_apply, val_main_cst_1_apply]; exact zero_lit
  have h2 := v5_at y
  generalize val_main_v4 (F := Ideal) = A at h1 ⊢
  generalize val_main_v5 (F := Ideal) y = I at h2 ⊢
  show Ideal.hostScatterAdd _ A I x (ix2 i f) = _
  rw [scatterAdd2_apply _ rfl rfl rfl rfl, h1, zero_add]
  unfold Spec.sum1
  refine Finset.sum_congr rfl (fun n _ => ?_)
  rw [h2, ite_toInt_eq_ind_mul _ _ (by omega)]

/-- The sum of a domain's rows' squared feature `f`. -/
theorem v10_at (i : Fin 8) (f : Fin 256) :
    val_main_v10 (F := Ideal) x y (ix2 i f) = Spec.sum2 (fun n f => x (ix2 n f)) (fun n => y (ix1 n)) i f := by
  unfold val_main_v10
  have h1 : ∀ j, val_main_v8 (F := Ideal) j = (0 : EReal) := fun j => by
    rw [val_main_v8_apply, val_main_cst_2_apply]; exact zero_lit
  have h2 := v9_at y
  have h3 : ∀ j, val_main_v7 (F := Ideal) x j = x j * x j := fun j => rfl
  generalize val_main_v8 (F := Ideal) = A at h1 ⊢
  generalize val_main_v9 (F := Ideal) y = I at h2 ⊢
  generalize val_main_v7 (F := Ideal) x = B at h3 ⊢
  show Ideal.hostScatterAdd _ A I B (ix2 i f) = _
  rw [scatterAdd2_apply _ rfl rfl rfl rfl, h1, zero_add]
  unfold Spec.sum2
  refine Finset.sum_congr rfl (fun n _ => ?_)
  rw [h2, h3, ite_toInt_eq_ind_mul _ _ (by omega)]

/-- The divisor of a domain. -/
theorem v12_at (i : Fin 8) : val_main_v12 (F := Ideal) y (ix1 i) = Spec.cntc (Spec.cnt (fun n => y (ix1 n)) i) := by
  rw [val_main_v12_apply, v3_at, val_main_v11_apply, val_main_cst_3_apply]
  rfl

theorem v14_at (i : Fin 8) (f : Fin 256) : val_main_v14 (F := Ideal) y (ix2 i f) = Spec.cntc (Spec.cnt (fun n => y (ix1 n)) i) := by
  rw [val_main_v14_apply, val_main_v13_apply, idx1_ext (idx_main_v13 (idx_main_v14 (ix2 i f))) (ix1 i) rfl, v12_at]

theorem v16_at (i : Fin 8) (f : Fin 256) : val_main_v16 (F := Ideal) y (ix2 i f) = Spec.cntc (Spec.cnt (fun n => y (ix1 n)) i) := by
  rw [val_main_v16_apply, val_main_v13_apply, idx1_ext (idx_main_v13 (idx_main_v16 (ix2 i f))) (ix1 i) rfl, v12_at]

/-- The mean of a domain's feature. -/
theorem v15_at (i : Fin 8) (f : Fin 256) :
    val_main_v15 (F := Ideal) x y (ix2 i f) = Spec.meanS (Spec.cnt (fun n => y (ix1 n)) i) (Spec.sum1 (fun n f => x (ix2 n f)) (fun n => y (ix1 n)) i f) := by
  rw [val_main_v15_apply, v6_at, v14_at]
  rfl

/-- The inverse standard deviation of a domain's feature. -/
theorem v22_at (i : Fin 8) (f : Fin 256) :
    val_main_v22 (F := Ideal) x y (ix2 i f) = Spec.istdS (Spec.cnt (fun n => y (ix1 n)) i) (Spec.sum1 (fun n f => x (ix2 n f)) (fun n => y (ix1 n)) i f) (Spec.sum2 (fun n f => x (ix2 n f)) (fun n => y (ix1 n)) i f) := by
  rw [val_main_v22_apply, val_main_v21_apply, val_main_v19_apply, val_main_v17_apply, val_main_v18_apply, v10_at, v16_at,
    v15_at, val_main_v20_apply, val_main_cst_4_apply]
  simp only [Ideal.hostUnary_rsqrt_def, Ideal.addf_def, Ideal.subf_def, Ideal.mulf_def, Ideal.hostDivf_def, Ideal.ofBits_def]
  unfold Spec.istdS Spec.varS
  rfl

/-- "The domain has more than one row", as a one-bit word. -/
theorem v56_at (i : Fin 8) : val_main_v56 (F := Ideal) y (ix1 i) = Ideal.cmp .ogt (Spec.cnt (fun n => y (ix1 n)) i) Spec.one := by
  rw [val_main_v56_apply, v3_at, val_main_v55_apply, val_main_cst_12_apply]
  rfl

/-- The labels with a negative one wrapped, as a column (the five gathers' start indices), at row `n`: the label. -/
theorem v28_at (hy : ∀ i, (y i).toNat < 8) (n : Fin 262144) :
    val_main_v28 (F := Ideal) y (ix2 n 0) = y (ix1 n) := by
  rw [val_main_v28_apply, val_main_v27_apply, val_main_v24_apply, val_main_v26_apply, val_main_v23_apply,
    val_main_c_apply, val_main_v25_apply, val_main_c_5_apply, wrap_of_lt _ (hy _)]
  exact congrArg y (idx1_ext _ _ rfl)

theorem v36_at (hy : ∀ i, (y i).toNat < 8) (n : Fin 262144) :
    val_main_v36 (F := Ideal) y (ix2 n 0) = y (ix1 n) := by
  rw [val_main_v36_apply, val_main_v35_apply, val_main_v32_apply, val_main_v34_apply, val_main_v31_apply,
    val_main_c_6_apply, val_main_v33_apply, val_main_c_7_apply, wrap_of_lt _ (hy _)]
  exact congrArg y (idx1_ext _ _ rfl)

theorem v44_at (hy : ∀ i, (y i).toNat < 8) (n : Fin 262144) :
    val_main_v44 (F := Ideal) y (ix2 n 0) = y (ix1 n) := by
  rw [val_main_v44_apply, val_main_v43_apply, val_main_v40_apply, val_main_v42_apply, val_main_v39_apply,
    val_main_c_8_apply, val_main_v41_apply, val_main_c_9_apply, wrap_of_lt _ (hy _)]
  exact congrArg y (idx1_ext _ _ rfl)

theorem v52_at (hy : ∀ i, (y i).toNat < 8) (n : Fin 262144) :
    val_main_v52 (F := Ideal) y (ix2 n 0) = y (ix1 n) := by
  rw [val_main_v52_apply, val_main_v51_apply, val_main_v48_apply, val_main_v50_apply, val_main_v47_apply,
    val_main_c_10_apply, val_main_v49_apply, val_main_c_11_apply, wrap_of_lt _ (hy _)]
  exact congrArg y (idx1_ext _ _ rfl)

theorem v62_at (hy : ∀ i, (y i).toNat < 8) (n : Fin 262144) :
    val_main_v62 (F := Ideal) y (ix2 n 0) = y (ix1 n) := by
  rw [val_main_v62_apply, val_main_v61_apply, val_main_v58_apply, val_main_v60_apply, val_main_v57_apply,
    val_main_c_13_apply, val_main_v59_apply, val_main_c_14_apply, wrap_of_lt _ (hy _)]
  exact congrArg y (idx1_ext _ _ rfl)

/-- A gather of rows of an eight-row table at a column of start indices, where row `n`'s start index is a word `v` below 8:
    element `(n, f)` is the table's at `(v, f)`. -/
theorem gatherRow_at (T : (⟨S8x256, .f32⟩ : BufTy).Contents (Elt Ideal)) (I : (⟨S262144x1, .i32⟩ : BufTy).Contents (Elt Ideal))
    (n : Fin 262144) (f : Fin 256) (v : BitVec 32) (hI : I (ix2 n 0) = v) (hv : v.toNat < 8) :
    Host.gather gather_S8x256_S262144x1_S262144x256_1_0_n_n_0_1_1256 T I (ix2 n f) = T (ix2 ⟨v.toNat, hv⟩ f) := by
  have hr : LibGatherRow.clampRow 8 (by decide) (I (ix2 n 0)) = ⟨v.toNat, hv⟩ :=
    Fin.ext (by rw [LibGatherRow.clampRow_val, hI]; exact clamp_of_lt v hv)
  rw [LibGatherRow.gather_row2 (by decide) _ rfl rfl rfl rfl rfl, hr]

/-- The same for a gather of single elements of an eight-element vector. -/
theorem gatherElem_at {α : Type} (T : S8.Idx → α) (I : (⟨S262144x1, .i32⟩ : BufTy).Contents (Elt Ideal))
    (n : Fin 262144) (v : BitVec 32) (hI : I (ix2 n 0) = v) (hv : v.toNat < 8) :
    Host.gather gather_S8_S262144x1_S262144_n_0_n_n_0_1_1 T I (ix1 n) = T (ix1 ⟨v.toNat, hv⟩) := by
  rw [gather_elem (by decide) _ rfl rfl rfl rfl rfl]
  refine congrArg T (idx1_ext _ _ (Fin.ext ?_))
  show min (I (ix2 n 0)).toInt.toNat (8 - 1) = v.toNat
  rw [hI]; exact clamp_of_lt v hv

/-- The row's domain's mean. -/
theorem v29_at (hy : ∀ i, (y i).toNat < 8) (n : Fin 262144) (f : Fin 256) :
    val_main_v29 (F := Ideal) x y (ix2 n f) = Spec.meanS (Spec.cnt (fun n => y (ix1 n)) ⟨(y (ix1 n)).toNat, hy _⟩) (Spec.sum1 (fun n f => x (ix2 n f)) (fun n => y (ix1 n)) ⟨(y (ix1 n)).toNat, hy _⟩ f) := by
  unfold val_main_v29
  have hI := v28_at y hy n
  have hT := v15_at x y
  generalize val_main_v28 (F := Ideal) y = I at hI ⊢
  generalize val_main_v15 (F := Ideal) x y = T at hT ⊢
  rw [gatherRow_at T I n f _ hI (hy _), hT]

/-- The row's domain's inverse standard deviation. -/
theorem v37_at (hy : ∀ i, (y i).toNat < 8) (n : Fin 262144) (f : Fin 256) :
    val_main_v37 (F := Ideal) x y (ix2 n f) = Spec.istdS (Spec.cnt (fun n => y (ix1 n)) ⟨(y (ix1 n)).toNat, hy _⟩) (Spec.sum1 (fun n f => x (ix2 n f)) (fun n => y (ix1 n)) ⟨(y (ix1 n)).toNat, hy _⟩ f) (Spec.sum2 (fun n f => x (ix2 n f)) (fun n => y (ix1 n)) ⟨(y (ix1 n)).toNat, hy _⟩ f) := by
  unfold val_main_v37
  have hI := v36_at y hy n
  have hT := v22_at x y
  generalize val_main_v36 (F := Ideal) y = I at hI ⊢
  generalize val_main_v22 (F := Ideal) x y = T at hT ⊢
  rw [gatherRow_at T I n f _ hI (hy _), hT]

/-- The row's domain's scale. -/
theorem v45_at (hy : ∀ i, (y i).toNat < 8) (n : Fin 262144) (f : Fin 256) :
    val_main_v45 (F := Ideal) y g (ix2 n f) = g (ix2 ⟨(y (ix1 n)).toNat, hy _⟩ f) := by
  unfold val_main_v45
  have hI := v44_at y hy n
  generalize val_main_v44 (F := Ideal) y = I at hI ⊢
  rw [gatherRow_at g I n f _ hI (hy _)]

/-- The row's domain's shift. -/
theorem v53_at (hy : ∀ i, (y i).toNat < 8) (n : Fin 262144) (f : Fin 256) :
    val_main_v53 (F := Ideal) y b (ix2 n f) = b (ix2 ⟨(y (ix1 n)).toNat, hy _⟩ f) := by
  unfold val_main_v53
  have hI := v52_at y hy n
  generalize val_main_v52 (F := Ideal) y = I at hI ⊢
  rw [gatherRow_at b I n f _ hI (hy _)]

/-- "The row's domain has more than one row". -/
theorem v63_at (hy : ∀ i, (y i).toNat < 8) (n : Fin 262144) :
    val_main_v63 (F := Ideal) y (ix1 n) = Ideal.cmp .ogt (Spec.cnt (fun n => y (ix1 n)) ⟨(y (ix1 n)).toNat, hy _⟩) Spec.one := by
  unfold val_main_v63
  have hI := v62_at y hy n
  have hT := v56_at y
  generalize val_main_v62 (F := Ideal) y = I at hI ⊢
  generalize val_main_v56 (F := Ideal) y = T at hT ⊢
  rw [gatherElem_at T I n _ hI (hy _), hT]

/-- A select on a "greater than" comparison's word is the `if`. -/
theorem select_cmp_ogt {α : Type} (a c : EReal) (u v : α) :
    Scalar.select (Ideal.cmp .ogt a c) u v = if c < a then u else v := by
  unfold Ideal.cmp
  exact select_decide _ u v

end Stages

/-- With every label below 8, the reference's result at row `n`, feature `f` is `refOut` of the row's domain's count
    and sums (over ALL rows), that domain's scale and shift, and the entry. -/
theorem ref_apply (x : (⟨S262144x256, .f32⟩ : BufTy).Contents (Elt Ideal)) (y : (⟨S262144, .i32⟩ : BufTy).Contents (Elt Ideal))
    (g b : (⟨S8x256, .f32⟩ : BufTy).Contents (Elt Ideal)) (hy : ∀ i, (y i).toNat < 8) (n : Fin 262144) (f : Fin 256) :
    Cert.ReferenceIdeal.ReadP.val_main_v65 (F := Ideal) x y g b (ix2 n f)
      = Spec.refOut (Spec.cnt (fun n => y (ix1 n)) ⟨(y (ix1 n)).toNat, hy _⟩)
          (Spec.sum1 (fun n f => x (ix2 n f)) (fun n => y (ix1 n)) ⟨(y (ix1 n)).toNat, hy _⟩ f)
          (Spec.sum2 (fun n f => x (ix2 n f)) (fun n => y (ix1 n)) ⟨(y (ix1 n)).toNat, hy _⟩ f)
          (g (ix2 ⟨(y (ix1 n)).toNat, hy _⟩ f)) (b (ix2 ⟨(y (ix1 n)).toNat, hy _⟩ f)) (x (ix2 n f)) := by
  open Cert.ReferenceIdeal.ReadP in
  rw [val_main_v65_apply, val_main_call0_v0_apply, val_main_v64_apply,
    idx1_ext (idx_main_v64 (idx_main_call0_v0 (ix2 n f))) (ix1 n) rfl, v63_at y hy n, select_cmp_ogt,
    val_main_v54_apply, val_main_v46_apply, val_main_v38_apply, val_main_v30_apply, v29_at x y hy n f, v37_at x y hy n f,
    v45_at y g hy n f, v53_at y b hy n f]
  unfold Spec.refOut
  exact if_congr Iff.rfl rfl rfl

end Cert.RefVal

end
-- ==== Proof.PreDecode.lean ====
/-
  What the precondition says of the inputs: every float entry is a real number, and every label is one of 0 … 7.
-/
import proofs.«404433_j4690104287826_3_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreDecode

open Idealize.ShloMosaic Cert.Pre_finite_inputs

variable [Cert.Pre_finite_inputs.Facts]

/-- The scalar shape has one index. -/
instance : Subsingleton S_.Idx := ⟨fun a b => funext fun d => d.elim0⟩

/-- The bit pattern `0x7F800000` denotes `+∞`. -/
theorem inf_bits : Ideal.ofBits .f32 0x7F800000#32 = (⊤ : EReal) := by simp [Ideal.ofBits, Ideal.ieee]

/-- An extended real whose absolute value `max z (-z)` is below `+∞` is a real number. -/
theorem real_of_abs_lt_top (z : EReal) (e : max z (-z) < ⊤) : ∃ r : ℝ, z = (r : EReal) := by
  induction z using EReal.rec with
  | bot => simp at e
  | coe r => exact ⟨r, rfl⟩
  | top => simp at e

/-- One element of the printed test `|v| < +∞` (the bound a broadcast scalar) being 1 says that element of `v` is a real number. -/
theorem finite_at {s : Shape} (hb : S_.BroadcastsInDim s (![] : Fin 0 → Fin s.rank)) (v : FVec Ideal s .f32) (i : s.Idx)
    (e : cmpf .olt (Host.absf v) (broadcastInDim s ![] hb (constant S_ .f32 0x7F800000#32)) i = 1#1) :
    ∃ r : ℝ, v i = (r : EReal) := by
  have e' : Ideal.cmp .olt (max (v i) (-(v i))) (Ideal.ofBits .f32 0x7F800000#32) = 1#1 := e
  rw [inf_bits] at e'
  simp only [Ideal.cmp, StableHlo.Predicate.ofBool_eq_one_iff, decide_eq_true_eq] at e'
  exact real_of_abs_lt_top _ e'

/-- A 32-bit word that is non-negative and below 8 as a signed word is below 8 as an unsigned one. -/
theorem word_lt_eight (w : BitVec 32) (e1 : IntOp.cmpi .sge w 0#32 = 1#1) (e2 : IntOp.cmpi .slt w 8#32 = 1#1) :
    w.toNat < 8 := by
  simp only [IntOp.cmpi, StableHlo.Predicate.ofBool_eq_one_iff, BitVec.sle, BitVec.slt, decide_eq_true_eq] at e1 e2
  have h0 : (0#32 : BitVec 32).toInt = 0 := by decide
  have h8 : (8#32 : BitVec 32).toInt = 8 := by decide
  rw [h0] at e1
  rw [h8] at e2
  rw [BitVec.toInt_eq_toNat_cond] at e1 e2
  split at e1 <;> omega

/-- The printed precondition, all ones, gives: `x`, `γ`, `β` finite everywhere and every label below 8 (as an unsigned word;
    a label that is non-negative as a signed word and below 8 is below 8 as an unsigned one). -/
theorem decode (x : FVec Ideal S262144x256 .f32) (y : IVec S262144 32) (g b : FVec Ideal S8x256 .f32)
    (h : Cert.Pre_finite_inputs.fn (F := Ideal) x y g b = fun _ => 1#1) :
    (∀ i, ∃ r : ℝ, x i = (r : EReal)) ∧ (∀ i, ∃ r : ℝ, g i = (r : EReal)) ∧ (∀ i, ∃ r : ℝ, b i = (r : EReal))
      ∧ (∀ i, (y i).toNat < 8) := by
  have h0 := congrFun h ValueIdx.ix0
  dsimp only [Cert.Pre_finite_inputs.fn, Cert.Pre_finite_inputs.fn_part1, andi] at h0
  obtain ⟨h123, hy⟩ := IntOp.andi_eq_one.1 h0
  obtain ⟨h12, hb⟩ := IntOp.andi_eq_one.1 h123
  obtain ⟨hx, hg⟩ := IntOp.andi_eq_one.1 h12
  refine ⟨fun i => ?_, fun i => ?_, fun i => ?_, fun i => ?_⟩
  · exact finite_at _ x i (Host.reduce_andi_all _ _ _ _ _ hx i)
  · exact finite_at _ g i (Host.reduce_andi_all _ _ _ _ _ hg i)
  · exact finite_at _ b i (Host.reduce_andi_all _ _ _ _ _ hb i)
  · have hi := Host.reduce_andi_all _ _ _ _ _ hy i
    obtain ⟨e1, e2⟩ := IntOp.andi_eq_one.1 hi
    exact word_lt_eight (y i) e1 e2

end Cert.PreDecode

end
-- ==== Proof.MathSums.lean ====
/-
  The per-domain count and sums are real numbers, their two halves add up to them, and the variance they give is
  not negative (Cauchy–Schwarz).
-/
import proofs.«404433_j4690104287826_3_alg».proof.Proof.Spec
import Mathlib.Data.EReal.Basic
import Mathlib.Data.EReal.Operations
import Mathlib.Algebra.BigOperators.Fin
import Mathlib.Algebra.Order.BigOperators.Ring.Finset
import Mathlib.Tactic.Ring
import Mathlib.Tactic.Linarith
import Mathlib.Tactic.Positivity
import Mathlib.Tactic.FieldSimp

noncomputable section

namespace Cert.MathSums

open Idealize.ShloMosaic Cert.Spec

/-- A finite sum of real numbers, computed in the extended reals, is the real sum. -/
theorem coe_sum {ι : Type*} (s : Finset ι) (g : ι → ℝ) :
    (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

/-- The indicator is the real number 0 or 1. -/
theorem ind_coe (w : BitVec 32) (d : ℕ) :
    ind w d = ((if w.toNat = d then 1 else 0 : ℝ) : EReal) := by
  unfold ind
  split_ifs <;> simp

/-- A sum over all rows is the sum over the first half plus the sum over the second half. -/
theorem sum_halves (F : Fin 262144 → EReal) :
    ∑ n : Fin 262144, F n = ∑ j : Fin 131072, F (row 0 j) + ∑ j : Fin 131072, F (row 1 j) := by
  have h := Fin.sum_univ_add (a := 131072) (b := 131072) (M := EReal) F
  have e0 : ∀ j : Fin 131072, (Fin.castAdd 131072 j : Fin (131072 + 131072)) = row 0 j := by
    intro j; apply Fin.ext; simp [row]
  have e1 : ∀ j : Fin 131072, (Fin.natAdd 131072 j : Fin (131072 + 131072)) = row 1 j := by
    intro j; apply Fin.ext; simp [row]; omega
  simp only [e0, e1] at h
  exact h

/-- With finite entries: the count `c` and the sums `s1`, `s2` of domain `d` at feature `f` are real numbers, `c ≥ 0`,
    each is the sum of its two halves, and `s2 / max c 1 − (s1 / max c 1)² ≥ 0`. -/
theorem sums_real (X : Fin 262144 → Fin 256 → EReal) (Y : Fin 262144 → BitVec 32)
    (hX : ∀ n f, ∃ r : ℝ, X n f = (r : EReal)) (d : Fin 8) (f : Fin 256) :
    ∃ c s1 s2 : ℝ, 0 ≤ c ∧ 0 ≤ s2 / max c 1 - (s1 / max c 1) ^ 2
      ∧ cnt Y d = (c : EReal) ∧ sum1 X Y d f = (s1 : EReal) ∧ sum2 X Y d f = (s2 : EReal)
      ∧ red2 (fun k => cntH Y k d) = (c : EReal) ∧ red2 (fun k => sum1H X Y k d f) = (s1 : EReal)
      ∧ red2 (fun k => sum2H X Y k d f) = (s2 : EReal) := by
  choose xr hxr using hX
  let a : Fin 262144 → ℝ := fun n => if (Y n).toNat = d.val then 1 else 0
  have ha01 : ∀ n, a n = 0 ∨ a n = 1 := by
    intro n
    by_cases h : (Y n).toNat = d.val
    · right; simp [a, h]
    · left; simp [a, h]
  have ha0 : ∀ n, 0 ≤ a n := by
    intro n; rcases ha01 n with h | h <;> rw [h] <;> norm_num
  have hasq : ∀ n, a n * a n = a n := by
    intro n; rcases ha01 n with h | h <;> rw [h] <;> norm_num
  have hind : ∀ n, ind (Y n) d.val = (a n : EReal) := fun n => ind_coe _ _
  have hcnt : cnt Y d = ((∑ n, a n : ℝ) : EReal) := by
    unfold cnt; rw [← coe_sum]
    exact Finset.sum_congr rfl (fun n _ => hind n)
  have hs1 : sum1 X Y d f = ((∑ n, a n * xr n f : ℝ) : EReal) := by
    unfold sum1; rw [← coe_sum]
    refine Finset.sum_congr rfl (fun n _ => ?_)
    rw [hind, hxr, ← EReal.coe_mul]
  have hs2 : sum2 X Y d f = ((∑ n, a n * (xr n f * xr n f) : ℝ) : EReal) := by
    unfold sum2; rw [← coe_sum]
    refine Finset.sum_congr rfl (fun n _ => ?_)
    rw [hind, hxr, ← EReal.coe_mul, ← EReal.coe_mul]
  refine ⟨∑ n, a n, ∑ n, a n * xr n f, ∑ n, a n * (xr n f * xr n f),
    Finset.sum_nonneg (fun n _ => ha0 n), ?_, hcnt, hs1, hs2, ?_, ?_, ?_⟩
  · -- the variance
    have hCS : (∑ n, a n * xr n f) ^ 2 ≤ (∑ n, a n) * ∑ n, a n * (xr n f * xr n f) := by
      have h := Finset.sum_mul_sq_le_sq_mul_sq (Finset.univ : Finset (Fin 262144)) a
        (fun n => a n * xr n f)
      have e1 : ∀ n, a n * (a n * xr n f) = a n * xr n f := by
        intro n; rw [← mul_assoc, hasq]
      have e2 : ∀ n, a n ^ 2 = a n := by intro n; rw [pow_two, hasq]
      have e3 : ∀ n, (a n * xr n f) ^ 2 = a n * (xr n f * xr n f) := by
        intro n
        calc (a n * xr n f) ^ 2 = (a n * a n) * (xr n f * xr n f) := by ring
          _ = a n * (xr n f * xr n f) := by rw [hasq]
      simp only [e1, e2, e3] at h
      exact h
    by_cases hc : 1 ≤ ∑ n, a n
    · rw [max_eq_left hc]
      have hc0 : 0 < ∑ n, a n := lt_of_lt_of_le one_pos hc
      have hne : (∑ n, a n) ≠ 0 := ne_of_gt hc0
      have e : (∑ n, a n * (xr n f * xr n f)) / (∑ n, a n) - ((∑ n, a n * xr n f) / (∑ n, a n)) ^ 2
          = ((∑ n, a n) * (∑ n, a n * (xr n f * xr n f)) - (∑ n, a n * xr n f) ^ 2) / (∑ n, a n) ^ 2 := by
        field_simp
      rw [e]
      apply div_nonneg
      · linarith
      · exact sq_nonneg _
    · have hlt : ∑ n, a n < 1 := lt_of_not_ge hc
      have hz : ∀ n, a n = 0 := by
        intro n
        rcases ha01 n with h | h
        · exact h
        · exfalso
          have := Finset.single_le_sum (f := a) (fun i _ => ha0 i) (Finset.mem_univ n)
          linarith
      have z1 : ∑ n, a n * xr n f = 0 := Finset.sum_eq_zero (fun n _ => by rw [hz n, zero_mul])
      have z2 : ∑ n, a n * (xr n f * xr n f) = 0 :=
        Finset.sum_eq_zero (fun n _ => by rw [hz n, zero_mul])
      rw [z1, z2]; simp
  · show cntH Y 0 d + cntH Y 1 d = _
    rw [← hcnt]
    exact (sum_halves (fun n => ind (Y n) d.val)).symm
  · show sum1H X Y 0 d f + sum1H X Y 1 d f = _
    rw [← hs1]
    exact (sum_halves (fun n => ind (Y n) d.val * X n f)).symm
  · show sum2H X Y 0 d f + sum2H X Y 1 d f = _
    rw [← hs2]
    exact (sum_halves (fun n => ind (Y n) d.val * (X n f * X n f))).symm

end Cert.MathSums

end
-- ==== Proof.MathScalar.lean ====
/-
  The multiply-add form of the normalisation equals the reference form, for one row entry and its domain's three numbers.
-/
import proofs.«404433_j4690104287826_3_alg».proof.Proof.Spec
import Mathlib.Data.EReal.Basic
import Mathlib.Data.EReal.Operations
import Mathlib.Data.EReal.Inv
import Mathlib.Tactic.Ring
import Mathlib.Tactic.Linarith
import Mathlib.Tactic.NormNum

noncomputable section

namespace Cert.MathScalar

open Idealize.ShloMosaic Cert.Spec

/-- The literal one denotes the real number `1`. -/
theorem one_eq : one = ((1 : ℝ) : EReal) := by
  show Ideal.ofBits .f32 0x3F800000#32 = _
  simp [Ideal.ofBits, Ideal.ieee, -EReal.coe_mul]; norm_num

/-- The variance offset denotes the dyadic real `10995116 · 2⁻⁴⁰`. -/
theorem eps_eq : eps = (((10995116 : ℝ) * (2 : ℝ) ^ (-40 : Int) : ℝ) : EReal) := by
  show Ideal.ofBits .f32 0x3727C5AC#32 = _
  simp [Ideal.ofBits, Ideal.ieee, -EReal.coe_mul]

/-- The variance offset is a positive real. -/
theorem eps_pos : ∃ r : ℝ, 0 < r ∧ eps = (r : EReal) :=
  ⟨(10995116 : ℝ) * (2 : ℝ) ^ (-40 : Int), by positivity, eps_eq⟩

/-- The coercion of the reals into the extended reals commutes with `max`. -/
theorem coe_max (a b : ℝ) : ((max a b : ℝ) : EReal) = max (a : EReal) (b : EReal) :=
  EReal.coe_strictMono.monotone.map_max

/-- For real numbers: a count `c ≥ 0`, sums `s1`, `s2` whose variance `s2 / max c 1 − (s1 / max c 1)²` is not negative,
    scale `g`, shift `b` and entry `x`: `x · A + B` with the pair `A = tabA`, `B = tabB`, each written as itself plus
    (itself minus itself), is the reference's `refOut`. -/
theorem fma_eq (c s1 s2 g b x : ℝ) (hc : 0 ≤ c) (hv : 0 ≤ s2 / max c 1 - (s1 / max c 1) ^ 2) :
    (x : EReal) * (tabA c s1 s2 g + (tabA c s1 s2 g - tabA c s1 s2 g))
        + (tabB c s1 s2 g b + (tabB c s1 s2 g b - tabB c s1 s2 g b))
      = refOut c s1 s2 g b x := by
  obtain ⟨r, hr, he⟩ := eps_pos
  have hcc : (0 : ℝ) < max c 1 := lt_of_lt_of_le one_pos (le_max_right c 1)
  have hcc' : max c 1 ≠ 0 := ne_of_gt hcc
  -- the divisor, the mean, the variance and the inverse deviation are coercions of reals
  have hcnt : cntc (c : EReal) = ((max c 1 : ℝ) : EReal) := by
    rw [cntc, one_eq, coe_max]
  have hmean : meanS (c : EReal) (s1 : EReal) = ((s1 / max c 1 : ℝ) : EReal) := by
    rw [meanS, hcnt, Ideal.div_coe hcc', ← EReal.coe_mul, mul_one_div]
  have hvar : varS (c : EReal) (s1 : EReal) (s2 : EReal)
      = ((s2 / max c 1 - (s1 / max c 1) ^ 2 : ℝ) : EReal) := by
    rw [varS, hmean, hcnt, Ideal.div_coe hcc', ← EReal.coe_mul, ← EReal.coe_mul, ← EReal.coe_sub,
      mul_one_div, sq]
  have hpos : 0 < s2 / max c 1 - (s1 / max c 1) ^ 2 + r := by linarith
  have hist : istdS (c : EReal) (s1 : EReal) (s2 : EReal)
      = (((Real.sqrt (s2 / max c 1 - (s1 / max c 1) ^ 2 + r))⁻¹ : ℝ) : EReal) := by
    rw [istdS, hvar, he, ← EReal.coe_add, Ideal.rsqrt_coe, if_neg (not_lt.mpr hpos.le),
      if_neg (ne_of_gt hpos)]
  have hlt : (one < (c : EReal)) ↔ (1 : ℝ) < c := by
    rw [one_eq, EReal.coe_lt_coe_iff]
  by_cases h : (1 : ℝ) < c
  · have h' : one < (c : EReal) := hlt.mpr h
    rw [tabA, tabB, refOut, if_pos h', if_pos h', if_pos h', hmean, hist]
    set t : ℝ := (Real.sqrt (s2 / max c 1 - (s1 / max c 1) ^ 2 + r))⁻¹ with ht
    set m : ℝ := s1 / max c 1 with hm
    norm_cast
    ring
  · have h' : ¬ one < (c : EReal) := fun hh => h (hlt.mp hh)
    rw [tabA, tabB, refOut, if_neg h', if_neg h', if_neg h', one_eq]
    have e1 : ((1 : ℝ) : EReal) + (((1 : ℝ) : EReal) - ((1 : ℝ) : EReal)) = ((1 : ℝ) : EReal) := by
      rw [← EReal.coe_sub, ← EReal.coe_add]; norm_num
    rw [e1, sub_zero, add_zero, add_zero, ← EReal.coe_mul, mul_one]

end Cert.MathScalar

end
-- ==== Proof.Tile0.lean ====
/-
  One tile of the statistics pass, read at an index.

  The tile's 4096 rows carry a label and 256 features. The one-hot matrix has, at row r and lane a, the indicator of
  "the label of row r is a"; the count, the sum and the sum of squares of each domain are the products of its
  transpose with the all-ones matrix, with the features and with their squares: the entry at (a, b) of such a product
  is the sum over the rows r of the indicator at (r, a) times the right operand at (r, b). The feature matrices enter
  as a leading part and a remainder "v − v", which is zero at finite entries, so the remainder's product adds nothing.
  Rows 0..7 of the products are added to the accumulators.
-/
import proofs.«404433_j4690104287826_3_alg».proof.Proof.Gen.KernelIdeal.Skeleton
import proofs.«404433_j4690104287826_3_alg».proof.Proof.Spec
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.Tile0

open Idealize.ShloMosaic Idealize.ShloMosaic.ValueIdx Cert.KernelIdeal Cert.KernelIdeal.Gen

/-! ## A product with the transposed left operand, read at an index

For dimension numbers that contract axis 0 of both operands and keep axis 1 of both, with no batch axis — a
K × M by K × N product, lᵀ · r —, the result at (a, b) is ∑ k, l (k, a) · r (k, b). -/

section DotTN

variable {M K N : Nat} (D : DotDims ⟨2, ![K, M]⟩ ⟨2, ![K, N]⟩ ⟨2, ![M, N]⟩)

/-- The left operand's column is the result's row. -/
theorem lhs_col (hlb : D.lhsBatch = []) (hln : D.lhsNonContracting = [1]) (j : (⟨2, ![M, N]⟩ : Shape).Idx) (k : D.contr.Idx) :
    (D.lhsIdx j k 1).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's row is the contraction coordinate. -/
theorem lhs_row (hlc : D.lhsContracting = [0]) (j : (⟨2, ![M, N]⟩ : Shape).Idx) (k : D.contr.Idx) :
    (D.lhsIdx j k 0).val = (k ⟨0, by rw [D.rank_contr, hlc]; exact Nat.one_pos⟩).val :=
  D.lhsIdx_val_of_single hlc j k

/-- The right operand's row is the contraction coordinate. -/
theorem rhs_row (hrc : D.rhsContracting = [0]) (j : (⟨2, ![M, N]⟩ : Shape).Idx) (k : D.contr.Idx) :
    (D.rhsIdx j k 0).val = (k ⟨0, by rw [D.rank_contr, ← D.length_contracting, hrc]; exact Nat.one_pos⟩).val :=
  D.rhsIdx_val_of_single hrc j k

/-- The right operand's column is the result's column. -/
theorem rhs_col (hlb : D.lhsBatch = []) (hrb : D.rhsBatch = []) (hln : D.lhsNonContracting = [1]) (hrn : D.rhsNonContracting = [1])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The contraction shape has one axis, of extent K. -/
theorem contr_rank (hlc : D.lhsContracting = [0]) : D.contr.rank = 1 := by rw [D.rank_contr, hlc]; rfl

theorem contr_size (hlc : D.lhsContracting = [0]) :
    D.contr.size ⟨0, by rw [contr_rank D hlc]; exact Nat.one_pos⟩ = K := by
  have h := D.size_contr 0 (by rw [hlc]; exact Nat.one_pos)
  rw [h]
  simp [hlc]

/-- The sum over the contraction indices, as the sum over Fin K of the products along column a of the left operand
    and column b of the right. -/
theorem sum_tn (hlc : D.lhsContracting = [0]) (hrc : D.rhsContracting = [0]) (hln : D.lhsNonContracting = [1])
    (hrn : D.rhsNonContracting = [1]) (hlb : D.lhsBatch = []) (hrb : D.rhsBatch = [])
    (l : (⟨2, ![K, M]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 k a) * r (ix2 k b) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have e1 : D.lhsIdx (ix2 a b) ((contrEquiv1 D K (contr_rank D hlc) (contr_size D hlc)).symm k) = ix2 k a := by
    funext x; refine Fin.ext ?_
    match x with
    | ⟨0, _⟩ => exact (lhs_row D hlc _ _).trans hk
    | ⟨1, _⟩ => exact lhs_col D hlb hln _ _
  have e2 : D.rhsIdx (ix2 a b) ((contrEquiv1 D K (contr_rank D hlc) (contr_size D hlc)).symm k) = ix2 k b := by
    funext x; refine Fin.ext ?_
    match x with
    | ⟨0, _⟩ => exact (rhs_row D hrc _ _).trans hk
    | ⟨1, _⟩ => exact rhs_col D hlb hrb hln hrn _ _
  rw [e1, e2]

/-- The matrix product into a zero accumulator, read at (a, b). -/
theorem matmul_tn_apply {φ₁ φ₂ : FTy} (hlc : D.lhsContracting = [0]) (hrc : D.rhsContracting = [0]) (hln : D.lhsNonContracting = [1])
    (hrn : D.rhsNonContracting = [1]) (hlb : D.lhsBatch = []) (hrb : D.rhsBatch = []) (prec : Option ContractPrecision)
    (l : FVec Ideal ⟨2, ![K, M]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 k a) * r (ix2 k b) := by
  show FloatOps.matmul D prec l r (constant ⟨2, ![M, N]⟩ .f32 0x00000000#32) (ix2 a b) = _
  rw [Ideal.matmul_constant_zero_apply]
  exact sum_tn D hlc hrc hln hrn hlb hrb l r a b

end DotTN

/-- The statistics kernel's product, read at (a, b). -/
theorem dot_apply {φ₁ φ₂ : FTy} (l : FVec Ideal S4096x128 φ₁) (r : FVec Ideal S4096x256 φ₂) (a : Fin 128) (b : Fin 256) :
    matmul dot_S4096x128_S4096x256_S128x256_0_0_1_1_n_n none l r (constant S128x256 .f32 0x00000000#32) (ix2 a b)
      = ∑ k : Fin 4096, l (ix2 k a) * r (ix2 k b) :=
  matmul_tn_apply dot_S4096x128_S4096x256_S128x256_0_0_1_1_n_n rfl rfl rfl rfl rfl rfl none l r a b

/-! ## The one-hot matrix -/

/-- The indicator bit as a float: one where the words agree … -/
theorem indicator_eq (x w : BitVec 32) (h : x = w) :
    FloatOps.sitofp (F := Ideal) .f32 ((IntOp.cmpi .eq x w).setWidth 32) = 1 := by
  subst h
  show (((((IntOp.cmpi .eq x x).setWidth 32).toInt : ℝ)) : EReal) = 1
  have : (IntOp.cmpi .eq x x).setWidth 32 = 1#32 := by
    unfold IntOp.cmpi; simp
  rw [this]; norm_num

/-- … and zero where they differ. -/
theorem indicator_ne (x w : BitVec 32) (h : x ≠ w) :
    FloatOps.sitofp (F := Ideal) .f32 ((IntOp.cmpi .eq x w).setWidth 32) = 0 := by
  show (((((IntOp.cmpi .eq x w).setWidth 32).toInt : ℝ)) : EReal) = 0
  have hb : (x == w) = false := by simpa using h
  have : (IntOp.cmpi .eq x w).setWidth 32 = 0#32 := by
    unfold IntOp.cmpi; rw [hb]; rfl
  rw [this]; norm_num

/-- The indicator of "lane a is the label w", for a lane below 2³². -/
theorem indicator_lane (a : Nat) (ha : a < 2 ^ 32) (w : BitVec 32) :
    FloatOps.sitofp (F := Ideal) .f32 ((IntOp.cmpi .eq (BitVec.ofNat 32 a) w).setWidth 32) = Spec.ind w a := by
  unfold Spec.ind
  by_cases h : w.toNat = a
  · rw [if_pos h, indicator_eq _ _ (by subst h; simp)]
  · rw [if_neg h, indicator_ne _ _ ?_]
    intro heq
    apply h
    rw [← heq, BitVec.toNat_ofNat, Nat.mod_eq_of_lt ha]

/-- The one-hot matrix at row r and lane a: the indicator of "row r's label is a". -/
theorem pay6_apply (x1 : Vec Ideal S4096x1 .i32) (r : Fin 4096) (a : Fin 128) :
    k0_pay6 (F := Ideal) x1 (ix2 r a) = Spec.ind (x1 (ix2 r 0)) a.val := by
  show FloatOps.sitofp (F := Ideal) .f32 ((IntOp.cmpi .eq (iota .tc S4096x128 32 [1] iota_S4096x128_d1_w32 (ix2 r a))
    (broadcastTo S4096x128 (shapeCast S4096x1 x1 shapeCasts_S4096x1_S4096x1) broadcasts_S4096x1_S4096x128 (ix2 r a))).setWidth 32) = _
  rw [iota_single_apply, shapeCast_self,
    broadcastTo_apply x1 broadcasts_S4096x1_S4096x128 (ix2 r a) (ix2 r 0) (fun ax => by
      match ax with
      | ⟨0, _⟩ => rfl
      | ⟨1, _⟩ => rfl)]
  exact indicator_lane a.val (by have := a.isLt; omega) _

/-! ## The payloads -/

/-- A finite extended real less itself is zero. -/
theorem coe_sub_self (r : ℝ) : (r : EReal) - (r : EReal) = 0 := by
  rw [← EReal.coe_sub, sub_self, EReal.coe_zero]

/-- Rows 0..7 of a product added to an accumulator block, read at an index. -/
theorem slice_add_apply (v : FVec Ideal S128x256 .f32) (acc : Vec Ideal S1x8x256 .f32) (u : Fin 1) (d : Fin 8) (f : Fin 256) :
    shapeCast S1x8x256 (addf (shapeCast S8x256 acc shapeCasts_S1x8x256_S8x256)
        (extractStridedSlice S8x256 ![0, 0] v slices_S128x256_o0_0_S8x256)) shapeCasts_S8x256_S1x8x256 (ix3 u d f)
      = acc (ix3 u d f) + v (ix2 (⟨d.val, by have := d.isLt; omega⟩ : Fin 128) f) := by
  have hu : u = 0 := Subsingleton.elim _ _
  subst hu
  rw [shapeCast_ab_1ab_apply, addf_apply, shapeCast_1ab_ab_apply,
    extractStridedSlice_apply ![0, 0] v slices_S128x256_o0_0_S8x256 (ix2 d f) (ix2 (⟨d.val, by have := d.isLt; omega⟩ : Fin 128) f)
      (fun ax => by
        match ax with
        | ⟨0, _⟩ => show d.val = 0 + d.val; omega
        | ⟨1, _⟩ => show f.val = 0 + f.val; omega)]

/-- The product of the one-hot matrix's transpose with a matrix, read at (a, b). -/
theorem onehot_dot_apply {φ : FTy} (x1 : Vec Ideal S4096x1 .i32) (m : FVec Ideal S4096x256 φ) (a : Fin 128) (b : Fin 256) :
    matmul dot_S4096x128_S4096x256_S128x256_0_0_1_1_n_n none (k0_pay6 (F := Ideal) x1) m (constant S128x256 .f32 0x00000000#32) (ix2 a b)
      = ∑ r : Fin 4096, Spec.ind (x1 (ix2 r 0)) a.val * m (ix2 r b) := by
  rw [dot_apply]
  exact Finset.sum_congr rfl fun r _ => by rw [pay6_apply]

/-- The sum of a matrix over each domain's rows: the leading part's product, the remainder's adding nothing. -/
theorem split_dot_apply (x1 : Vec Ideal S4096x1 .i32) (m : FVec Ideal S4096x256 .f32) (hm : ∀ i, ∃ r : ℝ, m i = (r : EReal))
    (a : Fin 128) (b : Fin 256) :
    addf (matmul dot_S4096x128_S4096x256_S128x256_0_0_1_1_n_n none (k0_pay6 (F := Ideal) x1) (truncf .bf16 m bitsLt_bf16_f32)
          (constant S128x256 .f32 0x00000000#32))
        (matmul dot_S4096x128_S4096x256_S128x256_0_0_1_1_n_n none (k0_pay6 (F := Ideal) x1) (truncf .bf16 (subf m m) bitsLt_bf16_f32)
          (constant S128x256 .f32 0x00000000#32)) (ix2 a b)
      = ∑ r : Fin 4096, Spec.ind (x1 (ix2 r 0)) a.val * m (ix2 r b) := by
  rw [addf_apply, onehot_dot_apply, onehot_dot_apply]
  have h0 : ∑ r : Fin 4096, Spec.ind (x1 (ix2 r 0)) a.val * (truncf .bf16 (subf m m) bitsLt_bf16_f32 : FVec Ideal S4096x256 .bf16) (ix2 r b) = 0 := by
    refine Finset.sum_eq_zero fun r _ => ?_
    rw [truncf_apply, subf_apply]
    obtain ⟨s, hs⟩ := hm (ix2 r b)
    rw [hs, coe_sub_self, mul_zero]
  rw [h0, add_zero]
  exact Finset.sum_congr rfl fun r _ => by rw [truncf_apply]

/-- The three reset payloads are the zero block. -/
theorem pay3_apply (i : S1x8x256.Idx) : k0_pay3 (F := Ideal) i = 0 := by
  show Ideal.ofBits .f32 0x00000000#32 = 0
  exact Ideal.ofBits_zero_f32
theorem pay4_apply (i : S1x8x256.Idx) : k0_pay4 (F := Ideal) i = 0 := by
  show Ideal.ofBits .f32 0x00000000#32 = 0
  exact Ideal.ofBits_zero_f32
theorem pay5_apply (i : S1x8x256.Idx) : k0_pay5 (F := Ideal) i = 0 := by
  show Ideal.ofBits .f32 0x00000000#32 = 0
  exact Ideal.ofBits_zero_f32

/-- The count update: the accumulator plus the number of the tile's rows labelled d. -/
theorem pay9_apply (x1 : Vec Ideal S4096x1 .i32) (acc : Vec Ideal S1x8x256 .f32) (u : Fin 1) (d : Fin 8) (f : Fin 256) :
    k0_pay9 (F := Ideal) x1 acc (ix3 u d f) = acc (ix3 u d f) + ∑ r : Fin 4096, Spec.ind (x1 (ix2 r 0)) d.val := by
  show shapeCast S1x8x256 (addf (shapeCast S8x256 acc shapeCasts_S1x8x256_S8x256)
      (extractStridedSlice S8x256 ![0, 0]
        (matmul dot_S4096x128_S4096x256_S128x256_0_0_1_1_n_n none (k0_pay6 (F := Ideal) x1)
          (broadcast S4096x256 (Scalar.ofBits (F := Ideal) .bf16 0x3F80#16)) (constant S128x256 .f32 0x00000000#32))
        slices_S128x256_o0_0_S8x256)) shapeCasts_S8x256_S1x8x256 (ix3 u d f) = _
  rw [slice_add_apply, onehot_dot_apply]
  congr 1
  refine Finset.sum_congr rfl fun r _ => ?_
  rw [broadcast_apply]
  show _ * Ideal.ofBits .bf16 0x3F80#16 = _
  rw [Ideal.ofBits_one_bf16, mul_one]

/-- The sum update: the accumulator plus the sum of the feature over the tile's rows labelled d (finite entries). -/
theorem pay1_apply (x0 : Vec Ideal S4096x256 .f32) (hx0 : ∀ i, ∃ r : ℝ, x0 i = (r : EReal)) (x1 : Vec Ideal S4096x1 .i32)
    (acc : Vec Ideal S1x8x256 .f32) (u : Fin 1) (d : Fin 8) (f : Fin 256) :
    k0_pay1 (F := Ideal) (k0_pay7 x0 x1) acc (ix3 u d f)
      = acc (ix3 u d f) + ∑ r : Fin 4096, Spec.ind (x1 (ix2 r 0)) d.val * x0 (ix2 r f) := by
  show shapeCast S1x8x256 (addf (shapeCast S8x256 acc shapeCasts_S1x8x256_S8x256)
      (extractStridedSlice S8x256 ![0, 0] (k0_pay7 (F := Ideal) x0 x1) slices_S128x256_o0_0_S8x256))
      shapeCasts_S8x256_S1x8x256 (ix3 u d f) = _
  rw [slice_add_apply]
  congr 1
  exact split_dot_apply x1 x0 hx0 _ f

/-- The sum-of-squares update. -/
theorem pay2_apply (x0 : Vec Ideal S4096x256 .f32) (hx0 : ∀ i, ∃ r : ℝ, x0 i = (r : EReal)) (x1 : Vec Ideal S4096x1 .i32)
    (acc : Vec Ideal S1x8x256 .f32) (u : Fin 1) (d : Fin 8) (f : Fin 256) :
    k0_pay2 (F := Ideal) (k0_pay8 x0 x1) acc (ix3 u d f)
      = acc (ix3 u d f) + ∑ r : Fin 4096, Spec.ind (x1 (ix2 r 0)) d.val * (x0 (ix2 r f) * x0 (ix2 r f)) := by
  show shapeCast S1x8x256 (addf (shapeCast S8x256 acc shapeCasts_S1x8x256_S8x256)
      (extractStridedSlice S8x256 ![0, 0] (k0_pay8 (F := Ideal) x0 x1) slices_S128x256_o0_0_S8x256))
      shapeCasts_S8x256_S1x8x256 (ix3 u d f) = _
  rw [slice_add_apply]
  congr 1
  have hsq : ∀ i, ∃ r : ℝ, (mulf x0 x0 : FVec Ideal S4096x256 .f32) i = (r : EReal) := fun i => by
    obtain ⟨s, hs⟩ := hx0 i
    exact ⟨s * s, by rw [mulf_apply, hs, EReal.coe_mul]⟩
  refine (split_dot_apply x1 (mulf x0 x0) hsq _ f).trans ?_
  exact Finset.sum_congr rfl fun r _ => by rw [mulf_apply]

end Cert.Tile0

end
-- ==== Proof.Stats0.lean ====
/-
  The statistics pass: what its three result arrays hold when it ends.

  At every point the pass adds one tile's count, sum and sum of squares per domain to three running blocks, which it
  zeroes at the first point of each half and writes back at the last. So after point `n` the blocks hold the sums over
  the rows of the half seen so far (by induction on the point), and each half's block of the result holds the sums over
  that half's 131072 rows.
-/
import proofs.«404433_j4690104287826_3_alg».proof.Proof.Gen.KernelIdeal.Frame
import proofs.«404433_j4690104287826_3_alg».proof.Proof.Tile0
import proofs.«404433_j4690104287826_3_alg».proof.Proof.Spec
import Idealize.ShloMosaic.Lib.Pipeline.Value
import Idealize.ShloMosaic.Lib.ValueIdx
import Idealize.ShloMosaic.Lib.Tactic

set_option maxRecDepth 16384

noncomputable section

namespace Cert.Stats0

open Idealize.ShloMosaic Idealize.ShloMosaic.TcCoe Idealize.ShloMosaic.ValueIdx Idealize.SL.Sem
open Idealize.ShloMosaic.Pipeline (Dat)
open Cert.KernelIdeal Cert.KernelIdeal.Gen

/-! ## What one point leaves in each block -/

theorem hz2 : (![0, 0] : Fin 2 → Nat) = fun _ => 0 := funext fun a => by fin_cases a <;> rfl

theorem hz : (![0, 0, 0] : Fin 3 → Nat) = fun _ => 0 := funext fun a => by fin_cases a <;> rfl

/-- The three zero blocks a reset stores. -/
abbrev z3 : Vec Ideal S1x8x256 .f32 := k0_pay3 (F := Ideal)
abbrev z4 : Vec Ideal S1x8x256 .f32 := k0_pay4 (F := Ideal)
abbrev z5 : Vec Ideal S1x8x256 .f32 := k0_pay5 (F := Ideal)

/-- Away from a reset point the counts block holds the update of what it held. -/
theorem out_B_2 (c : Dev nD) (i : grid0.Coords) (a2 : Memref sig .tc .vmem S4096x256 .f32) (h2 : a2.IsWhole)
    (a3 : Memref sig .tc .vmem S4096x1 .i32) (h3 : a3.IsWhole) (a4 : Memref sig .tc .vmem S1x8x256 .f32) (h4 : a4.IsWhole)
    (a5 : Memref sig .tc .vmem S1x8x256 .f32) (h5 : a5.IsWhole) (a6 : Memref sig .tc .vmem S1x8x256 .f32) (h6 : a6.IsWhole)
    (hc : ¬cond0_0 i) (x0 : Vec Ideal S4096x256 .f32) (x1 : Vec Ideal S4096x1 .i32) (xo2 xo3 xo4 : Vec Ideal S1x8x256 .f32) :
    out0_B_2 c i a2 h2 a3 h3 a4 h4 a5 h5 a6 h6 hc x0 x1 xo2 xo3 xo4 = k0_pay9 x1 xo2 := by
  unfold out0_B_2
  rw [View.read_writes_eq_canon _ _ _ (cover0_B_2 c i a2 h2 a3 h3 a4 h4 a5 h5 a6 h6 hc x0 x1 xo2 xo3 xo4)]
  unfold kernelRun0_B
  dsimp only
  rw [View.canon_unit_zero hz]
  simp only [View.readAt_eq_ld, h3.read_unread, h4.read_unread, View.ld_unit_zero (S := S4096x1) hz2, View.ld_unit_zero (S := S1x8x256) hz]

theorem out_B_3 (c : Dev nD) (i : grid0.Coords) (a2 : Memref sig .tc .vmem S4096x256 .f32) (h2 : a2.IsWhole)
    (a3 : Memref sig .tc .vmem S4096x1 .i32) (h3 : a3.IsWhole) (a4 : Memref sig .tc .vmem S1x8x256 .f32) (h4 : a4.IsWhole)
    (a5 : Memref sig .tc .vmem S1x8x256 .f32) (h5 : a5.IsWhole) (a6 : Memref sig .tc .vmem S1x8x256 .f32) (h6 : a6.IsWhole)
    (hc : ¬cond0_0 i) (x0 : Vec Ideal S4096x256 .f32) (x1 : Vec Ideal S4096x1 .i32) (xo2 xo3 xo4 : Vec Ideal S1x8x256 .f32) :
    out0_B_3 c i a2 h2 a3 h3 a4 h4 a5 h5 a6 h6 hc x0 x1 xo2 xo3 xo4 = k0_pay1 (k0_pay7 x0 x1) xo3 := by
  unfold out0_B_3
  rw [View.read_writes_eq_canon _ _ _ (cover0_B_3 c i a2 h2 a3 h3 a4 h4 a5 h5 a6 h6 hc x0 x1 xo2 xo3 xo4)]
  unfold kernelRun0_B
  dsimp only
  sl_unfold_words
  rw [View.canon_unit_zero hz]
  simp only [View.readAt_eq_ld, h2.read_unread, h3.read_unread, h5.read_unread, View.ld_unit_zero (S := S4096x256) hz2, View.ld_unit_zero (S := S4096x1) hz2, View.ld_unit_zero (S := S1x8x256) hz]

theorem out_B_4 (c : Dev nD) (i : grid0.Coords) (a2 : Memref sig .tc .vmem S4096x256 .f32) (h2 : a2.IsWhole)
    (a3 : Memref sig .tc .vmem S4096x1 .i32) (h3 : a3.IsWhole) (a4 : Memref sig .tc .vmem S1x8x256 .f32) (h4 : a4.IsWhole)
    (a5 : Memref sig .tc .vmem S1x8x256 .f32) (h5 : a5.IsWhole) (a6 : Memref sig .tc .vmem S1x8x256 .f32) (h6 : a6.IsWhole)
    (hc : ¬cond0_0 i) (x0 : Vec Ideal S4096x256 .f32) (x1 : Vec Ideal S4096x1 .i32) (xo2 xo3 xo4 : Vec Ideal S1x8x256 .f32) :
    out0_B_4 c i a2 h2 a3 h3 a4 h4 a5 h5 a6 h6 hc x0 x1 xo2 xo3 xo4 = k0_pay2 (k0_pay8 x0 x1) xo4 := by
  unfold out0_B_4
  rw [View.read_writes_eq_canon _ _ _ (cover0_B_4 c i a2 h2 a3 h3 a4 h4 a5 h5 a6 h6 hc x0 x1 xo2 xo3 xo4)]
  unfold kernelRun0_B
  dsimp only
  sl_unfold_words
  rw [View.canon_unit_zero hz]
  simp only [View.readAt_eq_ld, h2.read_unread, h3.read_unread, h6.read_unread, View.ld_unit_zero (S := S4096x256) hz2, View.ld_unit_zero (S := S4096x1) hz2, View.ld_unit_zero (S := S1x8x256) hz]

/-- At a reset point the counts block holds the update of the zero block. -/
theorem out_A_2 (c : Dev nD) (i : grid0.Coords) (a2 : Memref sig .tc .vmem S4096x256 .f32) (h2 : a2.IsWhole)
    (a3 : Memref sig .tc .vmem S4096x1 .i32) (h3 : a3.IsWhole) (a4 : Memref sig .tc .vmem S1x8x256 .f32) (h4 : a4.IsWhole)
    (a5 : Memref sig .tc .vmem S1x8x256 .f32) (h5 : a5.IsWhole) (a6 : Memref sig .tc .vmem S1x8x256 .f32) (h6 : a6.IsWhole)
    (hc : cond0_0 i) (x0 : Vec Ideal S4096x256 .f32) (x1 : Vec Ideal S4096x1 .i32) :
    out0_A_2 c i a2 h2 a3 h3 a4 h4 a5 h5 a6 h6 hc x0 x1 = k0_pay9 x1 z3 := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S1x8x256) hz, View.readCov_unit_zero (S := S1x8x256) _ hz]
  simp only [View.readAt_eq_ld, h3.read_unread, View.ld_unit_zero (S := S4096x1) hz2]

theorem out_A_3 (c : Dev nD) (i : grid0.Coords) (a2 : Memref sig .tc .vmem S4096x256 .f32) (h2 : a2.IsWhole)
    (a3 : Memref sig .tc .vmem S4096x1 .i32) (h3 : a3.IsWhole) (a4 : Memref sig .tc .vmem S1x8x256 .f32) (h4 : a4.IsWhole)
    (a5 : Memref sig .tc .vmem S1x8x256 .f32) (h5 : a5.IsWhole) (a6 : Memref sig .tc .vmem S1x8x256 .f32) (h6 : a6.IsWhole)
    (hc : cond0_0 i) (x0 : Vec Ideal S4096x256 .f32) (x1 : Vec Ideal S4096x1 .i32) :
    out0_A_3 c i a2 h2 a3 h3 a4 h4 a5 h5 a6 h6 hc x0 x1 = k0_pay1 (k0_pay7 x0 x1) z4 := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x8x256) hz, View.readCov_unit_zero (S := S1x8x256) _ hz]
  simp only [View.readAt_eq_ld, h2.read_unread, h3.read_unread, View.ld_unit_zero (S := S4096x256) hz2, View.ld_unit_zero (S := S4096x1) hz2]

theorem out_A_4 (c : Dev nD) (i : grid0.Coords) (a2 : Memref sig .tc .vmem S4096x256 .f32) (h2 : a2.IsWhole)
    (a3 : Memref sig .tc .vmem S4096x1 .i32) (h3 : a3.IsWhole) (a4 : Memref sig .tc .vmem S1x8x256 .f32) (h4 : a4.IsWhole)
    (a5 : Memref sig .tc .vmem S1x8x256 .f32) (h5 : a5.IsWhole) (a6 : Memref sig .tc .vmem S1x8x256 .f32) (h6 : a6.IsWhole)
    (hc : cond0_0 i) (x0 : Vec Ideal S4096x256 .f32) (x1 : Vec Ideal S4096x1 .i32) :
    out0_A_4 c i a2 h2 a3 h3 a4 h4 a5 h5 a6 h6 hc x0 x1 = k0_pay2 (k0_pay8 x0 x1) z5 := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S1x8x256) hz, View.readCov_unit_zero (S := S1x8x256) _ hz]
  simp only [View.readAt_eq_ld, h2.read_unread, h3.read_unread, View.ld_unit_zero (S := S4096x256) hz2, View.ld_unit_zero (S := S4096x1) hz2]

/-! ## Sums over consecutive rows -/

/-- What a core's running total is after point `n`: the terms of the rows of its half seen so far. -/
def part (g : ℕ → EReal) (n : ℕ) : EReal := ∑ j ∈ Finset.range ((n % 32 + 1) * 4096), g (131072 * (n / 32) + j)

theorem part_reset (g : ℕ → EReal) (n : ℕ) (h0 : n % 32 = 0) :
    part g n = ∑ r ∈ Finset.range 4096, g (4096 * n + r) := by
  have e1 : (n % 32 + 1) * 4096 = 4096 := by omega
  have e2 : 131072 * (n / 32) = 4096 * n := by omega
  unfold part; rw [e1, e2]

theorem part_step (g : ℕ → EReal) (n : ℕ) (h0 : ¬n % 32 = 0) :
    part g n = part g (n - 1) + ∑ r ∈ Finset.range 4096, g (4096 * n + r) := by
  have e1 : (n % 32 + 1) * 4096 = ((n - 1) % 32 + 1) * 4096 + 4096 := by omega
  have e2 : (n - 1) / 32 = n / 32 := by omega
  unfold part; rw [e1, Finset.sum_range_add, e2]
  congr 1
  refine Finset.sum_congr rfl fun r _ => ?_
  congr 1; omega

theorem part_last (g : ℕ → EReal) (n : ℕ) (h : n % 32 = 31) :
    part g n = ∑ j ∈ Finset.range 131072, g (131072 * (n / 32) + j) := by
  have e1 : (n % 32 + 1) * 4096 = 131072 := by omega
  unfold part; rw [e1]

/-- A total that restarts from one tile's sum at the points ≡ 0 (mod 32) and adds one tile's sum at every other point
    is the partial sum: by induction on the point. -/
theorem acc_closed {N : ℕ} (a : (n : ℕ) → n < N → EReal) (g : ℕ → EReal)
    (hA : ∀ n (h : n < N), n % 32 = 0 → a n h = ∑ r ∈ Finset.range 4096, g (4096 * n + r))
    (hB : ∀ n (h : n < N), ¬n % 32 = 0 →
      a n h = a (n - 1) (Nat.lt_of_le_of_lt (Nat.sub_le _ _) h) + ∑ r ∈ Finset.range 4096, g (4096 * n + r)) :
    ∀ n (h : n < N), a n h = part g n := by
  intro n
  induction n using Nat.strong_induction_on with
  | _ n ih =>
    intro h
    by_cases h0 : n % 32 = 0
    · rw [hA n h h0, part_reset g n h0]
    · rw [hB n h h0, part_step g n h0, ih (n - 1) (by omega)]

/-! ## The arrays by row number -/

variable (V : (c : Dev nD) → (b : Ref sig .tc) → Buf (Elt Ideal) ((c : Thread nD τ).loc b))

/-- The pass's two input arrays as the region finds them: the features and the labels (a column). -/
abbrev xarr (c : Dev nD) : Vec Ideal S262144x256 .f32 := V c main_arg0
abbrev yarr (c : Dev nD) : Vec Ideal S262144x1 .i32 := V c main_v0

/-- The tiles of the two arrays at a point. -/
abbrev xblk (c : Dev nD) (t : Fin cfg0.N) : Vec Ideal S4096x256 .f32 := iblk0 V c 0 t
abbrev yblk (c : Dev nD) (t : Fin cfg0.N) : Vec Ideal S4096x1 .i32 := iblk0 V c 1 t

/-- Row `m`'s label, and its feature `f` (zero outside the arrays). -/
def Yn (c : Dev nD) (m : ℕ) : BitVec 32 :=
  if h : m < 262144 then yarr V c (ix2 (⟨m, h⟩ : Fin 262144) (0 : Fin 1)) else 0
def Xn (c : Dev nD) (m f : ℕ) : EReal :=
  if h : m < 262144 ∧ f < 256 then xarr V c (ix2 (⟨m, h.1⟩ : Fin 262144) (⟨f, h.2⟩ : Fin 256)) else 0

/-- Row `m`'s term of the count, the sum and the sum of squares of domain `d`, feature `f`. -/
def g2 (c : Dev nD) (d f m : ℕ) : EReal := Spec.ind (Yn V c m) d
def g3 (c : Dev nD) (d f m : ℕ) : EReal := Spec.ind (Yn V c m) d * Xn V c m f
def g4 (c : Dev nD) (d f m : ℕ) : EReal := Spec.ind (Yn V c m) d * (Xn V c m f * Xn V c m f)

theorem idx01 : ∀ t : Fin cfg0.N, (win0_0.index t 0 = t.val ∧ win0_0.index t 1 = 0) ∧ (win0_1.index t 0 = t.val ∧ win0_1.index t 1 = 0) :=
  (by decide +kernel : ∀ t : Fin grid0.N, (win0_0.index t 0 = t.val ∧ win0_0.index t 1 = 0) ∧ (win0_1.index t 0 = t.val ∧ win0_1.index t 1 = 0))

/-- Row `r` of the labels' tile at point `t` is row `4096 t + r` of the array. -/
theorem yblk_apply (c : Dev nD) (t : Fin cfg0.N) (r : Fin 4096) :
    yblk V c t (ix2 r 0) = Yn V c (4096 * t.val + r.val) := by
  have hN : t.val < 64 := lt_of_lt_of_eq t.isLt (show cfg0.N = 64 from N_0)
  have hr := r.isLt
  have hlt : 4096 * t.val + r.val < 262144 := by omega
  obtain ⟨-, hi0, hi1⟩ := idx01 t
  unfold Yn; rw [dif_pos hlt]
  show V c main_v0 (((cfg0.win 1).blk t).view.emb (ix2 r 0)) = V c main_v0 (ix2 ⟨_, hlt⟩ 0)
  congr 1
  funext a; apply Fin.ext
  match a with
  | ⟨0, _⟩ => show win0_1.index t 0 * 4096 + 1 * r.val = 4096 * t.val + r.val; rw [hi0]; omega
  | ⟨1, _⟩ => show win0_1.index t 1 * 1 + 1 * 0 = 0; rw [hi1]

/-- Entry `(r, f)` of the features' tile at point `t` is entry `(4096 t + r, f)` of the array. -/
theorem xblk_apply (c : Dev nD) (t : Fin cfg0.N) (r : Fin 4096) (f : Fin 256) :
    xblk V c t (ix2 r f) = Xn V c (4096 * t.val + r.val) f.val := by
  have hN : t.val < 64 := lt_of_lt_of_eq t.isLt (show cfg0.N = 64 from N_0)
  have hr := r.isLt
  have hf := f.isLt
  have hlt : 4096 * t.val + r.val < 262144 ∧ f.val < 256 := ⟨by omega, hf⟩
  obtain ⟨⟨hi0, hi1⟩, -⟩ := idx01 t
  unfold Xn; rw [dif_pos hlt]
  show V c main_arg0 (((cfg0.win 0).blk t).view.emb (ix2 r f)) = V c main_arg0 (ix2 ⟨_, hlt.1⟩ ⟨_, hlt.2⟩)
  congr 1
  funext a; apply Fin.ext
  match a with
  | ⟨0, _⟩ => show win0_0.index t 0 * 4096 + 1 * r.val = 4096 * t.val + r.val; rw [hi0]; omega
  | ⟨1, _⟩ => show win0_0.index t 1 * 256 + 1 * f.val = f.val; rw [hi1]; omega

/-- A tile of finite features is finite. -/
theorem xblk_fin (c : Dev nD) (hx : ∀ i, ∃ r : ℝ, xarr V c i = (r : EReal)) (t : Fin cfg0.N) :
    ∀ i, ∃ r : ℝ, xblk V c t i = (r : EReal) :=
  fun i => hx (((cfg0.win 0).blk t).view.emb i)

/-- A tile's three sums, by row number. -/
theorem tile2 (c : Dev nD) (t : Fin cfg0.N) (d f : ℕ) :
    ∑ r : Fin 4096, Spec.ind (yblk V c t (ix2 r 0)) d = ∑ r ∈ Finset.range 4096, g2 V c d f (4096 * t.val + r) := by
  rw [← Fin.sum_univ_eq_sum_range (fun r => g2 V c d f (4096 * t.val + r)) 4096]
  refine Finset.sum_congr rfl fun r _ => ?_
  rw [yblk_apply]; rfl

theorem tile3 (c : Dev nD) (t : Fin cfg0.N) (d : ℕ) (f : Fin 256) :
    ∑ r : Fin 4096, Spec.ind (yblk V c t (ix2 r 0)) d * xblk V c t (ix2 r f)
      = ∑ r ∈ Finset.range 4096, g3 V c d f.val (4096 * t.val + r) := by
  rw [← Fin.sum_univ_eq_sum_range (fun r => g3 V c d f.val (4096 * t.val + r)) 4096]
  refine Finset.sum_congr rfl fun r _ => ?_
  rw [yblk_apply, xblk_apply]; rfl

theorem tile4 (c : Dev nD) (t : Fin cfg0.N) (d : ℕ) (f : Fin 256) :
    ∑ r : Fin 4096, Spec.ind (yblk V c t (ix2 r 0)) d * (xblk V c t (ix2 r f) * xblk V c t (ix2 r f))
      = ∑ r ∈ Finset.range 4096, g4 V c d f.val (4096 * t.val + r) := by
  rw [← Fin.sum_univ_eq_sum_range (fun r => g4 V c d f.val (4096 * t.val + r)) 4096]
  refine Finset.sum_congr rfl fun r _ => ?_
  rw [yblk_apply, xblk_apply]; rfl

theorem z3_apply (i : S1x8x256.Idx) : z3 i = 0 := Tile0.pay3_apply i
theorem z4_apply (i : S1x8x256.Idx) : z4 i = 0 := Tile0.pay4_apply i
theorem z5_apply (i : S1x8x256.Idx) : z5 i = 0 := Tile0.pay5_apply i

/-! ## The three blocks after each point -/

/-- After point `n` the counts block holds the partial count. -/
theorem inv2 (c : Dev nD) (u : Fin 1) (d : Fin 8) (f : Fin 256) :
    ∀ n (h : n < cfg0.N), (outsAt0 V c n h).1 (ix3 u d f) = part (g2 V c d.val f.val) n := by
  refine acc_closed (N := cfg0.N) (fun n h => (outsAt0 V c n h).1 (ix3 u d f)) _ ?_ ?_
  · intro n h h0
    show (outsAt0 V c n h).1 (ix3 u d f) = _
    rw [outsAt0_A V c ⟨n, h⟩ h0]; dsimp only
    rw [out_A_2, Tile0.pay9_apply, z3_apply, zero_add]
    exact tile2 V c ⟨n, h⟩ d.val f.val
  · intro n h h0
    show (outsAt0 V c n h).1 (ix3 u d f) = (outsAt0 V c (n - 1) _).1 (ix3 u d f) + _
    rw [outsAt0_B V c ⟨n, h⟩ h0]; dsimp only
    rw [out_B_2, Tile0.pay9_apply]
    congr 1
    exact tile2 V c ⟨n, h⟩ d.val f.val

/-- After point `n` the sums block holds the partial sum (finite entries). -/
theorem inv3 (c : Dev nD) (hx : ∀ i, ∃ r : ℝ, xarr V c i = (r : EReal)) (u : Fin 1) (d : Fin 8) (f : Fin 256) :
    ∀ n (h : n < cfg0.N), (outsAt0 V c n h).2.1 (ix3 u d f) = part (g3 V c d.val f.val) n := by
  refine acc_closed (N := cfg0.N) (fun n h => (outsAt0 V c n h).2.1 (ix3 u d f)) _ ?_ ?_
  · intro n h h0
    show (outsAt0 V c n h).2.1 (ix3 u d f) = _
    rw [outsAt0_A V c ⟨n, h⟩ h0]; dsimp only
    rw [out_A_3, Tile0.pay1_apply _ (xblk_fin V c hx ⟨n, h⟩), z4_apply, zero_add]
    exact tile3 V c ⟨n, h⟩ d.val f
  · intro n h h0
    show (outsAt0 V c n h).2.1 (ix3 u d f) = (outsAt0 V c (n - 1) _).2.1 (ix3 u d f) + _
    rw [outsAt0_B V c ⟨n, h⟩ h0]; dsimp only
    rw [out_B_3, Tile0.pay1_apply _ (xblk_fin V c hx ⟨n, h⟩)]
    congr 1
    exact tile3 V c ⟨n, h⟩ d.val f

/-- After point `n` the squares block holds the partial sum of squares (finite entries). -/
theorem inv4 (c : Dev nD) (hx : ∀ i, ∃ r : ℝ, xarr V c i = (r : EReal)) (u : Fin 1) (d : Fin 8) (f : Fin 256) :
    ∀ n (h : n < cfg0.N), (outsAt0 V c n h).2.2 (ix3 u d f) = part (g4 V c d.val f.val) n := by
  refine acc_closed (N := cfg0.N) (fun n h => (outsAt0 V c n h).2.2 (ix3 u d f)) _ ?_ ?_
  · intro n h h0
    show (outsAt0 V c n h).2.2 (ix3 u d f) = _
    rw [outsAt0_A V c ⟨n, h⟩ h0]; dsimp only
    rw [out_A_4, Tile0.pay2_apply _ (xblk_fin V c hx ⟨n, h⟩), z5_apply, zero_add]
    exact tile4 V c ⟨n, h⟩ d.val f
  · intro n h h0
    show (outsAt0 V c n h).2.2 (ix3 u d f) = (outsAt0 V c (n - 1) _).2.2 (ix3 u d f) + _
    rw [outsAt0_B V c ⟨n, h⟩ h0]; dsimp only
    rw [out_B_4, Tile0.pay2_apply _ (xblk_fin V c hx ⟨n, h⟩)]
    congr 1
    exact tile4 V c ⟨n, h⟩ d.val f

/-! ## What the last points write back, and the cover -/

/-- What the counts array ends holding: per half, the sum of the half's 131072 rows' terms. -/
abbrev G2 (c : Dev nD) : Vec Ideal S2x8x256 .f32 :=
  fun i => ∑ j ∈ Finset.range 131072, g2 V c (i 1).val (i 2).val (131072 * (i 0).val + j)

theorem idxw2 : ∀ t : Fin cfg0.N, win0_2.index t 0 = t.val / 32 ∧ win0_2.index t 1 = 0 ∧ win0_2.index t 2 = 0 :=
  (by decide +kernel : ∀ t : Fin grid0.N, win0_2.index t 0 = t.val / 32 ∧ win0_2.index t 1 = 0 ∧ win0_2.index t 2 = 0)

/-- What a core's last point writes back is its half's block of the whole. -/
theorem flushed_eq2 (c : Dev nD) (t : Fin cfg0.N) (hf : (cfg0.win 2).flush t = true) :
    (dat0 V c).flushed 2 t = ((cfg0.win 2).blk t).view.read (Elt Ideal) (G2 V c) := by
  have h31 : t.val % 32 = 31 := (flush0_2 t).mp hf
  have hN : t.val < 64 := lt_of_lt_of_eq t.isLt (show cfg0.N = 64 from N_0)
  have hk : t.val / 32 < 2 := by omega
  obtain ⟨i0, i1, i2⟩ := idxw2 t
  show (cfg0.win 2).cut (grid0.coords t) ((dat0 V c).after 2 t) = _
  rw [after0_2]
  funext j
  obtain ⟨u, d, f, rfl⟩ : ∃ (u : Fin 1) (d : Fin 8) (f : Fin 256), j = ix3 u d f := ⟨j 0, j 1, j 2, eq_ix3 j⟩
  have hread : ∀ Gf : Vec Ideal S2x8x256 .f32,
      ((cfg0.win 2).blk t).view.read (Elt Ideal) Gf (ix3 u d f) = Gf (((cfg0.win 2).blk t).view.emb (ix3 u d f)) :=
    fun _ => rfl
  rw [hread]
  have hemb : ((cfg0.win 2).blk t).view.emb (ix3 u d f) = ix3 (⟨t.val / 32, hk⟩ : Fin 2) d f := by
    funext a; apply Fin.ext
    have hu := u.isLt
    match a with
    | ⟨0, _⟩ => show win0_2.index t 0 * 1 + 1 * u.val = t.val / 32; rw [i0]; omega
    | ⟨1, _⟩ => show win0_2.index t 1 * 8 + 1 * d.val = d.val; rw [i1]; omega
    | ⟨2, _⟩ => show win0_2.index t 2 * 256 + 1 * f.val = f.val; rw [i2]; omega
  rw [hemb]
  have hinj : (cfg0.win 2).xinj (grid0.coords t) (ix3 u d f) = ix3 u d f := funext fun a => Fin.ext rfl
  show (outsAt0 V c t.val t.isLt).1 ((cfg0.win 2).xinj (grid0.coords t) (ix3 u d f)) = _
  rw [hinj, inv2 V c u d f t.val t.isLt, part_last _ _ h31]

/-- The two cores' last points' blocks cover the array. -/
theorem cover2 (i : S2x8x256.Idx) :
    ∃ t : Fin cfg0.N, (cfg0.win 2).flush t = true ∧ i ∈ ((cfg0.win 2).blk t).view.set := by
  have h0 : (i 0 : ℕ) < 2 := (i 0).isLt
  have h1 : (i 1 : ℕ) < 8 := (i 1).isLt
  have h2 : (i 2 : ℕ) < 256 := (i 2).isLt
  have ht : 32 * (i 0 : ℕ) + 31 < cfg0.N := by rw [show cfg0.N = 64 from N_0]; omega
  refine ⟨⟨32 * (i 0 : ℕ) + 31, ht⟩, (flush0_2 _).mpr (by dsimp only; omega), ?_⟩
  obtain ⟨i0, i1, i2⟩ := idxw2 ⟨32 * (i 0 : ℕ) + 31, ht⟩
  show i ∈ ((View.whole main_v1_0).slice (win0_2.rect ⟨32 * (i 0 : ℕ) + 31, ht⟩)).set
  rw [View.set_slice_whole, Rect.mem_set_unit]
  intro a
  match a with
  | ⟨0, _⟩ =>
    show win0_2.index ⟨32 * (i 0 : ℕ) + 31, ht⟩ 0 * 1 ≤ (i 0 : ℕ) ∧ (i 0 : ℕ) < win0_2.index ⟨32 * (i 0 : ℕ) + 31, ht⟩ 0 * 1 + 1
    rw [i0]; dsimp only; omega
  | ⟨1, _⟩ =>
    show win0_2.index ⟨32 * (i 0 : ℕ) + 31, ht⟩ 1 * 8 ≤ (i 1 : ℕ) ∧ (i 1 : ℕ) < win0_2.index ⟨32 * (i 0 : ℕ) + 31, ht⟩ 1 * 8 + 8
    rw [i1]; omega
  | ⟨2, _⟩ =>
    show win0_2.index ⟨32 * (i 0 : ℕ) + 31, ht⟩ 2 * 256 ≤ (i 2 : ℕ) ∧ (i 2 : ℕ) < win0_2.index ⟨32 * (i 0 : ℕ) + 31, ht⟩ 2 * 256 + 256
    rw [i2]; omega

/-- So the counts array ends holding the whole. -/
theorem final2 (c : Dev nD) : (dat0 V c).arrAt 2 cfg0.N = G2 V c :=
  (dat0 V c).arrAt_eq_of_cover 2 (G2 V c) (flushed_eq2 V c) cover2

/-- What the sums array ends holding: per half, the sum of the half's 131072 rows' terms. -/
abbrev G3 (c : Dev nD) : Vec Ideal S2x8x256 .f32 :=
  fun i => ∑ j ∈ Finset.range 131072, g3 V c (i 1).val (i 2).val (131072 * (i 0).val + j)

theorem idxw3 : ∀ t : Fin cfg0.N, win0_3.index t 0 = t.val / 32 ∧ win0_3.index t 1 = 0 ∧ win0_3.index t 2 = 0 :=
  (by decide +kernel : ∀ t : Fin grid0.N, win0_3.index t 0 = t.val / 32 ∧ win0_3.index t 1 = 0 ∧ win0_3.index t 2 = 0)

/-- What a core's last point writes back is its half's block of the whole. -/
theorem flushed_eq3 (c : Dev nD) (hx : ∀ i, ∃ r : ℝ, xarr V c i = (r : EReal)) (t : Fin cfg0.N) (hf : (cfg0.win 3).flush t = true) :
    (dat0 V c).flushed 3 t = ((cfg0.win 3).blk t).view.read (Elt Ideal) (G3 V c) := by
  have h31 : t.val % 32 = 31 := (flush0_3 t).mp hf
  have hN : t.val < 64 := lt_of_lt_of_eq t.isLt (show cfg0.N = 64 from N_0)
  have hk : t.val / 32 < 2 := by omega
  obtain ⟨i0, i1, i2⟩ := idxw3 t
  show (cfg0.win 3).cut (grid0.coords t) ((dat0 V c).after 3 t) = _
  rw [after0_3]
  funext j
  obtain ⟨u, d, f, rfl⟩ : ∃ (u : Fin 1) (d : Fin 8) (f : Fin 256), j = ix3 u d f := ⟨j 0, j 1, j 2, eq_ix3 j⟩
  have hread : ∀ Gf : Vec Ideal S2x8x256 .f32,
      ((cfg0.win 3).blk t).view.read (Elt Ideal) Gf (ix3 u d f) = Gf (((cfg0.win 3).blk t).view.emb (ix3 u d f)) :=
    fun _ => rfl
  rw [hread]
  have hemb : ((cfg0.win 3).blk t).view.emb (ix3 u d f) = ix3 (⟨t.val / 32, hk⟩ : Fin 2) d f := by
    funext a; apply Fin.ext
    have hu := u.isLt
    match a with
    | ⟨0, _⟩ => show win0_3.index t 0 * 1 + 1 * u.val = t.val / 32; rw [i0]; omega
    | ⟨1, _⟩ => show win0_3.index t 1 * 8 + 1 * d.val = d.val; rw [i1]; omega
    | ⟨2, _⟩ => show win0_3.index t 2 * 256 + 1 * f.val = f.val; rw [i2]; omega
  rw [hemb]
  have hinj : (cfg0.win 3).xinj (grid0.coords t) (ix3 u d f) = ix3 u d f := funext fun a => Fin.ext rfl
  show (outsAt0 V c t.val t.isLt).2.1 ((cfg0.win 3).xinj (grid0.coords t) (ix3 u d f)) = _
  rw [hinj, inv3 V c hx u d f t.val t.isLt, part_last _ _ h31]

/-- The two cores' last points' blocks cover the array. -/
theorem cover3 (i : S2x8x256.Idx) :
    ∃ t : Fin cfg0.N, (cfg0.win 3).flush t = true ∧ i ∈ ((cfg0.win 3).blk t).view.set := by
  have h0 : (i 0 : ℕ) < 2 := (i 0).isLt
  have h1 : (i 1 : ℕ) < 8 := (i 1).isLt
  have h2 : (i 2 : ℕ) < 256 := (i 2).isLt
  have ht : 32 * (i 0 : ℕ) + 31 < cfg0.N := by rw [show cfg0.N = 64 from N_0]; omega
  refine ⟨⟨32 * (i 0 : ℕ) + 31, ht⟩, (flush0_3 _).mpr (by dsimp only; omega), ?_⟩
  obtain ⟨i0, i1, i2⟩ := idxw3 ⟨32 * (i 0 : ℕ) + 31, ht⟩
  show i ∈ ((View.whole main_v1_1).slice (win0_3.rect ⟨32 * (i 0 : ℕ) + 31, ht⟩)).set
  rw [View.set_slice_whole, Rect.mem_set_unit]
  intro a
  match a with
  | ⟨0, _⟩ =>
    show win0_3.index ⟨32 * (i 0 : ℕ) + 31, ht⟩ 0 * 1 ≤ (i 0 : ℕ) ∧ (i 0 : ℕ) < win0_3.index ⟨32 * (i 0 : ℕ) + 31, ht⟩ 0 * 1 + 1
    rw [i0]; dsimp only; omega
  | ⟨1, _⟩ =>
    show win0_3.index ⟨32 * (i 0 : ℕ) + 31, ht⟩ 1 * 8 ≤ (i 1 : ℕ) ∧ (i 1 : ℕ) < win0_3.index ⟨32 * (i 0 : ℕ) + 31, ht⟩ 1 * 8 + 8
    rw [i1]; omega
  | ⟨2, _⟩ =>
    show win0_3.index ⟨32 * (i 0 : ℕ) + 31, ht⟩ 2 * 256 ≤ (i 2 : ℕ) ∧ (i 2 : ℕ) < win0_3.index ⟨32 * (i 0 : ℕ) + 31, ht⟩ 2 * 256 + 256
    rw [i2]; omega

/-- So the sums array ends holding the whole. -/
theorem final3 (c : Dev nD) (hx : ∀ i, ∃ r : ℝ, xarr V c i = (r : EReal)) : (dat0 V c).arrAt 3 cfg0.N = G3 V c :=
  (dat0 V c).arrAt_eq_of_cover 3 (G3 V c) (flushed_eq3 V c hx) cover3

/-- What the squares array ends holding: per half, the sum of the half's 131072 rows' terms. -/
abbrev G4 (c : Dev nD) : Vec Ideal S2x8x256 .f32 :=
  fun i => ∑ j ∈ Finset.range 131072, g4 V c (i 1).val (i 2).val (131072 * (i 0).val + j)

theorem idxw4 : ∀ t : Fin cfg0.N, win0_4.index t 0 = t.val / 32 ∧ win0_4.index t 1 = 0 ∧ win0_4.index t 2 = 0 :=
  (by decide +kernel : ∀ t : Fin grid0.N, win0_4.index t 0 = t.val / 32 ∧ win0_4.index t 1 = 0 ∧ win0_4.index t 2 = 0)

/-- What a core's last point writes back is its half's block of the whole. -/
theorem flushed_eq4 (c : Dev nD) (hx : ∀ i, ∃ r : ℝ, xarr V c i = (r : EReal)) (t : Fin cfg0.N) (hf : (cfg0.win 4).flush t = true) :
    (dat0 V c).flushed 4 t = ((cfg0.win 4).blk t).view.read (Elt Ideal) (G4 V c) := by
  have h31 : t.val % 32 = 31 := (flush0_4 t).mp hf
  have hN : t.val < 64 := lt_of_lt_of_eq t.isLt (show cfg0.N = 64 from N_0)
  have hk : t.val / 32 < 2 := by omega
  obtain ⟨i0, i1, i2⟩ := idxw4 t
  show (cfg0.win 4).cut (grid0.coords t) ((dat0 V c).after 4 t) = _
  rw [after0_4]
  funext j
  obtain ⟨u, d, f, rfl⟩ : ∃ (u : Fin 1) (d : Fin 8) (f : Fin 256), j = ix3 u d f := ⟨j 0, j 1, j 2, eq_ix3 j⟩
  have hread : ∀ Gf : Vec Ideal S2x8x256 .f32,
      ((cfg0.win 4).blk t).view.read (Elt Ideal) Gf (ix3 u d f) = Gf (((cfg0.win 4).blk t).view.emb (ix3 u d f)) :=
    fun _ => rfl
  rw [hread]
  have hemb : ((cfg0.win 4).blk t).view.emb (ix3 u d f) = ix3 (⟨t.val / 32, hk⟩ : Fin 2) d f := by
    funext a; apply Fin.ext
    have hu := u.isLt
    match a with
    | ⟨0, _⟩ => show win0_4.index t 0 * 1 + 1 * u.val = t.val / 32; rw [i0]; omega
    | ⟨1, _⟩ => show win0_4.index t 1 * 8 + 1 * d.val = d.val; rw [i1]; omega
    | ⟨2, _⟩ => show win0_4.index t 2 * 256 + 1 * f.val = f.val; rw [i2]; omega
  rw [hemb]
  have hinj : (cfg0.win 4).xinj (grid0.coords t) (ix3 u d f) = ix3 u d f := funext fun a => Fin.ext rfl
  show (outsAt0 V c t.val t.isLt).2.2 ((cfg0.win 4).xinj (grid0.coords t) (ix3 u d f)) = _
  rw [hinj, inv4 V c hx u d f t.val t.isLt, part_last _ _ h31]

/-- The two cores' last points' blocks cover the array. -/
theorem cover4 (i : S2x8x256.Idx) :
    ∃ t : Fin cfg0.N, (cfg0.win 4).flush t = true ∧ i ∈ ((cfg0.win 4).blk t).view.set := by
  have h0 : (i 0 : ℕ) < 2 := (i 0).isLt
  have h1 : (i 1 : ℕ) < 8 := (i 1).isLt
  have h2 : (i 2 : ℕ) < 256 := (i 2).isLt
  have ht : 32 * (i 0 : ℕ) + 31 < cfg0.N := by rw [show cfg0.N = 64 from N_0]; omega
  refine ⟨⟨32 * (i 0 : ℕ) + 31, ht⟩, (flush0_4 _).mpr (by dsimp only; omega), ?_⟩
  obtain ⟨i0, i1, i2⟩ := idxw4 ⟨32 * (i 0 : ℕ) + 31, ht⟩
  show i ∈ ((View.whole main_v1_2).slice (win0_4.rect ⟨32 * (i 0 : ℕ) + 31, ht⟩)).set
  rw [View.set_slice_whole, Rect.mem_set_unit]
  intro a
  match a with
  | ⟨0, _⟩ =>
    show win0_4.index ⟨32 * (i 0 : ℕ) + 31, ht⟩ 0 * 1 ≤ (i 0 : ℕ) ∧ (i 0 : ℕ) < win0_4.index ⟨32 * (i 0 : ℕ) + 31, ht⟩ 0 * 1 + 1
    rw [i0]; dsimp only; omega
  | ⟨1, _⟩ =>
    show win0_4.index ⟨32 * (i 0 : ℕ) + 31, ht⟩ 1 * 8 ≤ (i 1 : ℕ) ∧ (i 1 : ℕ) < win0_4.index ⟨32 * (i 0 : ℕ) + 31, ht⟩ 1 * 8 + 8
    rw [i1]; omega
  | ⟨2, _⟩ =>
    show win0_4.index ⟨32 * (i 0 : ℕ) + 31, ht⟩ 2 * 256 ≤ (i 2 : ℕ) ∧ (i 2 : ℕ) < win0_4.index ⟨32 * (i 0 : ℕ) + 31, ht⟩ 2 * 256 + 256
    rw [i2]; omega

/-- So the squares array ends holding the whole. -/
theorem final4 (c : Dev nD) (hx : ∀ i, ∃ r : ℝ, xarr V c i = (r : EReal)) : (dat0 V c).arrAt 4 cfg0.N = G4 V c :=
  (dat0 V c).arrAt_eq_of_cover 4 (G4 V c) (flushed_eq4 V c hx) cover4

/-! ## The three result arrays -/

/-- Half `k`'s count of domain `d`, in every column `f`. -/
theorem counts_final (c : Dev nD) (k : Fin 2) (d : Fin 8) (f : Fin 256) :
    ((dat0 V c).arrAt 2 cfg0.N : Vec Ideal S2x8x256 .f32) (ix3 k d f)
      = Spec.cntH (fun n => yarr V c (ix2 n 0)) k d := by
  rw [final2 V c]
  show ∑ j ∈ Finset.range 131072, g2 V c d.val f.val (131072 * k.val + j) = _
  unfold Spec.cntH
  rw [← Fin.sum_univ_eq_sum_range (fun j => g2 V c d.val f.val (131072 * k.val + j)) 131072]
  refine Finset.sum_congr rfl fun j _ => ?_
  have hk := k.isLt
  have hj := j.isLt
  unfold g2 Yn; rw [dif_pos (by omega)]; rfl

/-- Half `k`'s sum of feature `f` over domain `d` (finite entries). -/
theorem sum1_final (c : Dev nD) (hx : ∀ i, ∃ r : ℝ, xarr V c i = (r : EReal)) (k : Fin 2) (d : Fin 8) (f : Fin 256) :
    ((dat0 V c).arrAt 3 cfg0.N : Vec Ideal S2x8x256 .f32) (ix3 k d f)
      = Spec.sum1H (fun n f => xarr V c (ix2 n f)) (fun n => yarr V c (ix2 n 0)) k d f := by
  rw [final3 V c hx]
  show ∑ j ∈ Finset.range 131072, g3 V c d.val f.val (131072 * k.val + j) = _
  unfold Spec.sum1H
  rw [← Fin.sum_univ_eq_sum_range (fun j => g3 V c d.val f.val (131072 * k.val + j)) 131072]
  refine Finset.sum_congr rfl fun j _ => ?_
  have hk := k.isLt
  have hj := j.isLt
  have hf := f.isLt
  unfold g3 Yn Xn; rw [dif_pos (by omega), dif_pos ⟨by omega, hf⟩]; rfl

/-- Half `k`'s sum of the squares. -/
theorem sum2_final (c : Dev nD) (hx : ∀ i, ∃ r : ℝ, xarr V c i = (r : EReal)) (k : Fin 2) (d : Fin 8) (f : Fin 256) :
    ((dat0 V c).arrAt 4 cfg0.N : Vec Ideal S2x8x256 .f32) (ix3 k d f)
      = Spec.sum2H (fun n f => xarr V c (ix2 n f)) (fun n => yarr V c (ix2 n 0)) k d f := by
  rw [final4 V c hx]
  show ∑ j ∈ Finset.range 131072, g4 V c d.val f.val (131072 * k.val + j) = _
  unfold Spec.sum2H
  rw [← Fin.sum_univ_eq_sum_range (fun j => g4 V c d.val f.val (131072 * k.val + j)) 131072]
  refine Finset.sum_congr rfl fun j _ => ?_
  have hk := k.isLt
  have hj := j.isLt
  have hf := f.isLt
  unfold g4 Yn Xn; rw [dif_pos (by omega), dif_pos ⟨by omega, hf⟩]; rfl

end Cert.Stats0

end
-- ==== Proof.LibDot.lean ====
/-
  A plain matrix product read at an index, at the ideal values.

  For dimension numbers that contract the left operand's axis 1 with the right operand's axis 0 and keep the
  left's axis 0 and the right's axis 1, with no batch axis — an `M × K` by `K × N` product —, the result at
  `(a, b)` is `∑ k, l (a, k) · r (k, b)` over `k : Fin K`: for the kernel's matrix unit accumulating into a
  zero vector and for the host's `dot_general` alike. The library states both as a sum over the contraction
  shape's indices at the operand indices `lhsIdx` / `rhsIdx`; here those are read off, coordinate by
  coordinate, and the sum is re-indexed by the contraction shape's one coordinate.
-/
import Idealize.ShloMosaic.PureOps.Ideal.Laws
import Idealize.ShloMosaic.Lib.ValueIdx

noncomputable section

namespace Cert.LibDot

open Idealize.ShloMosaic Idealize.ShloMosaic.ValueIdx

variable {M K N : Nat} (D : DotDims ⟨2, ![M, K]⟩ ⟨2, ![K, N]⟩ ⟨2, ![M, N]⟩)

/-- The left operand's row is the result's row. -/
theorem lhs_row (hlb : D.lhsBatch = []) (hln : D.lhsNonContracting = [0]) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column is the contraction coordinate. -/
theorem lhs_col (hlc : D.lhsContracting = [1]) (j : (⟨2, ![M, N]⟩ : Shape).Idx) (k : D.contr.Idx) :
    (D.lhsIdx j k 1).val = (k ⟨0, by rw [D.rank_contr, hlc]; exact Nat.one_pos⟩).val :=
  D.lhsIdx_val_of_single hlc j k

/-- The right operand's row is the contraction coordinate. -/
theorem rhs_row (hrc : D.rhsContracting = [0]) (j : (⟨2, ![M, N]⟩ : Shape).Idx) (k : D.contr.Idx) :
    (D.rhsIdx j k 0).val = (k ⟨0, by rw [D.rank_contr, ← D.length_contracting, hrc]; exact Nat.one_pos⟩).val :=
  D.rhsIdx_val_of_single hrc j k

/-- The right operand's column is the result's column. -/
theorem rhs_col (hlb : D.lhsBatch = []) (hrb : D.rhsBatch = []) (hln : D.lhsNonContracting = [0]) (hrn : D.rhsNonContracting = [1])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The contraction shape has one axis, of extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

/-- The library's sum over the contraction indices, as the sum over `Fin K` of the products along row `a` of the left
    operand and column `b` of the right. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have e1 : D.lhsIdx (ix2 a b) ((contrEquiv1 D K (contr_rank D hlc) (contr_size D hlc)).symm k) = ix2 a k := by
    funext x; refine Fin.ext ?_
    match x with
    | ⟨0, _⟩ => exact lhs_row D hlb hln _ _
    | ⟨1, _⟩ => exact (lhs_col D hlc _ _).trans hk
  have e2 : D.rhsIdx (ix2 a b) ((contrEquiv1 D K (contr_rank D hlc) (contr_size D hlc)).symm k) = ix2 k b := by
    funext x; refine Fin.ext ?_
    match x with
    | ⟨0, _⟩ => exact (rhs_row D hrc _ _).trans hk
    | ⟨1, _⟩ => exact rhs_col D hlb hrb hln hrn _ _
  rw [e1, e2]

/-- The kernel's matrix product into a zero accumulator, read at `(a, b)`. -/
theorem matmul_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  show FloatOps.matmul D prec l r (constant ⟨2, ![M, N]⟩ .f32 0x00000000#32) (ix2 a b) = _
  rw [Ideal.matmul_constant_zero_apply]
  exact sum_plain D hlc hrc hln hrn hlb hrb l r a b

/-- The host's product read at `(a, b)`. -/
theorem dotGeneral_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    Host.dotGeneral D prec l r (ix2 a b) = ∑ k : Fin K, l (ix2 a k) * r (ix2 k b) := by
  show FloatOps.dotGeneral D prec .single l r (ix2 a b) = _
  rw [Ideal.dotGeneral_apply]
  exact sum_plain D hlc hrc hln hrn hlb hrb l r a b

end Cert.LibDot

end
-- ==== Proof.LibOneHot.lean ====
/-
  A table lookup written as a product with a one-hot row.

  Row `w` of a table with `n` rows, for a 32-bit word `w` below `n`, is the sum over all rows `q` of the row times
  the indicator `[q = w]`, the indicator being the comparison bit widened to 32 bits and converted to a float
  (`1` or `0` exactly). On the extended reals `0 · x = 0` and `1 · x = x` whatever `x` is, so nothing is asked of
  the table's entries.
-/
import Idealize.ShloMosaic.PureOps.Ideal
import Mathlib.Algebra.BigOperators.Fin

noncomputable section

namespace Cert.LibOneHot

open Idealize.ShloMosaic

/-- The indicator bit as a float: one where the words agree. -/
theorem indicator_eq (x w : BitVec 32) (h : x = w) :
    FloatOps.sitofp (F := Ideal) .f32 ((IntOp.cmpi .eq x w).setWidth 32) = 1 := by
  subst h
  show (((((IntOp.cmpi .eq x x).setWidth 32).toInt : ℝ)) : EReal) = 1
  have : (IntOp.cmpi .eq x x).setWidth 32 = 1#32 := by
    unfold IntOp.cmpi; simp
  rw [this]; norm_num

/-- … and zero where they differ. -/
theorem indicator_ne (x w : BitVec 32) (h : x ≠ w) :
    FloatOps.sitofp (F := Ideal) .f32 ((IntOp.cmpi .eq x w).setWidth 32) = 0 := by
  show (((((IntOp.cmpi .eq x w).setWidth 32).toInt : ℝ)) : EReal) = 0
  have hb : (x == w) = false := by simpa using h
  have : (IntOp.cmpi .eq x w).setWidth 32 = 0#32 := by
    unfold IntOp.cmpi; rw [hb]; rfl
  rw [this]; norm_num

/-- The product with the one-hot row picks the row. -/
theorem sum_onehot {n : Nat} (hn : n ≤ 2 ^ 32) (w : BitVec 32) (hw : w.toNat < n) (g : Fin n → EReal) :
    ∑ q : Fin n, FloatOps.sitofp (F := Ideal) .f32 ((IntOp.cmpi .eq (BitVec.ofNat 32 q.val) w).setWidth 32) * g q
      = g ⟨w.toNat, hw⟩ := by
  rw [Finset.sum_eq_single (⟨w.toNat, hw⟩ : Fin n)]
  · rw [indicator_eq _ _ (by simp), one_mul]
  · intro q _ hq
    rw [indicator_ne _ _ ?_, zero_mul]
    intro h
    apply hq
    apply Fin.ext
    have := congrArg BitVec.toNat h
    simp only [BitVec.toNat_ofNat] at this
    rw [Nat.mod_eq_of_lt (lt_of_lt_of_le q.isLt hn)] at this
    exact this
  · intro h; exact absurd (Finset.mem_univ _) h

end Cert.LibOneHot

end
-- ==== Proof.LibColumn.lean ====
/-
  Two layout readings for a vector used as a COLUMN: a length-`a` vector cast to shape `[a, 1]`, and an `[a, 1]`
  column broadcast along a second axis to `[a, b]`. Both read, at `(i, ·)`, the vector's entry `i`: the cast
  because row-major position `i · 1 + 0` is `i`, the broadcast because the unit axis is pinned at `0` and the
  long axis is carried over.
-/
import Idealize.ShloMosaic.Lib.Pipeline.Value
import Idealize.ShloMosaic.Lib.ValueIdx
import Idealize.ShloMosaic.Lib.ValueLayout

noncomputable section

namespace Cert.LibColumn

open Idealize.ShloMosaic Idealize.ShloMosaic.ValueIdx

variable {α : Type}

/-- A length-`a` vector cast to `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Together: a vector laid along the rows of an `[a, b]` array reads, at `(p, c)`, the vector at `p`. -/
theorem column_of_vector_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Cert.LibColumn

end
-- ==== Proof.Norm1.lean ====
/-
  The normalisation pass: what its result array holds when it ends.

  The pass reads a block of 4096 rows at each of its 64 points: the rows' features, their labels, and four whole
  tables of 128 rows. It forms the rows' one-hot matrix against the 128 table rows, multiplies it into each table
  (so a row picks its label's table row), and returns feature times the sum of the two multiplier rows plus the sum
  of the two offset rows. Below: that value at an index of a block; then the blocks put side by side as the
  whole result array; then the one-hot sums read as table rows where the label is below 128.
-/
import proofs.«404433_j4690104287826_3_alg».proof.Proof.Gen.KernelIdeal.Frame
import proofs.«404433_j4690104287826_3_alg».proof.Proof.Spec
import proofs.«404433_j4690104287826_3_alg».proof.Proof.LibDot
import proofs.«404433_j4690104287826_3_alg».proof.Proof.LibOneHot
import proofs.«404433_j4690104287826_3_alg».proof.Proof.LibColumn
import Idealize.ShloMosaic.PureOps.Ideal.Laws
import Idealize.ShloMosaic.Lib.Pipeline.Value
import Idealize.ShloMosaic.Lib.ValueIdx

set_option maxRecDepth 16384

noncomputable section

namespace Cert.Norm1

open Idealize.ShloMosaic Idealize.ShloMosaic.TcCoe Idealize.ShloMosaic.ValueIdx Idealize.SL.Sem
open Idealize.ShloMosaic.Pipeline (Dat)
open Cert.KernelIdeal Cert.KernelIdeal.Gen

/-! ## The payload at an index -/

/-- The one-hot entry: one where lane `q`'s word is the label `w`, zero elsewhere. -/
abbrev oh (w : BitVec 32) (q : ℕ) : EReal :=
  FloatOps.sitofp (F := Ideal) .f32 ((IntOp.cmpi .eq (BitVec.ofNat 32 q) w).setWidth 32)

/-- The one-hot row of the label `w` times column `f` of a table of 128 rows. -/
def pick (w : BitVec 32) (tb : Vec Ideal S128x256 .bf16) (f : Fin 256) : EReal :=
  ∑ q : Fin 128, oh w q.val * tb (ix2 q f)

/-- For a label below 128 that product is the table's entry in the label's row: the one-hot row has its one there. -/
theorem pick_lt (w : BitVec 32) (hw : w.toNat < 128) (tb : Vec Ideal S128x256 .bf16) (f : Fin 256) :
    pick w tb f = tb (ix2 ⟨w.toNat, hw⟩ f) :=
  Cert.LibOneHot.sum_onehot (by norm_num) w hw (fun q => tb (ix2 q f))

/-- The one-hot matrix of a block's labels, entry by entry: lane `q` of row `r` compares `q` with the row's label. -/
theorem onehot_apply (v1 : Vec Ideal S4096x1 .i32) (r : Fin 4096) (q : Fin 128) :
    (truncf .bf16 (sitofp .f32 (extui 32 (cmpi .eq (iota .tc S4096x128 32 [1] iota_S4096x128_d1_w32)
        (broadcastTo S4096x128 (shapeCast S4096x1 v1 shapeCasts_S4096x1_S4096x1) broadcasts_S4096x1_S4096x128)) natLt_1_32))
      bitsLt_bf16_f32 : FVec Ideal S4096x128 .bf16) (ix2 r q) = oh (v1 (ix2 r 0)) q.val := by
  rw [truncf_apply, sitofp_apply, extui_apply]
  show FloatOps.sitofp (F := Ideal) .f32 ((IntOp.cmpi .eq (iota .tc S4096x128 32 [1] iota_S4096x128_d1_w32 (ix2 r q))
    (broadcastTo S4096x128 (shapeCast S4096x1 v1 shapeCasts_S4096x1_S4096x1) broadcasts_S4096x1_S4096x128 (ix2 r q))).setWidth 32) = _
  rw [iota_single_apply, shapeCast_self, Cert.LibColumn.broadcastTo_a1_ab_apply]

/-- The one-hot matrix times a table, at `(r, f)`: the one-hot row of row `r`'s label times the table's column `f`. -/
theorem prod_apply (v1 : Vec Ideal S4096x1 .i32) (tb : Vec Ideal S128x256 .bf16) (r : Fin 4096) (f : Fin 256) :
    matmul dot_S4096x128_S128x256_S4096x256_1_0_0_1_n_n none
      (truncf .bf16 (sitofp .f32 (extui 32 (cmpi .eq (iota .tc S4096x128 32 [1] iota_S4096x128_d1_w32)
        (broadcastTo S4096x128 (shapeCast S4096x1 v1 shapeCasts_S4096x1_S4096x1) broadcasts_S4096x1_S4096x128)) natLt_1_32))
        bitsLt_bf16_f32 : FVec Ideal S4096x128 .bf16)
      (shapeCast S128x256 tb shapeCasts_S128x256_S128x256 : FVec Ideal S128x256 .bf16) (constant S4096x256 .f32 0x00000000#32) (ix2 r f)
      = pick (v1 (ix2 r 0)) tb f := by
  rw [shapeCast_self (s := S128x256) (α := Ideal .bf16) tb, Cert.LibDot.matmul_plain_apply _ rfl rfl rfl rfl rfl rfl]
  unfold pick
  exact Finset.sum_congr rfl fun q _ => by rw [onehot_apply]

/-- The payload at row `r`, feature `f` of a block: the feature times the sum of the two one-hot products with the
    multiplier tables, plus the sum of the two one-hot products with the offset tables. -/
theorem pay_apply (v0 : Vec Ideal S4096x256 .f32) (v1 : Vec Ideal S4096x1 .i32) (t2 t3 t4 t5 : Vec Ideal S128x256 .bf16)
    (r : Fin 4096) (f : Fin 256) :
    k1_pay1 v0 v1 t2 t3 t4 t5 (ix2 r f)
      = v0 (ix2 r f) * (pick (v1 (ix2 r 0)) t2 f + pick (v1 (ix2 r 0)) t3 f)
        + (pick (v1 (ix2 r 0)) t4 f + pick (v1 (ix2 r 0)) t5 f) := by
  unfold k1_pay1
  rw [addf_apply, mulf_apply, addf_apply, addf_apply, prod_apply, prod_apply, prod_apply, prod_apply]

/-! ## From the blocks to the whole array -/

variable (V : (c : Dev nD) → (b : Ref sig .tc) → Buf (Elt Ideal) ((c : Thread nD τ).loc b))

/-- The pass's six input arrays as the region finds them: features, labels (a column), and the two pairs of tables. -/
abbrev xarr (c : Dev nD) : Vec Ideal S262144x256 .f32 := V c main_arg0
abbrev yarr (c : Dev nD) : Vec Ideal S262144x1 .i32 := V c main_v0
abbrev ahi (c : Dev nD) : Vec Ideal S128x256 .bf16 := V c main_v29
abbrev alo (c : Dev nD) : Vec Ideal S128x256 .bf16 := V c main_v32
abbrev bhi (c : Dev nD) : Vec Ideal S128x256 .bf16 := V c main_v33
abbrev blo (c : Dev nD) : Vec Ideal S128x256 .bf16 := V c main_v36

/-- The blocks the pass reads at point `t`, each at its literal type. -/
abbrev xblk (c : Dev nD) (t : Fin cfg1.N) : Vec Ideal S4096x256 .f32 := iblk1 V c 0 t
abbrev yblk (c : Dev nD) (t : Fin cfg1.N) : Vec Ideal S4096x1 .i32 := iblk1 V c 1 t
abbrev ahiblk (c : Dev nD) (t : Fin cfg1.N) : Vec Ideal S128x256 .bf16 := iblk1 V c 2 t
abbrev aloblk (c : Dev nD) (t : Fin cfg1.N) : Vec Ideal S128x256 .bf16 := iblk1 V c 3 t
abbrev bhiblk (c : Dev nD) (t : Fin cfg1.N) : Vec Ideal S128x256 .bf16 := iblk1 V c 4 t
abbrev bloblk (c : Dev nD) (t : Fin cfg1.N) : Vec Ideal S128x256 .bf16 := iblk1 V c 5 t

theorem hz : (![0, 0] : Fin 2 → Nat) = fun _ => 0 := funext fun a => by fin_cases a <;> rfl

/-- What the result array ends holding, index by index, in the pass's own form: at `(n, f)` the feature times the sum
    of the two one-hot products of row `n`'s label with the multiplier tables' column `f`, plus the sum of the two with
    the offset tables'. No bound on the label is asked: a label of 128 or more has an all-zero one-hot row. -/
def G (c : Dev nD) : Vec Ideal S262144x256 .f32 := fun i =>
  xarr V c i * (pick (yarr V c (ix2 (i 0) 0)) (ahi V c) (i 1) + pick (yarr V c (ix2 (i 0) 0)) (alo V c) (i 1))
    + (pick (yarr V c (ix2 (i 0) 0)) (bhi V c) (i 1) + pick (yarr V c (ix2 (i 0) 0)) (blo V c) (i 1))

/-- The printed index maps, decided over the grid: the features', the labels' and the result's block index is the point
    on the row axis and zero on the other; each table's is zero on both. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-- An index of the result's block at point `t`, as an index of the result array. -/
abbrev emb6 (t : Fin cfg1.N) (j : S4096x256.Idx) : S262144x256.Idx := ((cfg1.win 6).blk t).view.emb j

/-- The features' block at an index is the array at that index's place in the result's block: both move by whole
    blocks of 4096 rows with the point. -/
theorem xblk_apply (c : Dev nD) (t : Fin cfg1.N) (j : S4096x256.Idx) :
    xblk V c t j = xarr V c (emb6 t j) := by
  obtain ⟨⟨e0, e0'⟩, -, -, -, -, -, ⟨e6, e6'⟩⟩ := idx_facts t
  show V c main_arg0 (((cfg1.win 0).blk t).view.emb j) = V c main_arg0 (((cfg1.win 6).blk t).view.emb j)
  refine congrArg _ (funext fun a => Fin.ext ?_)
  match a with
  | ⟨0, _⟩ => show win1_0.index t (0 : Fin 2) * 4096 + 1 * (j 0).val = win1_6.index t (0 : Fin 2) * 4096 + 1 * (j 0).val; omega
  | ⟨1, _⟩ => show win1_0.index t (1 : Fin 2) * 256 + 1 * (j 1).val = win1_6.index t (1 : Fin 2) * 256 + 1 * (j 1).val; omega

/-- The labels' block at `(r, 0)` is the column at the row where the result's block has its row `r`. -/
theorem yblk_apply (c : Dev nD) (t : Fin cfg1.N) (r : Fin 4096) (f : Fin 256) :
    yblk V c t (ix2 r 0) = yarr V c (ix2 (emb6 t (ix2 r f) 0) 0) := by
  obtain ⟨-, ⟨e1, e1'⟩, -, -, -, -, ⟨e6, e6'⟩⟩ := idx_facts t
  show V c main_v0 (((cfg1.win 1).blk t).view.emb (ix2 r 0)) = V c main_v0 (ix2 (emb6 t (ix2 r f) 0) 0)
  refine congrArg _ (funext fun a => Fin.ext ?_)
  match a with
  | ⟨0, _⟩ => show win1_1.index t (0 : Fin 2) * 4096 + 1 * r.val = win1_6.index t (0 : Fin 2) * 4096 + 1 * r.val; omega
  | ⟨1, _⟩ => show win1_1.index t (1 : Fin 2) * 1 + 1 * 0 = 0; omega

/-- The result's block keeps the column: it spans all 256 features. -/
theorem col_emb (t : Fin cfg1.N) (r : Fin 4096) (f : Fin 256) : emb6 t (ix2 r f) 1 = f := by
  obtain ⟨-, -, -, -, -, -, ⟨e6, e6'⟩⟩ := idx_facts t
  refine Fin.ext ?_
  show win1_6.index t (1 : Fin 2) * 256 + 1 * f.val = f.val
  omega

/-- A table's block is the whole table. -/
theorem ahiblk_eq (c : Dev nD) (t : Fin cfg1.N) : ahiblk V c t = ahi V c := by
  obtain ⟨-, -, ⟨e, e'⟩, -, -, -, -⟩ := idx_facts t
  funext x
  show V c main_v29 (((cfg1.win 2).blk t).view.emb x) = V c main_v29 x
  refine congrArg _ (funext fun a => Fin.ext ?_)
  match a with
  | ⟨0, _⟩ => show win1_2.index t (0 : Fin 2) * 128 + 1 * (x 0).val = (x 0).val; omega
  | ⟨1, _⟩ => show win1_2.index t (1 : Fin 2) * 256 + 1 * (x 1).val = (x 1).val; omega
theorem aloblk_eq (c : Dev nD) (t : Fin cfg1.N) : aloblk V c t = alo V c := by
  obtain ⟨-, -, -, ⟨e, e'⟩, -, -, -⟩ := idx_facts t
  funext x
  show V c main_v32 (((cfg1.win 3).blk t).view.emb x) = V c main_v32 x
  refine congrArg _ (funext fun a => Fin.ext ?_)
  match a with
  | ⟨0, _⟩ => show win1_3.index t (0 : Fin 2) * 128 + 1 * (x 0).val = (x 0).val; omega
  | ⟨1, _⟩ => show win1_3.index t (1 : Fin 2) * 256 + 1 * (x 1).val = (x 1).val; omega
theorem bhiblk_eq (c : Dev nD) (t : Fin cfg1.N) : bhiblk V c t = bhi V c := by
  obtain ⟨-, -, -, -, ⟨e, e'⟩, -, -⟩ := idx_facts t
  funext x
  show V c main_v33 (((cfg1.win 4).blk t).view.emb x) = V c main_v33 x
  refine congrArg _ (funext fun a => Fin.ext ?_)
  match a with
  | ⟨0, _⟩ => show win1_4.index t (0 : Fin 2) * 128 + 1 * (x 0).val = (x 0).val; omega
  | ⟨1, _⟩ => show win1_4.index t (1 : Fin 2) * 256 + 1 * (x 1).val = (x 1).val; omega
theorem bloblk_eq (c : Dev nD) (t : Fin cfg1.N) : bloblk V c t = blo V c := by
  obtain ⟨-, -, -, -, -, ⟨e, e'⟩, -⟩ := idx_facts t
  funext x
  show V c main_v36 (((cfg1.win 5).blk t).view.emb x) = V c main_v36 x
  refine congrArg _ (funext fun a => Fin.ext ?_)
  match a with
  | ⟨0, _⟩ => show win1_5.index t (0 : Fin 2) * 128 + 1 * (x 0).val = (x 0).val; omega
  | ⟨1, _⟩ => show win1_5.index t (1 : Fin 2) * 256 + 1 * (x 1).val = (x 1).val; omega

/-- The payload of point `t`'s blocks at `(r, f)` is `G` at that index's place in the array. -/
theorem point_eq (c : Dev nD) (t : Fin cfg1.N) (r : Fin 4096) (f : Fin 256) :
    k1_pay1 (xblk V c t) (yblk V c t) (ahiblk V c t) (aloblk V c t) (bhiblk V c t) (bloblk V c t) (ix2 r f)
      = G V c (emb6 t (ix2 r f)) := by
  rw [pay_apply]
  show xblk V c t (ix2 r f) * (pick (yblk V c t (ix2 r 0)) (ahiblk V c t) f + pick (yblk V c t (ix2 r 0)) (aloblk V c t) f)
      + (pick (yblk V c t (ix2 r 0)) (bhiblk V c t) f + pick (yblk V c t (ix2 r 0)) (bloblk V c t) f)
    = xarr V c (emb6 t (ix2 r f)) * (pick (yarr V c (ix2 (emb6 t (ix2 r f) 0) 0)) (ahi V c) (emb6 t (ix2 r f) 1)
        + pick (yarr V c (ix2 (emb6 t (ix2 r f) 0) 0)) (alo V c) (emb6 t (ix2 r f) 1))
      + (pick (yarr V c (ix2 (emb6 t (ix2 r f) 0) 0)) (bhi V c) (emb6 t (ix2 r f) 1)
        + pick (yarr V c (ix2 (emb6 t (ix2 r f) 0) 0)) (blo V c) (emb6 t (ix2 r f) 1))
  rw [xblk_apply, yblk_apply V c t r f, ahiblk_eq, aloblk_eq, bhiblk_eq, bloblk_eq, col_emb t r f]

/-- WHAT POINT `t` WRITES BACK is block `t` of `G`. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S4096x256) hz, View.ld_unit_zero (S := S4096x1) hz, View.ld_unit_zero (S := S128x256) hz]
  funext j
  obtain ⟨r, f, rfl⟩ : ∃ (r : Fin 4096) (f : Fin 256), j = ix2 r f := ⟨j 0, j 1, eq_ix2 (n0 := 4096) (n1 := 256) j⟩
  exact point_eq V c t r f

/-- An index of the array is in point `t`'s block iff each coordinate is in the block's range on its axis. -/
theorem mem_blk (t : Fin cfg1.N) (i : S262144x256.Idx) :
    i ∈ ((cfg1.win 6).blk t).view.set ↔ ∀ a : Fin 2, win1_6.index t a * S4096x256.size a ≤ (i a).val ∧ (i a).val < win1_6.index t a * S4096x256.size a + S4096x256.size a := by
  show i ∈ ((View.whole main_v37).slice (win1_6.rect t)).set ↔ _
  rw [View.set_slice_whole, Rect.mem_set_unit]
  exact Iff.rfl

/-- Every index of the array is in some point's block: row `n` in point `n / 4096`'s. -/
theorem cover (i : S262144x256.Idx) : ∃ t : Fin cfg1.N, (cfg1.win 6).flush t = true ∧ i ∈ ((cfg1.win 6).blk t).view.set := by
  have hi0 : (i 0).val < 262144 := (i 0).isLt
  have hi1 : (i 1).val < 256 := (i 1).isLt
  have hN : cfg1.N = 64 := N_1
  obtain ⟨-, -, -, -, -, -, ⟨e6, e6'⟩⟩ := idx_facts ⟨(i 0).val / 4096, by rw [hN]; omega⟩
  refine ⟨⟨(i 0).val / 4096, by rw [hN]; omega⟩, flush1_6 _, ?_⟩
  rw [mem_blk]
  intro a
  match a with
  | ⟨0, _⟩ =>
    show win1_6.index ⟨(i 0).val / 4096, _⟩ (0 : Fin 2) * 4096 ≤ (i 0).val ∧ (i 0).val < win1_6.index ⟨(i 0).val / 4096, _⟩ (0 : Fin 2) * 4096 + 4096
    rw [e6]; show (i 0).val / 4096 * 4096 ≤ (i 0).val ∧ (i 0).val < (i 0).val / 4096 * 4096 + 4096; omega
  | ⟨1, _⟩ =>
    show win1_6.index ⟨(i 0).val / 4096, _⟩ (1 : Fin 2) * 256 ≤ (i 1).val ∧ (i 1).val < win1_6.index ⟨(i 0).val / 4096, _⟩ (1 : Fin 2) * 256 + 256
    rw [e6']; omega

/-- THE ARRAY after the pass: `G` everywhere. -/
theorem final (c : Dev nD) : ((dat1 V c).arrAt 6 cfg1.N : Vec Ideal S262144x256 .f32) = G V c :=
  (dat1 V c).arrAt_eq_of_cover 6 (G V c) (fun t _ => flushed_eq V c t) cover

/-- Row `n` with a label `q < 128`: the entry times the sum of the two multiplier tables' row `q`, plus the sum of the
    two offset tables' row `q`. -/
theorem out_final (c : Dev nD) (n : Fin 262144) (f : Fin 256) (hy : (yarr V c (ix2 n 0)).toNat < 128) :
    ((dat1 V c).arrAt 6 cfg1.N : Vec Ideal S262144x256 .f32) (ix2 n f)
      = xarr V c (ix2 n f) * (ahi V c (ix2 ⟨(yarr V c (ix2 n 0)).toNat, hy⟩ f) + alo V c (ix2 ⟨(yarr V c (ix2 n 0)).toNat, hy⟩ f))
        + (bhi V c (ix2 ⟨(yarr V c (ix2 n 0)).toNat, hy⟩ f) + blo V c (ix2 ⟨(yarr V c (ix2 n 0)).toNat, hy⟩ f)) := by
  rw [final]
  show xarr V c (ix2 n f) * (pick (yarr V c (ix2 n 0)) (ahi V c) f + pick (yarr V c (ix2 n 0)) (alo V c) f)
    + (pick (yarr V c (ix2 n 0)) (bhi V c) f + pick (yarr V c (ix2 n 0)) (blo V c) f) = _
  rw [pick_lt _ hy, pick_lt _ hy, pick_lt _ hy, pick_lt _ hy]

end Cert.Norm1

end
-- ==== Proof.Mid.lean ====
/-
  Between the two passes: the host's arithmetic on the statistics, and what reaches the second pass.
-/
import proofs.«404433_j4690104287826_3_alg».proof.Proof.Gen.KernelIdeal.Frame
import proofs.«404433_j4690104287826_3_alg».proof.Proof.Spec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.StableHlo.Run
import Idealize.ShloMosaic.Lib.KernelVsHost

noncomputable section

namespace Cert.Mid

open Idealize.ShloMosaic Idealize.ShloMosaic.TcCoe Idealize.ShloMosaic.ValueIdx Idealize.SL.Sem
open Cert.KernelIdeal Cert.KernelIdeal.Gen

/-- A buffer that no operation of the named stretch writes holds after the stretch what it held before: the
    stretch's written references are listed and each is a different reference. -/
macro "keep_through " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

variable (m : (ℓ : Loc nD τ sig) → Buf (Elt Ideal) ℓ) (ρ : Dev nD → PrngReg)

/-- The launch arrays, typed. -/
abbrev xin (c : Dev nD) : Vec Ideal S262144x256 .f32 := m ((c : Thread nD τ).loc main_arg0)
abbrev yin (c : Dev nD) : Vec Ideal S262144 .i32 := m ((c : Thread nD τ).loc main_arg1)
abbrev gin (c : Dev nD) : Vec Ideal S8x256 .f32 := m ((c : Thread nD τ).loc main_arg2)
abbrev bin (c : Dev nD) : Vec Ideal S8x256 .f32 := m ((c : Thread nD τ).loc main_arg3)
/-- The first pass's three results, as the host finds them. -/
abbrev p0 (c : Dev nD) : Vec Ideal S2x8x256 .f32 := V2 m ρ c main_v1_0
abbrev p1 (c : Dev nD) : Vec Ideal S2x8x256 .f32 := V2 m ρ c main_v1_1
abbrev p2 (c : Dev nD) : Vec Ideal S2x8x256 .f32 := V2 m ρ c main_v1_2

/-- What the second pass finds: the four tables. -/
abbrev ahi (c : Dev nD) : Vec Ideal S128x256 .bf16 := V11 m ρ c main_v29
abbrev alo (c : Dev nD) : Vec Ideal S128x256 .bf16 := V11 m ρ c main_v32
abbrev bhi (c : Dev nD) : Vec Ideal S128x256 .bf16 := V11 m ρ c main_v33
abbrev blo (c : Dev nD) : Vec Ideal S128x256 .bf16 := V11 m ρ c main_v36

/-! ### What the host's stretches between the passes leave alone -/

/-- The nine stretches between the passes write none of the buffers below: each holds at the second pass's entry
    what it held at the first pass's exit. -/
theorem W11_eq_W2_arg0 (c : Dev nD) : W11 m ρ c (Proc.devRef .tc main_arg0) = W2 m ρ c (Proc.devRef .tc main_arg0) :=
  calc W11 m ρ c (Proc.devRef .tc main_arg0)
    _ = W10 m ρ c (Proc.devRef .tc main_arg0) := by keep_through hostOps1_8
    _ = W9 m ρ c (Proc.devRef .tc main_arg0) := by keep_through hostOps1_7
    _ = W8 m ρ c (Proc.devRef .tc main_arg0) := by keep_through hostOps1_6
    _ = W7 m ρ c (Proc.devRef .tc main_arg0) := by keep_through hostOps1_5
    _ = W6 m ρ c (Proc.devRef .tc main_arg0) := by keep_through hostOps1_4
    _ = W5 m ρ c (Proc.devRef .tc main_arg0) := by keep_through hostOps1_3
    _ = W4 m ρ c (Proc.devRef .tc main_arg0) := by keep_through hostOps1_2
    _ = W3 m ρ c (Proc.devRef .tc main_arg0) := by keep_through hostOps1_1
    _ = W2 m ρ c (Proc.devRef .tc main_arg0) := by keep_through hostOps1
theorem W11_eq_W2_v0 (c : Dev nD) : W11 m ρ c (Proc.devRef .tc main_v0) = W2 m ρ c (Proc.devRef .tc main_v0) :=
  calc W11 m ρ c (Proc.devRef .tc main_v0)
    _ = W10 m ρ c (Proc.devRef .tc main_v0) := by keep_through hostOps1_8
    _ = W9 m ρ c (Proc.devRef .tc main_v0) := by keep_through hostOps1_7
    _ = W8 m ρ c (Proc.devRef .tc main_v0) := by keep_through hostOps1_6
    _ = W7 m ρ c (Proc.devRef .tc main_v0) := by keep_through hostOps1_5
    _ = W6 m ρ c (Proc.devRef .tc main_v0) := by keep_through hostOps1_4
    _ = W5 m ρ c (Proc.devRef .tc main_v0) := by keep_through hostOps1_3
    _ = W4 m ρ c (Proc.devRef .tc main_v0) := by keep_through hostOps1_2
    _ = W3 m ρ c (Proc.devRef .tc main_v0) := by keep_through hostOps1_1
    _ = W2 m ρ c (Proc.devRef .tc main_v0) := by keep_through hostOps1

/-- The first pass reads the features and the label column through input windows: it leaves both as it found them. -/
theorem W2_eq_W1_arg0 (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))
theorem W2_eq_W1_v0 (c : Dev nD) : W2 m ρ c (Proc.devRef .tc main_v0) = W1 m ρ c (Proc.devRef .tc main_v0) :=
  (W2_arr m ρ c 1).trans (((dat0 (V1 m ρ) c).arrAt_in 1 rfl _).trans (A_eq0 (V1 m ρ) c 1))

/-- The reshape of the labels writes the column only. -/
theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by keep_through hostOps0
    _ = m ((c : Thread nD τ).loc main_arg0) := rfl

/-- The label column at the first pass's entry is the launch labels cast to a column: position `n · 1 + 0` of the
    column is position `n` of the labels. -/
theorem W1_v0 (c : Dev nD) : (W1 m ρ c (Proc.devRef .tc main_v0) : Vec Ideal S262144x1 .i32)
    = shapeCast S262144x1 (yin m c) shapeCasts_S262144_S262144x1 := by
  show StableHlo.after hostOps0 (W0 m ρ c) (Proc.devRef .tc main_v0) = _
  dsimp only [hostOps0]
  after_results
  rfl

/-- The first pass reads the launch features and the labels reshaped to a column. -/
theorem V1_x (c : Dev nD) : (V1 m ρ c main_arg0 : Vec Ideal S262144x256 .f32) = xin m c := W1_arg0 m ρ c
theorem V1_y (c : Dev nD) (n : Fin 262144) : (V1 m ρ c main_v0 : Vec Ideal S262144x1 .i32) (ix2 n 0) = yin m c (ix1 n) :=
  (congrFun (W1_v0 m ρ c) (ix2 n 0)).trans (shapeCast_apply _ _ _ _ (by
    rw [Shape.rowMajor_val_one, Shape.rowMajor_val_two]
    show n.val = n.val * 1 + 0
    omega))
/-- So does the second. -/
theorem V11_x (c : Dev nD) : (V11 m ρ c main_arg0 : Vec Ideal S262144x256 .f32) = xin m c :=
  (W11_eq_W2_arg0 m ρ c).trans ((W2_eq_W1_arg0 m ρ c).trans (W1_arg0 m ρ c))
theorem V11_y (c : Dev nD) (n : Fin 262144) : (V11 m ρ c main_v0 : Vec Ideal S262144x1 .i32) (ix2 n 0) = yin m c (ix1 n) :=
  (congrFun ((W11_eq_W2_v0 m ρ c).trans (W2_eq_W1_v0 m ρ c)) (ix2 n 0)).trans (V1_y m ρ c n)

/-- The scale and the offset reach the host's arithmetic as launched: the reshape writes the label column only, and the
    first pass has neither among its arrays. -/
theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := by keep_through hostOps0
    _ = m ((c : Thread nD τ).loc main_arg2) := rfl
theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by keep_through hostOps0
    _ = m ((c : Thread nD τ).loc main_arg3) := rfl

/-! ### Layout and reduction readings -/

/-- The sum over the two halves, read at a row and a column: the host's reduction over the leading axis from zero. -/
theorem reduce_apply (P : FVec Ideal S2x8x256 .f32) (q : Fin 8) (f : Fin 256) :
    Host.reduceAdd P (constant S_ .f32 0x00000000#32) reducesTo_S2x8x256_S8x256_d0 h_S_ (ix2 q f)
      = Spec.red2 fun k => P (ix3 k q f) := by
  have h : S2x8x256.Reduces [0] S8x256 := by decide
  show Ideal.hostReduceAdd reducesTo_S2x8x256_S8x256_d0 P (Ideal.ofBits .f32 0x00000000#32) (ix2 q f) = _
  rw [Ideal.hostReduceAdd_single reducesTo_S2x8x256_S8x256_d0 h, Ideal.ofBits_zero_f32, zero_add]
  show ∑ k : Fin 2, P (h.lift (ix2 q f) k) = _
  rw [Fin.sum_univ_two]
  have e : ∀ k : Fin 2, h.lift (ix2 q f) k = ix3 k q f := fun k => by
    funext d
    match d with
    | ⟨0, _⟩ => exact Fin.ext rfl
    | ⟨1, _⟩ => exact Fin.ext rfl
    | ⟨2, _⟩ => exact Fin.ext rfl
  rw [e, e]; rfl

/-- Column 0 of an eight-row array, as the slice of its first column reads it. -/
theorem col0_apply {α : Type} (x : S8x256.Idx → α) (q : Fin 8) :
    extractStridedSlice S8x1 ![0, 0] x slices_S8x256_S8x1_0_0 (ix2 q (0 : Fin 1)) = x (ix2 q (0 : Fin 256)) :=
  slice2_axis1_apply 0 x slices_S8x256_S8x1_0_0 q 0 0 rfl

/-- A column laid along the rows reads the column's row. -/
theorem bcol_apply {α : Type} (v : S8x1.Idx → α) (q : Fin 8) (f : Fin 256) :
    broadcastInDim S8x256 ![0, 1] bcast_S8x1_S8x256_0_1 v (ix2 q f) = v (ix2 q (0 : Fin 1)) :=
  broadcastInDim_apply _ _ v _ _ fun a => by
    match a with
    | ⟨0, _⟩ => rfl
    | ⟨1, _⟩ => rfl

/-- A scalar laid over an array reads the scalar. -/
theorem bscal_apply {T : Shape} {α : Type} (h : S_.BroadcastsInDim T ![]) (x : S_.Idx → α) (j : T.Idx) :
    broadcastInDim T ![] h x j = x ix0 := by
  unfold broadcastInDim; exact congrArg x (funext fun a => a.elim0)

/-- A row below eight of the eight rows padded to 128 is the row. -/
theorem pad_row_apply {α : Type} (x : S8x256.Idx → α) (v : S_.Idx → α) (q : Fin 8) (f : Fin 256) :
    pad S128x256 ![0, 0] ![120, 0] ![0, 0] x v pads_S8x256_S128x256_01200_000 h_S_ (ix2 (⟨q.val, by omega⟩ : Fin 128) f)
      = x (ix2 q f) :=
  pad_apply_of_inside _ _ _ x v _ _ _ (ix2 q f) fun a => by
    match a with
    | ⟨0, _⟩ => show q.val = 0 + q.val * (0 + 1); omega
    | ⟨1, _⟩ => show f.val = 0 + f.val * (0 + 1); omega

/-! ### The host's arithmetic between the passes, as terms of the three partial results, the scale and the offset -/

section HostTerms

variable (P0 P1 P2 : FVec Ideal S2x8x256 .f32) (G B : FVec Ideal S8x256 .f32)

/-- The sum of an array's two halves. -/
def hSum (P : FVec Ideal S2x8x256 .f32) : FVec Ideal S8x256 .f32 :=
  Host.reduceAdd P (constant S_ .f32 0x00000000#32) reducesTo_S2x8x256_S8x256_d0 h_S_
/-- The counts: column 0 of the summed count array. -/
def hCnt : FVec Ideal S8x1 .f32 := extractStridedSlice S8x1 ![0, 0] (hSum P0) slices_S8x256_S8x1_0_0
/-- The column of ones. -/
def hOne : FVec Ideal S8x1 .f32 := broadcastInDim S8x1 ![] bcast_S_S8x1 (constant S_ .f32 0x3F800000#32)
/-- The divisors, laid along the rows. -/
def hDen : FVec Ideal S8x256 .f32 := broadcastInDim S8x256 ![0, 1] bcast_S8x1_S8x256_0_1 (maximumf (hCnt P0) hOne)
/-- The means. -/
def hMean : FVec Ideal S8x256 .f32 := Host.divf (hSum P1) (hDen P0)
/-- The inverse standard deviations. -/
def hIstd : FVec Ideal S8x256 .f32 :=
  Host.rsqrt (addf (subf (Host.divf (hSum P2) (hDen P0)) (mulf (hMean P0 P1) (hMean P0 P1)))
    (broadcastInDim S8x256 ![] bcast_S_S8x256 (constant S_ .f32 0x3727C5AC#32)))
/-- Which domains have more than one row, laid along the rows. -/
def hGt : IVec S8x256 1 := broadcastInDim S8x256 ![0, 1] bcast_S8x1_S8x256_0_1 (cmpf .ogt (hCnt P0) hOne)
/-- The scaled inverse standard deviations. -/
def hScale : FVec Ideal S8x256 .f32 := mulf (hIstd P0 P1 P2) G
/-- The multiplier table's eight rows. -/
def hA : FVec Ideal S8x256 .f32 :=
  select (hGt P0) (hScale P0 P1 P2 G) (broadcastInDim S8x256 ![] bcast_S_S8x256 (constant S_ .f32 0x3F800000#32))
/-- The offset table's eight rows. -/
def hB : FVec Ideal S8x256 .f32 :=
  select (hGt P0) (subf B (mulf (hMean P0 P1) (hScale P0 P1 P2 G)))
    (broadcastInDim S8x256 ![] bcast_S_S8x256 (constant S_ .f32 0x00000000#32))
/-- Eight rows padded to 128 with the zero the host converts from an integer. -/
def hPad (T : FVec Ideal S8x256 .f32) : FVec Ideal S128x256 .f32 :=
  pad S128x256 ![0, 0] ![120, 0] ![0, 0] T (sitofp .f32 (constantI S_ 32 0#32)) pads_S8x256_S128x256_01200_000 h_S_
/-- A table's upper part: the table narrowed. -/
def hHi (T : FVec Ideal S128x256 .f32) : FVec Ideal S128x256 .bf16 := truncf .bf16 T bitsLt_bf16_f32
/-- A table's lower part: what narrowing left out, narrowed. -/
def hLo (T : FVec Ideal S128x256 .f32) : FVec Ideal S128x256 .bf16 :=
  truncf .bf16 (subf T (extf .f32 (truncf .bf16 T bitsLt_bf16_f32) bitsLt_bf16_f32)) bitsLt_bf16_f32

end HostTerms

/-- The nine stretches between the passes, run from given contents. -/
abbrev mid (Z : Valuation τ sig (Elt Ideal)) : Valuation τ sig (Elt Ideal) :=
  StableHlo.after hostOps1_8 (StableHlo.after hostOps1_7 (StableHlo.after hostOps1_6 (StableHlo.after hostOps1_5
    (StableHlo.after hostOps1_4 (StableHlo.after hostOps1_3 (StableHlo.after hostOps1_2 (StableHlo.after hostOps1_1
      (StableHlo.after hostOps1 Z))))))))

section Mid
variable (Z : Valuation τ sig (Elt Ideal))

/-- The four tables after the nine stretches, as the host's terms of the contents before them. -/
theorem mid_v29 : (mid Z (Proc.devRef .tc main_v29) : FVec Ideal S128x256 .bf16)
    = hHi (hPad (hA (Z (Proc.devRef .tc main_v1_0)) (Z (Proc.devRef .tc main_v1_1)) (Z (Proc.devRef .tc main_v1_2))
        (Z (Proc.devRef .tc main_arg2)))) := by
  dsimp only [mid, hostOps1, hostOps1_1, hostOps1_2, hostOps1_3, hostOps1_4, hostOps1_5, hostOps1_6, hostOps1_7, hostOps1_8]
  after_results_simp
  rfl
theorem mid_v32 : (mid Z (Proc.devRef .tc main_v32) : FVec Ideal S128x256 .bf16)
    = hLo (hPad (hA (Z (Proc.devRef .tc main_v1_0)) (Z (Proc.devRef .tc main_v1_1)) (Z (Proc.devRef .tc main_v1_2))
        (Z (Proc.devRef .tc main_arg2)))) := by
  dsimp only [mid, hostOps1, hostOps1_1, hostOps1_2, hostOps1_3, hostOps1_4, hostOps1_5, hostOps1_6, hostOps1_7, hostOps1_8]
  after_results_simp
  rfl
theorem mid_v33 : (mid Z (Proc.devRef .tc main_v33) : FVec Ideal S128x256 .bf16)
    = hHi (hPad (hB (Z (Proc.devRef .tc main_v1_0)) (Z (Proc.devRef .tc main_v1_1)) (Z (Proc.devRef .tc main_v1_2))
        (Z (Proc.devRef .tc main_arg2)) (Z (Proc.devRef .tc main_arg3)))) := by
  dsimp only [mid, hostOps1, hostOps1_1, hostOps1_2, hostOps1_3, hostOps1_4, hostOps1_5, hostOps1_6, hostOps1_7, hostOps1_8]
  after_results_simp
  rfl
theorem mid_v36 : (mid Z (Proc.devRef .tc main_v36) : FVec Ideal S128x256 .bf16)
    = hLo (hPad (hB (Z (Proc.devRef .tc main_v1_0)) (Z (Proc.devRef .tc main_v1_1)) (Z (Proc.devRef .tc main_v1_2))
        (Z (Proc.devRef .tc main_arg2)) (Z (Proc.devRef .tc main_arg3)))) := by
  dsimp only [mid, hostOps1, hostOps1_1, hostOps1_2, hostOps1_3, hostOps1_4, hostOps1_5, hostOps1_6, hostOps1_7, hostOps1_8]
  after_results_simp
  rfl

end Mid

/-! ### The host's terms read at a row and a column -/

/-- A selection on the one-bit word of a decided proposition is the conditional on it (whatever the two decision
    procedures). -/
theorem select_ofBool {α : Type} {p : Prop} (d₁ d₂ : Decidable p) (a b : α) :
    Scalar.select (BitVec.ofBool (@decide p d₁)) a b = @ite α p d₂ a b := by
  cases d₁ with
  | isTrue h => rw [@if_pos _ d₂ h]; exact select_one a b
  | isFalse h => rw [@if_neg _ d₂ h]; exact select_zero a b

section Read

variable (P0 P1 P2 : FVec Ideal S2x8x256 .f32) (G B : FVec Ideal S8x256 .f32) (q : Fin 8) (f : Fin 256)

theorem hSum_apply (P : FVec Ideal S2x8x256 .f32) : hSum P (ix2 q f) = Spec.red2 fun k => P (ix3 k q f) :=
  reduce_apply P q f

theorem hCnt_apply : hCnt P0 (ix2 q (0 : Fin 1)) = Spec.red2 fun k => P0 (ix3 k q 0) :=
  (col0_apply _ q).trans (hSum_apply q 0 P0)

theorem hDen_apply : hDen P0 (ix2 q f) = Spec.cntc (Spec.red2 fun k => P0 (ix3 k q 0)) := by
  unfold hDen
  rw [bcol_apply]
  show max (hCnt P0 (ix2 q (0 : Fin 1))) (Ideal.ofBits .f32 0x3F800000#32) = _
  rw [hCnt_apply]; rfl

theorem hMean_apply :
    hMean P0 P1 (ix2 q f) = Spec.meanS (Spec.red2 fun k => P0 (ix3 k q 0)) (Spec.red2 fun k => P1 (ix3 k q f)) := by
  show Ideal.div (hSum P1 (ix2 q f)) (hDen P0 (ix2 q f)) = _
  rw [hSum_apply, hDen_apply]; rfl

theorem hIstd_apply :
    hIstd P0 P1 P2 (ix2 q f) = Spec.istdS (Spec.red2 fun k => P0 (ix3 k q 0)) (Spec.red2 fun k => P1 (ix3 k q f))
      (Spec.red2 fun k => P2 (ix3 k q f)) := by
  show Ideal.rsqrt ((Ideal.div (hSum P2 (ix2 q f)) (hDen P0 (ix2 q f)) - hMean P0 P1 (ix2 q f) * hMean P0 P1 (ix2 q f))
    + Ideal.ofBits .f32 0x3727C5AC#32) = _
  rw [hSum_apply, hDen_apply, hMean_apply]; rfl

theorem hGt_apply :
    hGt P0 (ix2 q f) = BitVec.ofBool (decide (Spec.one < Spec.red2 fun k => P0 (ix3 k q 0))) := by
  unfold hGt
  rw [bcol_apply]
  show Ideal.cmp .ogt (hCnt P0 (ix2 q (0 : Fin 1))) (Ideal.ofBits .f32 0x3F800000#32) = _
  rw [hCnt_apply]; rfl

theorem hA_apply :
    hA P0 P1 P2 G (ix2 q f) = Spec.tabA (Spec.red2 fun k => P0 (ix3 k q 0)) (Spec.red2 fun k => P1 (ix3 k q f))
      (Spec.red2 fun k => P2 (ix3 k q f)) (G (ix2 q f)) := by
  show Scalar.select (hGt P0 (ix2 q f)) (hIstd P0 P1 P2 (ix2 q f) * G (ix2 q f)) (Ideal.ofBits .f32 0x3F800000#32) = _
  rw [hGt_apply, hIstd_apply]
  exact select_ofBool _ _ _ _

theorem hB_apply :
    hB P0 P1 P2 G B (ix2 q f) = Spec.tabB (Spec.red2 fun k => P0 (ix3 k q 0)) (Spec.red2 fun k => P1 (ix3 k q f))
      (Spec.red2 fun k => P2 (ix3 k q f)) (G (ix2 q f)) (B (ix2 q f)) := by
  show Scalar.select (hGt P0 (ix2 q f))
    (B (ix2 q f) - hMean P0 P1 (ix2 q f) * (hIstd P0 P1 P2 (ix2 q f) * G (ix2 q f))) (Ideal.ofBits .f32 0x00000000#32) = _
  rw [hGt_apply, hIstd_apply, hMean_apply, Ideal.ofBits_zero_f32]
  exact select_ofBool _ _ _ _

/-- A padded table's row below eight, narrowed: the table's row. -/
theorem hHi_hPad_apply (T : FVec Ideal S8x256 .f32) :
    hHi (hPad T) (ix2 (⟨q.val, by omega⟩ : Fin 128) f) = T (ix2 q f) :=
  pad_row_apply T _ q f

/-- The lower part is the upper part minus itself, entry by entry. -/
theorem hLo_apply (T : FVec Ideal S128x256 .f32) (j : S128x256.Idx) : hLo T j = hHi T j - hHi T j := rfl

end Read

/-- The multiplier table's row `q < 8`: `tabA` of the domain's count (column 0 of the count array), sums and scale. -/
theorem V11_ahi (c : Dev nD) (q : Fin 8) (f : Fin 256) :
    ahi m ρ c (ix2 ⟨q.val, by omega⟩ f)
      = Spec.tabA (Spec.red2 fun k => p0 m ρ c (ix3 k q 0)) (Spec.red2 fun k => p1 m ρ c (ix3 k q f))
          (Spec.red2 fun k => p2 m ρ c (ix3 k q f)) (gin m c (ix2 q f)) := by
  show (mid (W2 m ρ c) (Proc.devRef .tc main_v29) : FVec Ideal S128x256 .bf16) (ix2 (⟨q.val, by omega⟩ : Fin 128) f) = _
  rw [mid_v29, hHi_hPad_apply, hA_apply, W2_arg2]
/-- Its companion: the table minus itself. -/
theorem V11_alo (c : Dev nD) (q : Fin 8) (f : Fin 256) :
    alo m ρ c (ix2 ⟨q.val, by omega⟩ f)
      = ahi m ρ c (ix2 ⟨q.val, by omega⟩ f)
        - ahi m ρ c (ix2 ⟨q.val, by omega⟩ f) := by
  have eh : ahi m ρ c = _ := mid_v29 (W2 m ρ c)
  have el : alo m ρ c = _ := mid_v32 (W2 m ρ c)
  rw [el, eh]
  rfl
/-- The offset table's row `q < 8`. -/
theorem V11_bhi (c : Dev nD) (q : Fin 8) (f : Fin 256) :
    bhi m ρ c (ix2 ⟨q.val, by omega⟩ f)
      = Spec.tabB (Spec.red2 fun k => p0 m ρ c (ix3 k q 0)) (Spec.red2 fun k => p1 m ρ c (ix3 k q f))
          (Spec.red2 fun k => p2 m ρ c (ix3 k q f)) (gin m c (ix2 q f)) (bin m c (ix2 q f)) := by
  show (mid (W2 m ρ c) (Proc.devRef .tc main_v33) : FVec Ideal S128x256 .bf16) (ix2 (⟨q.val, by omega⟩ : Fin 128) f) = _
  rw [mid_v33, hHi_hPad_apply, hB_apply, W2_arg2, W2_arg3]
theorem V11_blo (c : Dev nD) (q : Fin 8) (f : Fin 256) :
    blo m ρ c (ix2 ⟨q.val, by omega⟩ f)
      = bhi m ρ c (ix2 ⟨q.val, by omega⟩ f)
        - bhi m ρ c (ix2 ⟨q.val, by omega⟩ f) := by
  have eh : bhi m ρ c = _ := mid_v33 (W2 m ρ c)
  have el : blo m ρ c = _ := mid_v36 (W2 m ρ c)
  rw [el, eh]
  rfl

end Cert.Mid

end
-- ==== Proof.Assemble.lean ====
/-
  The idealized kernel program's result array, row by row, is the reference's formula.

  The second pass leaves, at row `n` and feature `f`, the entry times the sum of the two multiplier tables' row `y n`
  plus the sum of the two offset tables' row `y n`. Each pair of tables is a table `T` and `T − T`; `T` is `tabA`
  (resp. `tabB`) of the domain's count and sums, which the host obtains by adding the two halves the first pass
  accumulated. With finite inputs every one of these numbers is real, the variance is not negative, and the
  multiply-add form is the reference's `(x − mean) · istd · γ + β` (or `x` for a domain with at most one row).
-/
import proofs.«404433_j4690104287826_3_alg».proof.Proof.Gen.KernelIdeal.Frame
import proofs.«404433_j4690104287826_3_alg».proof.Proof.Spec
import proofs.«404433_j4690104287826_3_alg».proof.Proof.MathSums
import proofs.«404433_j4690104287826_3_alg».proof.Proof.MathScalar
import proofs.«404433_j4690104287826_3_alg».proof.Proof.Stats0
import proofs.«404433_j4690104287826_3_alg».proof.Proof.Norm1
import proofs.«404433_j4690104287826_3_alg».proof.Proof.Mid
import Idealize.ShloMosaic.Lib.Pipeline.Value
import Idealize.ShloMosaic.Lib.ValueIdx

noncomputable section

/-! ## The idealized kernel program's result, row by row -/

namespace Cert.Assemble

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The launch features and labels as functions of a row (and a feature). -/
abbrev X (c : Dev nD) : Fin 262144 → Fin 256 → EReal := fun n f => Mid.xin m c (ix2 n f)
abbrev Y (c : Dev nD) : Fin 262144 → BitVec 32 := fun n => Mid.yin m c (ix1 n)

/-- The program's result array at the end of the run, typed. -/
abbrev outArr (c : Dev nD) : Vec Ideal S262144x256 .f32 := W12 m ρ c (Proc.devRef .tc main_v37)

/-- The first pass's count array holds each half's count of each domain. -/
theorem stats_cnt (c : Dev nD) (k : Fin 2) (d : Fin 8) (f : Fin 256) :
    Mid.p0 m ρ c (ix3 k d f) = Spec.cntH (Y m c) k d := by
  have h := Stats0.counts_final (V1 m ρ) c k d f
  have e : (fun n => Stats0.yarr (V1 m ρ) c (ix2 n 0)) = Y m c := funext fun n => Mid.V1_y m ρ c n
  rw [e] at h
  exact (congrFun (hF0 m ρ c 2).symm (ix3 k d f)).trans h

theorem stats_sum1 (c : Dev nD) (hx : ∀ i, ∃ r : ℝ, Mid.xin m c i = (r : EReal)) (k : Fin 2) (d : Fin 8) (f : Fin 256) :
    Mid.p1 m ρ c (ix3 k d f) = Spec.sum1H (X m c) (Y m c) k d f := by
  have ex : Stats0.xarr (V1 m ρ) c = Mid.xin m c := Mid.V1_x m ρ c
  have h := Stats0.sum1_final (V1 m ρ) c (fun i => by rw [ex]; exact hx i) k d f
  have e : (fun n => Stats0.yarr (V1 m ρ) c (ix2 n 0)) = Y m c := funext fun n => Mid.V1_y m ρ c n
  rw [e, ex] at h
  exact (congrFun (hF0 m ρ c 3).symm (ix3 k d f)).trans h

theorem stats_sum2 (c : Dev nD) (hx : ∀ i, ∃ r : ℝ, Mid.xin m c i = (r : EReal)) (k : Fin 2) (d : Fin 8) (f : Fin 256) :
    Mid.p2 m ρ c (ix3 k d f) = Spec.sum2H (X m c) (Y m c) k d f := by
  have ex : Stats0.xarr (V1 m ρ) c = Mid.xin m c := Mid.V1_x m ρ c
  have h := Stats0.sum2_final (V1 m ρ) c (fun i => by rw [ex]; exact hx i) k d f
  have e : (fun n => Stats0.yarr (V1 m ρ) c (ix2 n 0)) = Y m c := funext fun n => Mid.V1_y m ρ c n
  rw [e, ex] at h
  exact (congrFun (hF0 m ρ c 4).symm (ix3 k d f)).trans h

/-- With finite inputs and labels below 8, the result at row `n`, feature `f` is the reference's formula of the
    row's domain: the second pass multiplies and adds with the two table pairs' rows, the tables are `tabA`, `tabB` of the
    first pass's halves added, and the multiply-add form equals the reference form. -/
theorem kernel_value (c : Dev nD) (hx : ∀ i, ∃ r : ℝ, Mid.xin m c i = (r : EReal))
    (hg : ∀ i, ∃ r : ℝ, Mid.gin m c i = (r : EReal)) (hb : ∀ i, ∃ r : ℝ, Mid.bin m c i = (r : EReal))
    (hy : ∀ i, (Mid.yin m c i).toNat < 8) (n : Fin 262144) (f : Fin 256) :
    outArr m ρ c (ix2 n f)
      = Spec.refOut (Spec.cnt (Y m c) ⟨(Mid.yin m c (ix1 n)).toNat, hy _⟩)
          (Spec.sum1 (X m c) (Y m c) ⟨(Mid.yin m c (ix1 n)).toNat, hy _⟩ f)
          (Spec.sum2 (X m c) (Y m c) ⟨(Mid.yin m c (ix1 n)).toNat, hy _⟩ f)
          (Mid.gin m c (ix2 ⟨(Mid.yin m c (ix1 n)).toNat, hy _⟩ f)) (Mid.bin m c (ix2 ⟨(Mid.yin m c (ix1 n)).toNat, hy _⟩ f))
          (Mid.xin m c (ix2 n f)) := by
  generalize hd : (⟨(Mid.yin m c (ix1 n)).toNat, hy _⟩ : Fin 8) = d
  have hdv : (Mid.yin m c (ix1 n)).toNat = d.val := by rw [← hd]
  have hy1 : Norm1.yarr (V11 m ρ) c (ix2 n 0) = Mid.yin m c (ix1 n) := Mid.V11_y m ρ c n
  have hy128 : (Norm1.yarr (V11 m ρ) c (ix2 n 0)).toNat < 128 := by rw [hy1, hdv]; have := d.isLt; omega
  have h1 := Norm1.out_final (V11 m ρ) c n f hy128
  have hq : (⟨(Norm1.yarr (V11 m ρ) c (ix2 n 0)).toNat, hy128⟩ : Fin 128) = ⟨d.val, by have := d.isLt; omega⟩ :=
    Fin.ext ((congrArg BitVec.toNat hy1).trans hdv)
  rw [hq, show Norm1.xarr (V11 m ρ) c = Mid.xin m c from Mid.V11_x m ρ c,
    show Norm1.ahi (V11 m ρ) c = Mid.ahi m ρ c from rfl, show Norm1.alo (V11 m ρ) c = Mid.alo m ρ c from rfl,
    show Norm1.bhi (V11 m ρ) c = Mid.bhi m ρ c from rfl, show Norm1.blo (V11 m ρ) c = Mid.blo m ρ c from rfl] at h1
  refine (congrFun (W12_arr m ρ c 6) (ix2 n f)).trans (h1.trans ?_)
  rw [Mid.V11_alo m ρ c d f, Mid.V11_blo m ρ c d f, Mid.V11_ahi m ρ c d f, Mid.V11_bhi m ρ c d f]
  simp only [stats_cnt m ρ c, stats_sum1 m ρ c hx, stats_sum2 m ρ c hx]
  obtain ⟨cr, s1, s2, hc0, hv, hcnt, hs1, hs2, hcH, hs1H, hs2H⟩ :=
    MathSums.sums_real (X m c) (Y m c) (fun n f => hx (ix2 n f)) d f
  rw [hcH, hs1H, hs2H, hcnt, hs1, hs2]
  obtain ⟨gr, hgr⟩ := hg (ix2 d f)
  obtain ⟨br, hbr⟩ := hb (ix2 d f)
  obtain ⟨xr, hxr⟩ := hx (ix2 n f)
  rw [hgr, hbr, hxr]
  exact MathScalar.fma_eq cr s1 s2 gr br xr hc0 hv

end Cert.Assemble

end
-- ==== Proof.lean ====
/-
  Domain-indexed batch normalisation over 262144 rows of 256 features and 8 domains: a two-pass kernel against the
  jnp reference, equal over the extended reals under the precondition "every float input is finite and every label is
  one of 0 … 7".

  The kernel's first pass accumulates, per half of the rows and per domain, the count, the sum and the sum of squares of
  the rows of that domain (a product of the transposed one-hot label matrix with the tile, tile after tile); the host
  adds the halves and forms, per domain and feature, the pair `A = istd · γ`, `B = β − mean · istd · γ` (`1`, `0` for a
  domain of at most one row), each split into itself and a remainder that is zero for finite numbers; the second pass
  picks a row's pair by a product with its one-hot label row and returns `x · A + B`. The reference computes the same
  count and sums by scatter-add, gathers mean, istd, γ, β by the label and returns `(x − mean) · istd · γ + β`, or `x` for
  a domain of at most one row. The two agree because the variance is not negative (Cauchy–Schwarz), so `istd` is a
  real number and the rearrangement is valid.

  `frame_*`: the two kernel programs' frames are the generated ones; the reference's is its run with the result
  dropped. `preserves`: the two recorded rewrites. `algebraic`: the kernel program's run with its result array named
  (`RunResult.run_result`), that array row by row (`Assemble.kernel_value`), and the reference's result row by row
  (`RefVal.ref_apply`).
-/
import proofs.«404433_j4690104287826_3_alg».proof.Defs
import proofs.«404433_j4690104287826_3_alg».proof.Proof.Gen.Kernel
import proofs.«404433_j4690104287826_3_alg».proof.Proof.Gen.Kernel.Frame
import proofs.«404433_j4690104287826_3_alg».proof.Proof.Gen.KernelIdeal
import proofs.«404433_j4690104287826_3_alg».proof.Proof.Gen.KernelIdeal.Frame
import proofs.«404433_j4690104287826_3_alg».proof.Proof.Gen.ReferenceIdeal
import proofs.«404433_j4690104287826_3_alg».proof.Proof.Gen.Pre_finite_inputs
import proofs.«404433_j4690104287826_3_alg».proof.Proof.RunVal
import proofs.«404433_j4690104287826_3_alg».proof.Proof.RefRun
import proofs.«404433_j4690104287826_3_alg».proof.Proof.RefRead
import proofs.«404433_j4690104287826_3_alg».proof.Proof.RefVal
import proofs.«404433_j4690104287826_3_alg».proof.Proof.PreDecode
import proofs.«404433_j4690104287826_3_alg».proof.Proof.Assemble
import Idealize.ShloMosaic.Adequacy
import Idealize.ShloMosaic.Init

noncomputable section

/-! ## The claims -/

namespace Cert.Proof

open Idealize.ShloMosaic Idealize.ShloMosaic.TcCoe Idealize.ShloMosaic.ValueIdx Idealize.SL.Sem

/-- The printed kernel program runs and leaves its arguments alone. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- So does the reference: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The two recorded rewrites: widening a value just narrowed to bf16 is the identity on the extended reals. -/
theorem preserves : Cert.preserves_Kernel_KernelIdeal :=
  ⟨IdealRules.truncf_extf.statement _ .f32 .bf16, IdealRules.truncf_extf.statement _ .f32 .bf16⟩

/-- From memories agreeing on the inputs, under the precondition (finite floats, labels in 0 … 7), both idealized
    programs end with the same array: at every row and feature, the reference's formula of the row's domain. -/
theorem algebraic : Cert.algebraic_KernelIdeal_ReferenceIdeal := by
  intro m ρ m' ρ' hpre hagree
  refine ⟨fun c => Cert.KernelIdeal.Gen.W12 m ρ c (Proc.devRef .tc Cert.KernelIdeal.main_v37),
    Cert.KernelIdeal.RunResult.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨hx, hg, hb, hy⟩ := Cert.PreDecode.decode _ _ _ _ (hpre c)
  rw [Cert.ReferenceIdeal.ReadP.val_main_v65_eq, (hagree c).1, (hagree c).2.1, (hagree c).2.2.1, (hagree c).2.2.2]
  funext (i : Cert.ReferenceIdeal.S262144x256.Idx)
  obtain ⟨n, f, rfl⟩ : ∃ (n : Fin 262144) (f : Fin 256), i = ix2 n f := ⟨i 0, i 1, eq_ix2 i⟩
  rw [Cert.RefVal.ref_apply _ _ _ _ hy n f]
  exact (Cert.Assemble.kernel_value m ρ c hx hg hb hy n f).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
